-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x4096 : Shape := ⟨3, ![4, 4096, 4096]⟩
abbrev S4096x16 : Shape := ⟨2, ![4096, 16]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4096x16 : S_.BroadcastsInDim S4096x16 (![] : Fin 0 → Fin S4096x16.rank)
  reducesTo_S4096x16_S_d0_1 : S4096x16.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4x4096x64 .f32) (main_arg1 : FVec F S4x4096x4096 .f32) (main_arg2 : FVec F S4096x16 .f32) (main_arg3 : FVec F S_ .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4x4096x64 : Shape := ⟨3, ![4, 4096, 64]⟩
abbrev S4x4096x4096 : Shape := ⟨3, ![4, 4096, 4096]⟩
abbrev S4096x16 : Shape := ⟨2, ![4096, 16]⟩
abbrev S_ : Shape := ⟨0, ![]⟩
abbrev S4x4096x1 : Shape := ⟨3, ![4, 4096, 1]⟩
abbrev S1x512x512 : Shape := ⟨3, ![1, 512, 512]⟩
abbrev S512x16 : Shape := ⟨2, ![512, 16]⟩
abbrev S1x512x1 : Shape := ⟨3, ![1, 512, 1]⟩
abbrev S512x1 : Shape := ⟨2, ![512, 1]⟩
abbrev S512x512 : Shape := ⟨2, ![512, 512]⟩
abbrev S1x512x64 : Shape := ⟨3, ![1, 512, 64]⟩
abbrev S512x64 : Shape := ⟨2, ![512, 64]⟩

abbrev nBuf : Space → Nat
  | .hbm => 8
  | .vmem => 28
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S4096x16, .f32⟩
  | .hbm, ⟨3, _⟩ => ⟨S_, .f32⟩
  | .hbm, ⟨4, _⟩ => ⟨S4x4096x1, .f32⟩
  | .hbm, ⟨5, _⟩ => ⟨S4x4096x64, .f32⟩
  | .hbm, ⟨6, _⟩ => ⟨S4x4096x64, .f32⟩
  | .hbm, ⟨7, _⟩ => ⟨S4x4096x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x16, .f32⟩
  | .local _ .vmem, ⟨16, _⟩ => ⟨S512x16, .f32⟩
  | .local _ .vmem, ⟨17, _⟩ => ⟨S512x16, .f32⟩
  | .local _ .vmem, ⟨18, _⟩ => ⟨S512x16, .f32⟩
  | .local _ .vmem, ⟨19, _⟩ => ⟨S1x512x64, .f32⟩
  | .local _ .vmem, ⟨20, _⟩ => ⟨S1x512x64, .f32⟩
  | .local _ .vmem, ⟨21, _⟩ => ⟨S1x512x1, .f32⟩
  | .local _ .vmem, ⟨22, _⟩ => ⟨S1x512x1, .f32⟩
  | .local _ .vmem, ⟨23, _⟩ => ⟨S1x512x1, .f32⟩
  | .local _ .vmem, ⟨24, _⟩ => ⟨S1x512x1, .f32⟩
  | .local _ .vmem, ⟨25, _⟩ => ⟨S1x512x64, .f32⟩
  | .local _ .vmem, ⟨26, _⟩ => ⟨S1x512x64, .f32⟩
  | .local _ .vmem, ⟨27, _⟩ => ⟨S512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_19 : BitVec 32 := 0#32
  let v33 : BitVec 1 := Scalar.cmpi .ne v32 c0_i32_19
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v36 : BitVec 1 := Scalar.cmpi .eq arg2 c7_i32
  let v37 : BitVec 32 := Scalar.extui v36
  let c0_i32_24 : BitVec 32 := 0#32
  let v38 : BitVec 1 := Scalar.cmpi .ne v37 c0_i32_24
  v38

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  broadcasts_S512x1_S512x64 : S512x1.Broadcasts S512x64
  shapeCasts_S512x64_S1x512x64 : S512x64.ShapeCasts S1x512x64
  bcast_S_S4x4096x64 : S_.BroadcastsInDim S4x4096x64 (![] : Fin 0 → Fin S4x4096x64.rank)
  dot_S512x16_S512x16_S512x512_1_1_0_0_n_n_wf : DotDims.WF S512x16 S512x16 S512x512 [1] [1] [0] [0] [] []
  dot_S512x512_S512x1_S512x1_1_0_0_1_n_n_wf : DotDims.WF S512x512 S512x1 S512x1 [1] [0] [0] [1] [] []
  dot_S512x512_S512x1_S512x1_0_0_1_1_n_n_wf : DotDims.WF S512x512 S512x1 S512x1 [0] [0] [1] [1] [] []
  dot_S512x512_S512x64_S512x64_1_0_0_1_n_n_wf : DotDims.WF S512x512 S512x64 S512x64 [1] [0] [0] [1] [] []
  dot_S512x512_S512x64_S512x64_0_0_1_1_n_n_wf : DotDims.WF S512x512 S512x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x4096.size a
  hwx0_0 : ∀ i : grid0.Coords, EltTy.bits .f32 = 32 ∨ (Rect.block (s := S4x4096x4096) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x4096.size a
  hwx0_1 : ∀ i : grid0.Coords, EltTy.bits .f32 = 32 ∨ (Rect.block (s := S4x4096x4096) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .f32 = 32 ∨ (Rect.block (s := S4096x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S4x4096x1.size a
  hwx0_4 : ∀ i : grid0.Coords, EltTy.bits .f32 = 32 ∨ (Rect.block (s := S4x4096x1) S1x512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x4096x4096.size a
  hwx1_0 : ∀ i : grid1.Coords, EltTy.bits .f32 = 32 ∨ (Rect.block (s := S4x4096x4096) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x4096x4096.size a
  hwx1_1 : ∀ i : grid1.Coords, EltTy.bits .f32 = 32 ∨ (Rect.block (s := S4x4096x4096) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x16.size a ≤ S4096x16.size a
  hwx1_2 : ∀ i : grid1.Coords, EltTy.bits .f32 = 32 ∨ (Rect.block (s := S4096x16) S512x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x16.size a ≤ S4096x16.size a
  hwx1_3 : ∀ i : grid1.Coords, EltTy.bits .f32 = 32 ∨ (Rect.block (s := S4096x16) S512x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S4x4096x64.size a
  hwx1_4 : ∀ i : grid1.Coords, EltTy.bits .f32 = 32 ∨ (Rect.block (s := S4x4096x64) S1x512x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1.size a ≤ S4x4096x1.size a
  hwx1_5 : ∀ i : grid1.Coords, EltTy.bits .f32 = 32 ∨ (Rect.block (s := S4x4096x1) S1x512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1.size a ≤ S4x4096x1.size a
  hwx1_6 : ∀ i : grid1.Coords, EltTy.bits .f32 = 32 ∨ (Rect.block (s := S4x4096x1) S1x512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x64.size a ≤ S4x4096x64.size a
  hwx1_7 : ∀ i : grid1.Coords, EltTy.bits .f32 = 32 ∨ (Rect.block (s := S4x4096x64) S1x512x64.size (cc1_transform_7 i) (hinb1_7 i)).WholeWords (EltTy.packing .f32)

variable [Facts₀]

def dot_S512x16_S512x16_S512x512_1_1_0_0_n_n : DotDims S512x16 S512x16 S512x512 where
  lhsContracting := [1]
  rhsContracting := [1]
  lhsNonContracting := [0]
  rhsNonContracting := [0]
  lhsBatch := []
  rhsBatch := []
  wf := dot_S512x16_S512x16_S512x512_1_1_0_0_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S512x512_S512x1_S512x1_0_0_1_1_n_n : DotDims S512x512 S512x1 S512x1 where
  lhsContracting := [0]
  rhsContracting := [0]
  lhsNonContracting := [1]
  rhsNonContracting := [1]
  lhsBatch := []
  rhsBatch := []
  wf := dot_S512x512_S512x1_S512x1_0_0_1_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x64_S512x64_0_0_1_1_n_n : DotDims S512x512 S512x64 S512x64 where
  lhsContracting := [0]
  rhsContracting := [0]
  lhsNonContracting := [1]
  rhsNonContracting := [1]
  lhsBatch := []
  rhsBatch := []
  wf := dot_S512x512_S512x64_S512x64_0_0_1_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x512x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1x512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S4096x16 : Shape := ⟨2, ![4096, 16]⟩
abbrev S_ : Shape := ⟨0, ![]⟩
abbrev S16x4096 : Shape := ⟨2, ![16, 4096]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S4096x16, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S16x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S1x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x4096x64, .f32⟩
  | .hbm, ⟨35, _⟩ => ⟨S4x4096x64, .f32⟩
  | .hbm, ⟨36, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  transposes_S4x4096x4096_S4x4096x4096_0_2_1 : S4x4096x4096.Transposes [0, 2, 1] S4x4096x4096
  bcast_S_S4x4096x4096 : S_.BroadcastsInDim S4x4096x4096 (![] : Fin 0 → Fin S4x4096x4096.rank)
  transposes_S4096x16_S16x4096_1_0 : S4096x16.Transposes [1, 0] S16x4096
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S_S4x4096x64 : S_.BroadcastsInDim S4x4096x64 (![] : Fin 0 → Fin S4x4096x64.rank)
  dot_S4096x16_S16x4096_S4096x4096_1_0_0_1_n_n_wf : DotDims.WF S4096x16 S16x4096 S4096x4096 [1] [0] [0] [1] [] []
  dot_S4x4096x4096_S4x4096x64_S4x4096x64_2_1_1_2_0_0_wf : DotDims.WF S4x4096x4096 S4x4096x64 S4x4096x64 [2] [1] [1] [2] [0] [0]

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibWholeStore.lean ====
/-
  Stores through the rectangle that is the whole buffer (offset zero on every axis, the buffer's own sizes).

  Such a rectangle holds every index, so a list of pieces that begins with one covers the buffer whatever
  follows it, and what the buffer reads back after those writes is the first piece's payload. The zero
  offsets of ranks two and three are stated once, in the form the library's unit-rectangle lemmas take them.
-/
import Idealize.ShloMosaic.Lib.Pipeline.FrameBody
import Idealize.ShloMosaic.Lib.Pipeline.Value

noncomputable section

namespace WholeStore

open Idealize.ShloMosaic

variable {Val : EltTy → Type} {S : Shape} {e : EltTy}

/-- Every index lies in the whole-buffer rectangle: a piece list headed by a store through it covers the buffer. -/
theorem cover_cons {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- The one-piece case. -/
theorem cover_one {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set :=
  cover_cons h inb w [] y

/-- The offsets of a rank-2 and a rank-3 whole-buffer access are zero on every axis. -/
theorem zero2 : (![0, 0] : Fin 2 → Nat) = fun _ => 0 := by funext a; fin_cases a <;> rfl
theorem zero3 : (![0, 0, 0] : Fin 3 → Nat) = fun _ => 0 := by funext a; fin_cases a <;> rfl

end WholeStore

end
-- ==== Proof.Bits.DegreeBody.lean ====
/-
  The degree kernel's body at one grid point, as three triples.

  A grid point is (b, bi, bj). The body reads four blocks — the direct block W[b, bi-rows, bj-columns], the
  transposed-source block W[b, bj-rows, bi-columns], and the row blocks bi and bj of U — and adds to a running
  column (the scratch) half the sum of the two gated row totals. Which of its two conditionals it takes depends
  on bj alone: at bj = 0 it first clears the running column, at bj = 7 it afterwards stores
  rsqrt (max (column, eps)) into the output block, and in between it does neither. Each case is one triple, with
  the running column's new contents named through the printed payload functions.
-/
import proofs.«162411_j3959959847448_1_alg».proof.Proof.Gen.Kernel.Launch
import proofs.«162411_j3959959847448_1_alg».proof.Proof.Gen.Kernel.Skeleton
import proofs.«162411_j3959959847448_1_alg».proof.Proof.Gen.Kernel.Points
import proofs.«162411_j3959959847448_1_alg».proof.Proof.LibWholeStore
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body clears the running column before it adds to it: it is at the first block column. -/
abbrev cond0_0 (i : grid0.Coords) : Prop := (Scalar.cmpi .ne (Scalar.extui (Scalar.cmpi .eq (BitVec.ofNat 32 (i 2).val) 0#32)) 0#32) = 1#1
/-- The body stores the output block: it is at the last block column. -/
abbrev cond0_1 (i : grid0.Coords) : Prop := k0_cond2 i = 1#1

/-- Points are numbered row-major over (4, 8, 8), so the block column is the point's number modulo 8. -/
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

set_option maxHeartbeats 1000000 in
/-- First block column: whatever the running column held, it ends at the contribution added to zeros. -/
theorem degree_first (c : Dev nD) (E : Set ℕ) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x1 .f32) (harg7 : arg7.IsWhole) (arg8 : Memref sig .tc .vmem S512x1 .f32) (harg8 : arg8.IsWhole)
    (hc0 : cond0_0 i) (hc1 : ¬cond0_1 i)
    (x0 x1 : Vec F S1x512x512 .f32) (x2 x3 : Vec F S512x16 .f32) (y : Vec F S1x512x1 .f32) (s : Vec F S512x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare y ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (y) ∗ owns (c : Thread nD τ) arg8 fullShare (k0_pay3 x2 x3 x0 x1 (k0_pay2 (F := F)))) -∗ K ⟨⟩))
      ⊢ wp frame (wpE (defs₀ (F := F)) Variants.none c none) E (cc0__degree_kernel i arg3 harg3 arg4 harg4 arg5 harg5 arg6 harg6 arg7 harg7 arg8 harg8) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  sl_unfold_words
  rw [View.read_writes_eq_canon _ _ _ (WholeStore.cover_cons WholeStore.zero2 _ _ _), View.canon_cons_unit_zero WholeStore.zero2]
  simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]

set_option maxHeartbeats 1000000 in
/-- A middle block column: the running column gains the contribution; the output block is left as found. -/
theorem degree_middle (c : Dev nD) (E : Set ℕ) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x1 .f32) (harg7 : arg7.IsWhole) (arg8 : Memref sig .tc .vmem S512x1 .f32) (harg8 : arg8.IsWhole)
    (hc0 : ¬cond0_0 i) (hc1 : ¬cond0_1 i)
    (x0 x1 : Vec F S1x512x512 .f32) (x2 x3 : Vec F S512x16 .f32) (y : Vec F S1x512x1 .f32) (s : Vec F S512x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare y ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (y) ∗ owns (c : Thread nD τ) arg8 fullShare (k0_pay3 x2 x3 x0 x1 s)) -∗ K ⟨⟩))
      ⊢ wp frame (wpE (defs₀ (F := F)) Variants.none c none) E (cc0__degree_kernel i arg3 harg3 arg4 harg4 arg5 harg5 arg6 harg6 arg7 harg7 arg8 harg8) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  rw [View.read_writes_eq_canon _ _ _ (WholeStore.cover_one WholeStore.zero2 _ _), View.canon_unit_zero WholeStore.zero2]
  simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]

set_option maxHeartbeats 1000000 in
/-- Last block column: the running column gains the contribution, and the output block becomes
    rsqrt (max (column, eps)) of the completed column. -/
theorem degree_last (c : Dev nD) (E : Set ℕ) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x1 .f32) (harg7 : arg7.IsWhole) (arg8 : Memref sig .tc .vmem S512x1 .f32) (harg8 : arg8.IsWhole)
    (hc0 : ¬cond0_0 i) (hc1 : cond0_1 i)
    (x0 x1 : Vec F S1x512x512 .f32) (x2 x3 : Vec F S512x16 .f32) (y : Vec F S1x512x1 .f32) (s : Vec F S512x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare y ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k0_pay1 (k0_pay3 x2 x3 x0 x1 s)) ∗ owns (c : Thread nD τ) arg8 fullShare (k0_pay3 x2 x3 x0 x1 s)) -∗ K ⟨⟩))
      ⊢ wp frame (wpE (defs₀ (F := F)) Variants.none c none) E (cc0__degree_kernel i arg3 harg3 arg4 harg4 arg5 harg5 arg6 harg6 arg7 harg7 arg8 harg8) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_words
    rw [View.read_writes_eq_canon _ _ _ (WholeStore.cover_one WholeStore.zero3 _ _), View.canon_unit_zero WholeStore.zero3]
    simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]
  iexists _; isplitr
  swap; · iexact H5
  ipureintro
  sl_unfold_words
  rw [View.read_writes_eq_canon _ _ _ (WholeStore.cover_one WholeStore.zero2 _ _), View.canon_unit_zero WholeStore.zero2]
  simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]

end Cert.Kernel.Hand

end
-- ==== Proof.Bits.DegreeData.lean ====
/-
  The degree kernel over its whole grid: what every buffer holds between grid points.

  The grid (4, 8, 8) is walked row-major, so point number n has block column n mod 8, and the eight points of one
  (b, bi) are consecutive. The running column after point n is the contribution of point n added to the running
  column after point n - 1, or to zeros when n opens a new (b, bi). The input windows' staging buffers hold their
  blocks of the arrays as the region finds them; the output window's buffer, at the last block column, holds
  rsqrt (max (column, eps)) of the completed column. Two windows read W and two read U: each pair holds its array
  by the two halves of the full share.
-/
import proofs.«162411_j3959959847448_1_alg».proof.Proof.Bits.DegreeBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The direct block of W, the transposed-source block of W, and the row blocks bi and bj of U at point `t`. -/
abbrev wd0 (c : Dev nD) (t : Fin cfg0.N) : Vec F S1x512x512 .f32 := iblk0 V c 0 t
abbrev wt0 (c : Dev nD) (t : Fin cfg0.N) : Vec F S1x512x512 .f32 := iblk0 V c 1 t
abbrev ui0 (c : Dev nD) (t : Fin cfg0.N) : Vec F S512x16 .f32 := iblk0 V c 2 t
abbrev uj0 (c : Dev nD) (t : Fin cfg0.N) : Vec F S512x16 .f32 := iblk0 V c 3 t

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The running column -/

/-- The grid point with number `n` (numbers wrap; only `n < 256` is used). -/
def pt0 (n : ℕ) : Fin cfg0.N := ⟨n % cfg0.N, Nat.mod_lt _ (by rw [show cfg0.N = 256 from N_0]; decide)⟩

theorem pt0_val (t : Fin cfg0.N) : pt0 t.val = t := Fin.ext (Nat.mod_eq_of_lt t.isLt)

/-- The running column after point `n`: point `n`'s contribution added to what the point before left, or to
    zeros where `n` opens a new row of blocks. -/
def col0 (c : Dev nD) : ℕ → Vec F S512x1 .f32
  | 0 => k0_pay3 (ui0 V c (pt0 0)) (uj0 V c (pt0 0)) (wd0 V c (pt0 0)) (wt0 V c (pt0 0)) (k0_pay2 (F := F))
  | n + 1 => k0_pay3 (ui0 V c (pt0 (n + 1))) (uj0 V c (pt0 (n + 1))) (wd0 V c (pt0 (n + 1))) (wt0 V c (pt0 (n + 1)))
      (if (n + 1) % 8 = 0 then k0_pay2 (F := F) else col0 c n)

theorem col0_first (c : Dev nD) (t : Fin cfg0.N) (h : t.val % 8 = 0) :
    col0 V c t.val = k0_pay3 (ui0 V c t) (uj0 V c t) (wd0 V c t) (wt0 V c t) (k0_pay2 (F := F)) := by
  obtain ⟨n, hn⟩ := t
  cases n with
  | zero => show col0 V c 0 = _; unfold col0; rw [show pt0 0 = ⟨0, hn⟩ from pt0_val ⟨0, hn⟩]
  | succ n =>
    show col0 V c (n + 1) = _
    unfold col0; rw [show pt0 (n + 1) = ⟨n + 1, hn⟩ from pt0_val ⟨n + 1, hn⟩, if_pos h]

theorem col0_next (c : Dev nD) (t : Fin cfg0.N) (h : ¬ t.val % 8 = 0) :
    col0 V c t.val = k0_pay3 (ui0 V c t) (uj0 V c t) (wd0 V c t) (wt0 V c t) (col0 V c (t.val - 1)) := by
  obtain ⟨n, hn⟩ := t
  cases n with
  | zero => exact absurd (Nat.zero_mod _) h
  | succ n =>
    show col0 V c (n + 1) = _
    conv_lhs => unfold col0
    rw [show pt0 (n + 1) = ⟨n + 1, hn⟩ from pt0_val ⟨n + 1, hn⟩, if_neg h]; rfl

/-! ## Between grid points -/

/-- The scoped buffers the degree kernel never touches, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The scratch before point `t`: the running column after point `t - 1`, unless `t` opens a new row of blocks
    (then the body clears it before reading it, and its contents do not matter). -/
def colInv0 (c : Dev nD) (t : Fin (cfg0.N + 1)) : sProp 𝕄 :=
  iprop(∃ s : Vec F S512x1 .f32, ⌜t.val % 8 ≠ 0 → s = col0 V c (t.val - 1)⌝ ∗ owns (c : Thread nD τ) (Memref.whole cc0_scratch0) fullShare s)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (col0 V c t.val)
  Φ t := iprop(colInv0 V c t ∗ rest0 c)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (col0 V c t.val) := by dsimp only [dat0]
theorem Φ0_eq (c : Dev nD) (t : Fin (cfg0.N + 1)) : (dat0 V c).Φ t = iprop(colInv0 V c t ∗ rest0 c) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (dat0 V c).leavesExact 4 t)

/-- The output window is idle away from the last block column, and is written back exactly there. -/
theorem idle0_4 (t : Fin cfg0.N) : cfg0.idle 4 (cfg0.grid.coords t) = true ↔ ¬ t.val % 8 = 7 :=
  (by decide +kernel : ∀ t : Fin grid0.N, idle0 4 (grid0.coords t) = true ↔ ¬ t.val % 8 = 7) t

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, Φ0_eq, Φ0_eq]
  unfold colInv0
  by_cases h0 : t.val % 8 = 0
  · -- the point opens a row of blocks
    have h7 : ¬ t.val % 8 = 7 := by omega
    rw [Dat.leavesExact_idle _ 4 t ((idle0_4 t).mpr h7) (Bool.eq_false_iff.mpr fun h => h7 ((flush0_4 t).mp h))]
    iintro ⟨⟨⟨%s, -, Hs⟩, Hrest⟩, Ho, ⟨%d0, H0⟩, ⟨%d1, H1⟩, ⟨%d2, H2⟩, ⟨%d3, H3⟩, ⟨%d4, H4⟩⟩
    iapply (degree_first c Set.univ (grid0.coords t) _ _ _ _ _ _ _ _ _ _ _ _ ((hcond0_0 t).mpr h0) (fun h => h7 ((hcond0_1 t).mp h))
      (wd0 V c t) (wt0 V c t) (ui0 V c t) (uj0 V c t) ((dat0 V c).before 4 t d4) s _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hrest]
    · isplitl [Hs]
      · iexists _; isplitr
        swap; · iexact Hs
        ipureintro; intro _
        show _ = col0 V c (t.val + 1 - 1)
        rw [Nat.add_sub_cancel, col0_first V c t h0]
      iexact Hrest
    isplitl [Ho]; · iexact Ho
    isplitl [H0]; · iexact H0
    isplitl [H1]; · iexact H1
    isplitl [H2]; · iexact H2
    isplitl [H3]; · iexact H3
    iexists _; iexact H4
  · by_cases h7 : t.val % 8 = 7
    · -- the point closes a row of blocks
      have hlive : cfg0.idle 4 (cfg0.grid.coords t) = false := by
        rcases hb : cfg0.idle 4 (cfg0.grid.coords t) with _ | _
        · rfl
        · exact absurd h7 ((idle0_4 t).mp hb)
      rw [show (dat0 V c).leavesExact 4 t = owns (c : Thread nD τ) (st0_4 t) fullShare ((dat0 V c).after 4 t) from by
        unfold Dat.leavesExact; rw [hlive], after0_4]
      iintro ⟨⟨⟨%s, %hs, Hs⟩, Hrest⟩, Ho, ⟨%d0, H0⟩, ⟨%d1, H1⟩, ⟨%d2, H2⟩, ⟨%d3, H3⟩, ⟨%d4, H4⟩⟩
      iapply (degree_last c Set.univ (grid0.coords t) _ _ _ _ _ _ _ _ _ _ _ _ (fun h => h0 ((hcond0_0 t).mp h)) ((hcond0_1 t).mpr h7)
        (wd0 V c t) (wt0 V c t) (ui0 V c t) (uj0 V c t) ((dat0 V c).before 4 t d4) s _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      have hcol : k0_pay3 (ui0 V c t) (uj0 V c t) (wd0 V c t) (wt0 V c t) s = col0 V c t.val := by
        rw [col0_next V c t h0, hs h0]; rfl
      rw [hcol]
      isplitl [Hs Hrest]
      · isplitl [Hs]
        · iexists _; isplitr
          swap; · iexact Hs
          ipureintro; intro _
          show _ = col0 V c (t.val + 1 - 1)
          rw [Nat.add_sub_cancel]
        iexact Hrest
      isplitl [Ho]; · iexact Ho
      isplitl [H0]; · iexact H0
      isplitl [H1]; · iexact H1
      isplitl [H2]; · iexact H2
      isplitl [H3]; · iexact H3
      iexact H4
    · -- a point inside a row of blocks
      rw [Dat.leavesExact_idle _ 4 t ((idle0_4 t).mpr h7) (Bool.eq_false_iff.mpr fun h => h7 ((flush0_4 t).mp h))]
      iintro ⟨⟨⟨%s, %hs, Hs⟩, Hrest⟩, Ho, ⟨%d0, H0⟩, ⟨%d1, H1⟩, ⟨%d2, H2⟩, ⟨%d3, H3⟩, ⟨%d4, H4⟩⟩
      iapply (degree_middle c Set.univ (grid0.coords t) _ _ _ _ _ _ _ _ _ _ _ _ (fun h => h0 ((hcond0_0 t).mp h)) (fun h => h7 ((hcond0_1 t).mp h))
        (wd0 V c t) (wt0 V c t) (ui0 V c t) (uj0 V c t) ((dat0 V c).before 4 t d4) s _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Hs Hrest]
      · isplitl [Hs]
        · iexists _; isplitr
          swap; · iexact Hs
          ipureintro; intro _
          show _ = col0 V c (t.val + 1 - 1)
          rw [Nat.add_sub_cancel, col0_next V c t h0, hs h0]; rfl
        iexact Hrest
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- At entry the scoped buffers that are no staging buffer, each at some contents, make the invariant at point 0. -/
theorem Φ0_in (c : Dev nD) : (Pipeline.scopedRest (Ix := Unit) (Name := ℕ) (U := UR sig nD τ) (Lvl := ℕ) (Val := Elt F) spec0 c : sProp 𝕄) ⊢ (dat0 V c).Φ 0 := by
  rw [scopedRest0_eq, Φ0_eq]; unfold colInv0 rest0
  simp only [owns_whole]
  iintro ⟨⟨%f, Hs⟩, Hrest⟩
  isplitl [Hs]
  · iexists f; isplitr; · ipureintro; intro h; exact absurd rfl h
    iexact Hs
  iexact Hrest

/-- After the last point the invariant gives them back. -/
theorem Φ0_out (c : Dev nD) : (dat0 V c).Φ (Fin.last cfg0.N) ⊢ (Pipeline.scopedRest (Ix := Unit) (Name := ℕ) (U := UR sig nD τ) (Lvl := ℕ) (Val := Elt F) spec0 c : sProp 𝕄) := by
  rw [scopedRest0_eq, Φ0_eq]; unfold colInv0 rest0
  simp only [owns_whole]
  iintro ⟨⟨%s, -, Hs⟩, Hrest⟩
  isplitl [Hs]
  · iexists s; iexact Hs
  iexact Hrest

end Cert.Kernel.Hand

end
-- ==== Proof.Bits.CouplingBody.lean ====
/-
  The coupling kernel's body at one grid point, as three triples.

  A grid point is (b, bi, bj). The body reads the two blocks of W and the two row blocks of U as the degree kernel
  does, the block bj of x, and the blocks bi and bj of the degree column d. It adds to a running block (the
  scratch, 512 rows by 64 channels) half the sum of the two gated products with d[bj-rows] * x[bj-rows]. At bj = 0
  it first clears the running block; at bj = 7 it afterwards stores d[bi-rows] times the completed block into the
  output block; in between it does neither. Each case is one triple over the printed payload functions.
-/
import proofs.«162411_j3959959847448_1_alg».proof.Proof.Gen.Kernel.Launch
import proofs.«162411_j3959959847448_1_alg».proof.Proof.Gen.Kernel.Skeleton
import proofs.«162411_j3959959847448_1_alg».proof.Proof.Gen.Kernel.Points
import proofs.«162411_j3959959847448_1_alg».proof.Proof.LibWholeStore
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body clears the running block first: it is at the first block column. -/
abbrev cond1_0 (i : grid1.Coords) : Prop := (Scalar.cmpi .ne (Scalar.extui (Scalar.cmpi .eq (BitVec.ofNat 32 (i 2).val) 0#32)) 0#32) = 1#1
/-- The body stores the output block: it is at the last block column. -/
abbrev cond1_1 (i : grid1.Coords) : Prop := k1_cond2 i = 1#1

/-- Points are numbered row-major over (4, 8, 8), so the block column is the point's number modulo 8. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

set_option maxHeartbeats 2000000 in
/-- First block column: whatever the running block held, it ends at the contribution added to zeros. -/
theorem coupling_first (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : cond1_0 i) (hc1 : ¬cond1_1 i)
    (x0 x1 : Vec F S1x512x512 .f32) (x2 x3 : Vec F S512x16 .f32) (x4 : Vec F S1x512x64 .f32) (x5 x6 : Vec F S1x512x1 .f32)
    (y : Vec F S1x512x64 .f32) (s : Vec F S512x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare y ∗ owns (c : Thread nD τ) arg11 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (y) ∗ owns (c : Thread nD τ) arg11 fullShare (k1_pay1 (k1_pay4 x2 x3 x0 x1 x6 x4) (k1_pay3 (F := F)))) -∗ K ⟨⟩))
      ⊢ wp frame (wpE (defs₀ (F := F)) Variants.none c none) E (cc1__matmul_kernel i arg3 harg3 arg4 harg4 arg5 harg5 arg6 harg6 arg7 harg7 arg8 harg8 arg9 harg9 arg10 harg10 arg11 harg11) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr
  swap; · iexact H8
  ipureintro
  sl_unfold_words
  rw [View.read_writes_eq_canon _ _ _ (WholeStore.cover_cons WholeStore.zero2 _ _ _), View.canon_cons_unit_zero WholeStore.zero2]
  simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]

set_option maxHeartbeats 2000000 in
/-- A middle block column: the running block gains the contribution; the output block is left as found. -/
theorem coupling_middle (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond1_0 i) (hc1 : ¬cond1_1 i)
    (x0 x1 : Vec F S1x512x512 .f32) (x2 x3 : Vec F S512x16 .f32) (x4 : Vec F S1x512x64 .f32) (x5 x6 : Vec F S1x512x1 .f32)
    (y : Vec F S1x512x64 .f32) (s : Vec F S512x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare y ∗ owns (c : Thread nD τ) arg11 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (y) ∗ owns (c : Thread nD τ) arg11 fullShare (k1_pay1 (k1_pay4 x2 x3 x0 x1 x6 x4) s)) -∗ K ⟨⟩))
      ⊢ wp frame (wpE (defs₀ (F := F)) Variants.none c none) E (cc1__matmul_kernel i arg3 harg3 arg4 harg4 arg5 harg5 arg6 harg6 arg7 harg7 arg8 harg8 arg9 harg9 arg10 harg10 arg11 harg11) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr
  swap; · iexact H8
  ipureintro
  sl_unfold_words
  rw [View.read_writes_eq_canon _ _ _ (WholeStore.cover_one WholeStore.zero2 _ _), View.canon_unit_zero WholeStore.zero2]
  simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]

set_option maxHeartbeats 2000000 in
/-- Last block column: the running block gains the contribution, and the output block becomes the bi-rows of d
    times the completed block. -/
theorem coupling_last (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond1_0 i) (hc1 : cond1_1 i)
    (x0 x1 : Vec F S1x512x512 .f32) (x2 x3 : Vec F S512x16 .f32) (x4 : Vec F S1x512x64 .f32) (x5 x6 : Vec F S1x512x1 .f32)
    (y : Vec F S1x512x64 .f32) (s : Vec F S512x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare y ∗ owns (c : Thread nD τ) arg11 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (k1_pay2 x5 (k1_pay1 (k1_pay4 x2 x3 x0 x1 x6 x4) s)) ∗ owns (c : Thread nD τ) arg11 fullShare (k1_pay1 (k1_pay4 x2 x3 x0 x1 x6 x4) s)) -∗ K ⟨⟩))
      ⊢ wp frame (wpE (defs₀ (F := F)) Variants.none c none) E (cc1__matmul_kernel i arg3 harg3 arg4 harg4 arg5 harg5 arg6 harg6 arg7 harg7 arg8 harg8 arg9 harg9 arg10 harg10 arg11 harg11) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    sl_unfold_words
    rw [View.read_writes_eq_canon _ _ _ (WholeStore.cover_one WholeStore.zero3 _ _), View.canon_unit_zero WholeStore.zero3]
    simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]
  iexists _; isplitr
  swap; · iexact H8
  ipureintro
  sl_unfold_words
  rw [View.read_writes_eq_canon _ _ _ (WholeStore.cover_one WholeStore.zero2 _ _), View.canon_unit_zero WholeStore.zero2]
  simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]

end Cert.Kernel.Hand

end
-- ==== Proof.Bits.CouplingData.lean ====
/-
  The coupling kernel over its whole grid: what every buffer holds between grid points.

  The grid (4, 8, 8) is walked row-major, so point number n has block column n mod 8 and the eight points of one
  (b, bi) are consecutive. The running block after point n is point n's contribution added to the running block
  after point n - 1, or to zeros when n opens a new (b, bi). The input windows' staging buffers hold their blocks of
  the arrays as the region finds them; the output window's buffer, at the last block column, holds the bi-rows of
  the degree column times the completed block. W, U and the degree column are each read through two windows, which
  hold the array by the two halves of the full share.
-/
import proofs.«162411_j3959959847448_1_alg».proof.Proof.Bits.CouplingBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The direct and the transposed-source block of W, the row blocks bi and bj of U, the block bj of x, and the
    blocks bi and bj of the degree column, at point `t`. -/
abbrev wd1 (c : Dev nD) (t : Fin cfg1.N) : Vec F S1x512x512 .f32 := iblk1 V c 0 t
abbrev wt1 (c : Dev nD) (t : Fin cfg1.N) : Vec F S1x512x512 .f32 := iblk1 V c 1 t
abbrev ui1 (c : Dev nD) (t : Fin cfg1.N) : Vec F S512x16 .f32 := iblk1 V c 2 t
abbrev uj1 (c : Dev nD) (t : Fin cfg1.N) : Vec F S512x16 .f32 := iblk1 V c 3 t
abbrev xj1 (c : Dev nD) (t : Fin cfg1.N) : Vec F S1x512x64 .f32 := iblk1 V c 4 t
abbrev di1 (c : Dev nD) (t : Fin cfg1.N) : Vec F S1x512x1 .f32 := iblk1 V c 5 t
abbrev dj1 (c : Dev nD) (t : Fin cfg1.N) : Vec F S1x512x1 .f32 := iblk1 V c 6 t

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The running block -/

/-- The grid point with number `n` (numbers wrap; only `n < 256` is used). -/
def pt1 (n : ℕ) : Fin cfg1.N := ⟨n % cfg1.N, Nat.mod_lt _ (by rw [show cfg1.N = 256 from N_1]; decide)⟩

theorem pt1_val (t : Fin cfg1.N) : pt1 t.val = t := Fin.ext (Nat.mod_eq_of_lt t.isLt)

/-- The running block after point `n`: point `n`'s contribution added to what the point before left, or to zeros
    where `n` opens a new row of blocks. -/
def acc1 (c : Dev nD) : ℕ → Vec F S512x64 .f32
  | 0 => k1_pay1 (k1_pay4 (ui1 V c (pt1 0)) (uj1 V c (pt1 0)) (wd1 V c (pt1 0)) (wt1 V c (pt1 0)) (dj1 V c (pt1 0)) (xj1 V c (pt1 0))) (k1_pay3 (F := F))
  | n + 1 => k1_pay1 (k1_pay4 (ui1 V c (pt1 (n + 1))) (uj1 V c (pt1 (n + 1))) (wd1 V c (pt1 (n + 1))) (wt1 V c (pt1 (n + 1))) (dj1 V c (pt1 (n + 1))) (xj1 V c (pt1 (n + 1))))
      (if (n + 1) % 8 = 0 then k1_pay3 (F := F) else acc1 c n)

theorem acc1_first (c : Dev nD) (t : Fin cfg1.N) (h : t.val % 8 = 0) :
    acc1 V c t.val = k1_pay1 (k1_pay4 (ui1 V c t) (uj1 V c t) (wd1 V c t) (wt1 V c t) (dj1 V c t) (xj1 V c t)) (k1_pay3 (F := F)) := by
  obtain ⟨n, hn⟩ := t
  cases n with
  | zero => show acc1 V c 0 = _; unfold acc1; rw [show pt1 0 = ⟨0, hn⟩ from pt1_val ⟨0, hn⟩]
  | succ n =>
    show acc1 V c (n + 1) = _
    unfold acc1; rw [show pt1 (n + 1) = ⟨n + 1, hn⟩ from pt1_val ⟨n + 1, hn⟩, if_pos h]

theorem acc1_next (c : Dev nD) (t : Fin cfg1.N) (h : ¬ t.val % 8 = 0) :
    acc1 V c t.val = k1_pay1 (k1_pay4 (ui1 V c t) (uj1 V c t) (wd1 V c t) (wt1 V c t) (dj1 V c t) (xj1 V c t)) (acc1 V c (t.val - 1)) := by
  obtain ⟨n, hn⟩ := t
  cases n with
  | zero => exact absurd (Nat.zero_mod _) h
  | succ n =>
    show acc1 V c (n + 1) = _
    conv_lhs => unfold acc1
    rw [show pt1 (n + 1) = ⟨n + 1, hn⟩ from pt1_val ⟨n + 1, hn⟩, if_neg h]; rfl

/-! ## Between grid points -/

/-- The scoped buffers the coupling kernel never touches, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The scratch before point `t`: the running block after point `t - 1`, unless `t` opens a new row of blocks
    (then the body clears it before reading it, and its contents do not matter). -/
def accInv1 (c : Dev nD) (t : Fin (cfg1.N + 1)) : sProp 𝕄 :=
  iprop(∃ s : Vec F S512x64 .f32, ⌜t.val % 8 ≠ 0 → s = acc1 V c (t.val - 1)⌝ ∗ owns (c : Thread nD τ) (Memref.whole cc1_scratch0) fullShare s)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay2 (di1 V c t) (acc1 V c t.val)
  Φ t := iprop(rest1 c ∗ accInv1 V c t)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare.left
    | ⟨6, _⟩ => fullShare.right
    | ⟨7, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay2 (di1 V c t) (acc1 V c t.val) := by dsimp only [dat1]
theorem Φ1_eq (c : Dev nD) (t : Fin (cfg1.N + 1)) : (dat1 V c).Φ t = iprop(rest1 c ∗ accInv1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (dat1 V c).leavesExact 7 t)

/-- The output window is idle away from the last block column, and is written back exactly there. -/
theorem idle1_7 (t : Fin cfg1.N) : cfg1.idle 7 (cfg1.grid.coords t) = true ↔ ¬ t.val % 8 = 7 :=
  (by decide +kernel : ∀ t : Fin grid1.N, idle1 7 (grid1.coords t) = true ↔ ¬ t.val % 8 = 7) t

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, Φ1_eq, Φ1_eq]
  unfold accInv1
  by_cases h0 : t.val % 8 = 0
  · -- the point opens a row of blocks
    have h7 : ¬ t.val % 8 = 7 := by omega
    rw [Dat.leavesExact_idle _ 7 t ((idle1_7 t).mpr h7) (Bool.eq_false_iff.mpr fun h => h7 ((flush1_7 t).mp h))]
    iintro ⟨⟨Hrest, ⟨%s, -, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (coupling_first c Set.univ (grid1.coords t) _ _ _ _ _ _ _ _ _ _ _ _ _ _ _ _ _ _ ((hcond1_0 t).mpr h0) (fun h => h7 ((hcond1_1 t).mp h))
      (wd1 V c t) (wt1 V c t) (ui1 V c t) (uj1 V c t) (xj1 V c t) (di1 V c t) (dj1 V c t) ((dat1 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    iintro ⟨H0, H1, H2, H3, H4, H5, H6, H7, Hs⟩
    rw [show k1_pay1 (k1_pay4 (ui1 V c t) (uj1 V c t) (wd1 V c t) (wt1 V c t) (dj1 V c t) (xj1 V c t)) (k1_pay3 (F := F)) = acc1 V c t.val from (acc1_first V c t h0).symm]
    isplitl [Hs Hrest]
    · isplitl [Hrest]; · iexact Hrest
      iexists _; isplitr
      swap; · iexact Hs
      ipureintro; intro _
      show _ = acc1 V c (t.val + 1 - 1)
      rw [Nat.add_sub_cancel]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h7 : t.val % 8 = 7
    · -- the point closes a row of blocks
      have hlive : cfg1.idle 7 (cfg1.grid.coords t) = false := by
        rcases hb : cfg1.idle 7 (cfg1.grid.coords t) with _ | _
        · rfl
        · exact absurd h7 ((idle1_7 t).mp hb)
      rw [show (dat1 V c).leavesExact 7 t = owns (c : Thread nD τ) (st1_7 t) fullShare ((dat1 V c).after 7 t) from by
          unfold Dat.leavesExact; rw [hlive], after1_7]
      iintro ⟨⟨Hrest, ⟨%s, %hs, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (coupling_last c Set.univ (grid1.coords t) _ _ _ _ _ _ _ _ _ _ _ _ _ _ _ _ _ _ (fun h => h0 ((hcond1_0 t).mp h)) ((hcond1_1 t).mpr h7)
        (wd1 V c t) (wt1 V c t) (ui1 V c t) (uj1 V c t) (xj1 V c t) (di1 V c t) (dj1 V c t) ((dat1 V c).before 7 t d7) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      iintro ⟨H0, H1, H2, H3, H4, H5, H6, H7, Hs⟩
      rw [show k1_pay1 (k1_pay4 (ui1 V c t) (uj1 V c t) (wd1 V c t) (wt1 V c t) (dj1 V c t) (xj1 V c t)) s = acc1 V c t.val from by rw [acc1_next V c t h0, hs h0]; rfl]
      isplitl [Hs Hrest]
      · isplitl [Hrest]; · iexact Hrest
        iexists _; isplitr
        swap; · iexact Hs
        ipureintro; intro _
        show _ = acc1 V c (t.val + 1 - 1)
        rw [Nat.add_sub_cancel]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point inside a row of blocks
      rw [Dat.leavesExact_idle _ 7 t ((idle1_7 t).mpr h7) (Bool.eq_false_iff.mpr fun h => h7 ((flush1_7 t).mp h))]
      iintro ⟨⟨Hrest, ⟨%s, %hs, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (coupling_middle c Set.univ (grid1.coords t) _ _ _ _ _ _ _ _ _ _ _ _ _ _ _ _ _ _ (fun h => h0 ((hcond1_0 t).mp h)) (fun h => h7 ((hcond1_1 t).mp h))
        (wd1 V c t) (wt1 V c t) (ui1 V c t) (uj1 V c t) (xj1 V c t) (di1 V c t) (dj1 V c t) ((dat1 V c).before 7 t d7) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      iintro ⟨H0, H1, H2, H3, H4, H5, H6, H7, Hs⟩
      rw [show k1_pay1 (k1_pay4 (ui1 V c t) (uj1 V c t) (wd1 V c t) (wt1 V c t) (dj1 V c t) (xj1 V c t)) s = acc1 V c t.val from by rw [acc1_next V c t h0, hs h0]; rfl]
      isplitl [Hs Hrest]
      · isplitl [Hrest]; · iexact Hrest
        iexists _; isplitr
        swap; · iexact Hs
        ipureintro; intro _
        show _ = acc1 V c (t.val + 1 - 1)
        rw [Nat.add_sub_cancel]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the invariant -/

/-- At entry the scoped buffers that are no staging buffer, each at some contents, make the invariant at point 0. -/
theorem Φ1_in (c : Dev nD) : (Pipeline.scopedRest (Ix := Unit) (Name := ℕ) (U := UR sig nD τ) (Lvl := ℕ) (Val := Elt F) spec1 c : sProp 𝕄) ⊢ (dat1 V c).Φ 0 := by
  rw [scopedRest1_eq, Φ1_eq]; unfold accInv1 rest1
  simp only [owns_whole]
  iintro ⟨R0, R1, R2, R3, R4, R5, R6, R7, R8, R9, R10, ⟨%f, Hs⟩⟩
  isplitr [Hs]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexists f; isplitr; · ipureintro; intro h; exact absurd rfl h
  iexact Hs

/-- After the last point the invariant gives them back. -/
theorem Φ1_out (c : Dev nD) : (dat1 V c).Φ (Fin.last cfg1.N) ⊢ (Pipeline.scopedRest (Ix := Unit) (Name := ℕ) (U := UR sig nD τ) (Lvl := ℕ) (Val := Elt F) spec1 c : sProp 𝕄) := by
  rw [scopedRest1_eq, Φ1_eq]; unfold accInv1 rest1
  simp only [owns_whole]
  iintro ⟨⟨R0, R1, R2, R3, R4, R5, R6, R7, R8, R9, R10⟩, ⟨%s, -, Hs⟩⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexists s; iexact Hs

end Cert.Kernel.Hand

end
-- ==== Proof.Bits.TwoRegionRun.lean ====
/-
  The whole program as a run: the degree region, the coupling region, then the host's scaling by w_scale.

  Between two items a core's unscoped buffers hold: at launch the memory it was launched with; after the degree
  region the same but for the degree column, which holds what that region's write-backs leave; after the coupling
  region the same but for the coupled array; after the host stretch what its two operations compute from those.
  A region borrows the buffers behind its windows' arrays and gives them back. W, U and (in the coupling region)
  the degree column are each read through two windows, so a region deals such a buffer to its two windows by the
  two halves of the full share and joins the halves again when it ends; an input array is never written, so it
  comes back at the contents it was lent at.
-/
import proofs.«162411_j3959959847448_1_alg».proof.Proof.Bits.DegreeData
import proofs.«162411_j3959959847448_1_alg».proof.Proof.Bits.CouplingData
import proofs.«162411_j3959959847448_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSepL bigSepL_cons_cons bigSepL_singleton bigSep_eq_bigSepL_of_eq)
open Idealize.ShloMosaic.Pipeline (Seg HostSeg RegionSeg)

/-! ## Dealing a shared array's full share to the windows on it, and joining it again -/

section Deal

variable (V : (c : Dev nD) → (b : Ref sig .tc) → Buf (Elt F) ((c : Thread nD τ).loc b))

/-- The buffers behind the degree region's windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1 : sProp 𝕄) ∗ (((c : Thread nD τ).loc main_arg2) ↦{fullShare} V' main_arg2 : sProp 𝕄) ∗ (((c : Thread nD τ).loc main_v0) ↦{fullShare} V' main_v0 : sProp 𝕄)) := by
  unfold Pipeline.arrBufs
  exact bigSep_eq_bigSepL_of_eq [main_arg1, main_arg2, main_v0] (by decide) (by decide) _

/-- The buffers behind the coupling region's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1 : sProp 𝕄) ∗ (((c : Thread nD τ).loc main_arg2) ↦{fullShare} V' main_arg2 : sProp 𝕄) ∗ (((c : Thread nD τ).loc main_arg0) ↦{fullShare} V' main_arg0 : sProp 𝕄)
          ∗ (((c : Thread nD τ).loc main_v0) ↦{fullShare} V' main_v0 : sProp 𝕄) ∗ (((c : Thread nD τ).loc main_v1) ↦{fullShare} V' main_v1 : sProp 𝕄)) := by
  unfold Pipeline.arrBufs
  exact bigSep_eq_bigSepL_of_eq [main_arg1, main_arg2, main_arg0, main_v0, main_v1] (by decide) (by decide) _

theorem deal0 (c : Dev nD) :
    (Pipeline.arrBufs (Ix := Unit) (Name := ℕ) (U := UR sig nD τ) (Lvl := ℕ) spec0 c (V c) : sProp 𝕄) ⊢ (dat0 V c).arrays ((dat0 V c).arrAt · 0) := by
  rw [arrBufs0_eq]; unfold Dat.arrays
  rw [bigSep_W0]
  simp only [View.set_whole]
  rw [show (dat0 V c).share 0 = fullShare.left from rfl, show (dat0 V c).share 1 = fullShare.right from rfl,
    show (dat0 V c).share 2 = fullShare.left from rfl, show (dat0 V c).share 3 = fullShare.right from rfl,
    show (dat0 V c).share 4 = fullShare from rfl]
  iintro ⟨HW, HU, Hd⟩
  ihave HW2 := (pointsTo_share (PosShare.mem_left_op_right fullShare)).1 $$ HW
  icases HW2 with ⟨HWl, HWr⟩
  ihave HU2 := (pointsTo_share (PosShare.mem_left_op_right fullShare)).1 $$ HU
  icases HU2 with ⟨HUl, HUr⟩
  isplitl [HWl]; · iexact HWl
  isplitl [HWr]; · iexact HWr
  isplitl [HUl]; · iexact HUl
  isplitl [HUr]; · iexact HUr
  iexact Hd

theorem join0 (c : Dev nD) (V' : (b : Ref sig .tc) → Buf (Elt F) ((c : Thread nD τ).loc b))
    (Fn : (w : Fin cfg0.W) → Buf (Elt F) ((cfg0.win w).arr.view.loc (c : Thread nD τ)))
    (e0 : Fn 0 = V' main_arg1) (e1 : Fn 1 = V' main_arg1) (e2 : Fn 2 = V' main_arg2) (e3 : Fn 3 = V' main_arg2) (e4 : Fn 4 = V' main_v0) :
    (dat0 V c).arrays Fn ⊢ (Pipeline.arrBufs (Ix := Unit) (Name := ℕ) (U := UR sig nD τ) (Lvl := ℕ) spec0 c V' : sProp 𝕄) := by
  rw [arrBufs0_eq]; unfold Dat.arrays
  rw [bigSep_W0]
  simp only [View.set_whole]
  rw [show (dat0 V c).share 0 = fullShare.left from rfl, show (dat0 V c).share 1 = fullShare.right from rfl,
    show (dat0 V c).share 2 = fullShare.left from rfl, show (dat0 V c).share 3 = fullShare.right from rfl,
    show (dat0 V c).share 4 = fullShare from rfl, e0, e1, e2, e3, e4]
  iintro ⟨HWl, HWr, HUl, HUr, Hd⟩
  isplitl [HWl HWr]
  · iapply (pointsTo_share (PosShare.mem_left_op_right fullShare)).2
    isplitl [HWl]; · iexact HWl
    iexact HWr
  isplitl [HUl HUr]
  · iapply (pointsTo_share (PosShare.mem_left_op_right fullShare)).2
    isplitl [HUl]; · iexact HUl
    iexact HUr
  iexact Hd

theorem deal1 (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq]; unfold Dat.arrays
  rw [bigSep_W1]
  simp only [View.set_whole]
  rw [show (dat1 V c).share 0 = fullShare.left from rfl, show (dat1 V c).share 1 = fullShare.right from rfl,
    show (dat1 V c).share 2 = fullShare.left from rfl, show (dat1 V c).share 3 = fullShare.right from rfl,
    show (dat1 V c).share 4 = fullShare from rfl,
    show (dat1 V c).share 5 = fullShare.left from rfl, show (dat1 V c).share 6 = fullShare.right from rfl,
    show (dat1 V c).share 7 = fullShare from rfl]
  iintro ⟨HW, HU, Hx, Hd, Ho⟩
  ihave HW2 := (pointsTo_share (PosShare.mem_left_op_right fullShare)).1 $$ HW
  icases HW2 with ⟨HWl, HWr⟩
  ihave HU2 := (pointsTo_share (PosShare.mem_left_op_right fullShare)).1 $$ HU
  icases HU2 with ⟨HUl, HUr⟩
  ihave Hd2 := (pointsTo_share (PosShare.mem_left_op_right fullShare)).1 $$ Hd
  icases Hd2 with ⟨Hdl, Hdr⟩
  isplitl [HWl]; · iexact HWl
  isplitl [HWr]; · iexact HWr
  isplitl [HUl]; · iexact HUl
  isplitl [HUr]; · iexact HUr
  isplitl [Hx]; · iexact Hx
  isplitl [Hdl]; · iexact Hdl
  isplitl [Hdr]; · iexact Hdr
  iexact Ho

theorem join1 (c : Dev nD) (V' : (b : Ref sig .tc) → Buf (Elt F) ((c : Thread nD τ).loc b))
    (Fn : (w : Fin cfg1.W) → Buf (Elt F) ((cfg1.win w).arr.view.loc (c : Thread nD τ)))
    (e0 : Fn 0 = V' main_arg1) (e1 : Fn 1 = V' main_arg1) (e2 : Fn 2 = V' main_arg2) (e3 : Fn 3 = V' main_arg2) (e4 : Fn 4 = V' main_arg0)
    (e5 : Fn 5 = V' main_v0) (e6 : Fn 6 = V' main_v0) (e7 : Fn 7 = V' main_v1) :
    (dat1 V c).arrays Fn ⊢ (Pipeline.arrBufs (Ix := Unit) (Name := ℕ) (U := UR sig nD τ) (Lvl := ℕ) spec1 c V' : sProp 𝕄) := by
  rw [arrBufs1_eq]; unfold Dat.arrays
  rw [bigSep_W1]
  simp only [View.set_whole]
  rw [show (dat1 V c).share 0 = fullShare.left from rfl, show (dat1 V c).share 1 = fullShare.right from rfl,
    show (dat1 V c).share 2 = fullShare.left from rfl, show (dat1 V c).share 3 = fullShare.right from rfl,
    show (dat1 V c).share 4 = fullShare from rfl,
    show (dat1 V c).share 5 = fullShare.left from rfl, show (dat1 V c).share 6 = fullShare.right from rfl,
    show (dat1 V c).share 7 = fullShare from rfl, e0, e1, e2, e3, e4, e5, e6, e7]
  iintro ⟨HWl, HWr, HUl, HUr, Hx, Hdl, Hdr, Ho⟩
  isplitl [HWl HWr]
  · iapply (pointsTo_share (PosShare.mem_left_op_right fullShare)).2
    isplitl [HWl]; · iexact HWl
    iexact HWr
  isplitl [HUl HUr]
  · iapply (pointsTo_share (PosShare.mem_left_op_right fullShare)).2
    isplitl [HUl]; · iexact HUl
    iexact HUr
  isplitl [Hx]; · iexact Hx
  isplitl [Hdl Hdr]
  · iapply (pointsTo_share (PosShare.mem_left_op_right fullShare)).2
    isplitl [Hdl]; · iexact Hdl
    iexact Hdr
  iexact Ho

end Deal

/-! ## The buffers' contents between items -/

variable (m : (ℓ : Loc nD τ sig) → Buf (Elt F) ℓ) (ρ : Dev nD → PrngReg)

/-- Core `c`'s unscoped buffers at launch. -/
abbrev val0 (c : Dev nD) : Valuation τ sig (Elt F) := fun b => m (c, b)
abbrev buf0 (c : Dev nD) (b : Ref sig .tc) : Buf (Elt F) ((c : Thread nD τ).loc b) := val0 m c b
/-- The degree column as the degree region's write-backs leave it. -/
def degArr (c : Dev nD) : Buf (Elt F) ((c : Thread nD τ).loc main_v0) := (dat0 (buf0 m) c).arrAt 4 cfg0.N
/-- After the degree region: the launch contents but for the degree column. -/
def val1 (c : Dev nD) : Valuation τ sig (Elt F) := Function.update (val0 m c) main_v0 (degArr m c)
abbrev buf1 (c : Dev nD) (b : Ref sig .tc) : Buf (Elt F) ((c : Thread nD τ).loc b) := val1 m c b
/-- The coupled array as the coupling region's write-backs leave it. -/
def outArr (c : Dev nD) : Buf (Elt F) ((c : Thread nD τ).loc main_v1) := (dat1 (buf1 m) c).arrAt 7 cfg1.N
/-- After the coupling region: the same but for the coupled array. -/
def val2 (c : Dev nD) : Valuation τ sig (Elt F) := Function.update (val1 m c) main_v1 (outArr m c)
abbrev buf2 (c : Dev nD) (b : Ref sig .tc) : Buf (Elt F) ((c : Thread nD τ).loc b) := val2 m c b
/-- After the host's two operations. -/
abbrev val3 (c : Dev nD) : Valuation τ sig (Elt F) := StableHlo.after hostOps2 (val2 m c)

theorem val1_deg (c : Dev nD) : val1 m c main_v0 = degArr m c := by unfold val1; exact Function.update_self _ _ _
theorem val1_of_ne (c : Dev nD) (r : Ref sig .tc) (h : r ≠ main_v0) : val1 m c r = val0 m c r := by
  unfold val1; exact Function.update_of_ne (StableHlo.devRef_ne_of_ne h) _ _
theorem val2_out (c : Dev nD) : val2 m c main_v1 = outArr m c := by unfold val2; exact Function.update_self _ _ _
theorem val2_of_ne (c : Dev nD) (r : Ref sig .tc) (h : r ≠ main_v1) : val2 m c r = val1 m c r := by
  unfold val2; exact Function.update_of_ne (StableHlo.devRef_ne_of_ne h) _ _
theorem val3_of (c : Dev nD) (r : Ref sig .tc) (h : r ∉ hostOps2_W) : val3 m c r = val2 m c r :=
  StableHlo.after_of_writes_sub hostOps2 _ hostOps2_writes h

/-- No item writes an argument. -/
theorem val3_arg (c : Dev nD) (r : Ref sig .tc) (h3 : r ∉ hostOps2_W) (h2 : r ≠ main_v1) (h1 : r ≠ main_v0) :
    val3 m c r = m ((c : Thread nD τ).loc r) :=
  (val3_of m c r h3).trans ((val2_of_ne m c r h2).trans ((val1_of_ne m c r h1).trans rfl))

/-- The result: the coupled array times w_scale broadcast over it. -/
theorem val3_result (c : Dev nD) :
    val3 m c main_v3 = mulf (outArr m c) (broadcastInDim S4x4096x64 ![] bcast_S_S4x4096x64 (m ((c : Thread nD τ).loc main_arg3))) := by
  show StableHlo.after hostOps2 (val2 m c) (Proc.devRef .tc main_v3) = _
  after_results
  rw [val2_out, val2_of_ne m c main_arg3 (by decide), val1_of_ne m c main_arg3 (by decide)]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (buf0 m) c
  | ⟨1, _⟩ => fun c => dat1 (buf1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (val3 m c) ∗ ∃ r, prngReg c r)

/-! ## The regions as segments -/

set_option backward.isDefEq.respectTransparency.types false in
/-- The degree region: entered from the launch contents, left at the contents with the degree column written. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (buf0 m) c).loose
  hwaits := Pipeline.hwaits_of_owed_zero _ _ _ _ L lv 0 fun _ _ => rfl
  pre c := iprop(StableHlo.held (c : Thread nD τ) (Pipeline.ucRefs τ sig) (val0 m c) ∗ R c)
  post c := iprop(StableHlo.held (c : Thread nD τ) (Pipeline.ucRefs τ sig) (val1 m c) ∗ R c)
  X c := iprop(emp)
  Y c := iprop(emp)
  Z c := iprop(Pipeline.unscopedRest (Ix := Unit) (Name := ℕ) (U := UR sig nD τ) (Lvl := ℕ) spec0 c (buf0 m c) ∗ ∃ r, prngReg c r)
  hentry c := by
    rw [Pipeline.ownSems0_none]
    have hsplit : (unscopedBufs (Ix := Unit) (Name := ℕ) (U := UR sig nD τ) (Lvl := ℕ) c (buf0 m c) : sProp 𝕄)
        ⊢ iprop((pdats m 0 c).arrays ((pdats m 0 c).arrAt · 0) ∗ Pipeline.unscopedRest (Ix := Unit) (Name := ℕ) (U := UR sig nD τ) (Lvl := ℕ) spec0 c (buf0 m c)) := by
      rw [show (unscopedBufs (Ix := Unit) (Name := ℕ) (U := UR sig nD τ) (Lvl := ℕ) c (buf0 m c) : sProp 𝕄)
            = iprop(Pipeline.arrBufs (Ix := Unit) (Name := ℕ) (U := UR sig nD τ) (Lvl := ℕ) spec0 c (buf0 m c)
                ∗ Pipeline.unscopedRest (Ix := Unit) (Name := ℕ) (U := UR sig nD τ) (Lvl := ℕ) spec0 c (buf0 m c))
          from Pipeline.unscopedBufs_split₀ cfgs 0 winFacts₀0.arr_unscoped c (buf0 m c)]
      exact sep_mono (deal0 (buf0 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := (show _ ⊢ (Pipeline.scopedRest (Ix := Unit) (Name := ℕ) (U := UR sig nD τ) (Lvl := ℕ) (Val := Elt F) spec0 c : sProp 𝕄) from by
      iintro ⟨-, -, Hr⟩; iexact Hr).trans (Φ0_in (buf0 m) c)
  hout c := (Φ0_out (buf0 m) c).trans (by
    rw [Pipeline.ownSems0_none]
    iintro HR
    isplitr; · iempintro
    isplitr; · iempintro
    iexact HR)
  hexit c := by
    have hjoin : iprop((pdats m 0 c).arrays ((pdats m 0 c).arrAt · cfg0.N) ∗ Pipeline.unscopedRest (Ix := Unit) (Name := ℕ) (U := UR sig nD τ) (Lvl := ℕ) spec0 c (buf0 m c))
        ⊢ (unscopedBufs (Ix := Unit) (Name := ℕ) (U := UR sig nD τ) (Lvl := ℕ) c (buf1 m c) : sProp 𝕄) := by
      rw [show (unscopedBufs (Ix := Unit) (Name := ℕ) (U := UR sig nD τ) (Lvl := ℕ) c (buf1 m c) : sProp 𝕄)
            = iprop(Pipeline.arrBufs (Ix := Unit) (Name := ℕ) (U := UR sig nD τ) (Lvl := ℕ) spec0 c (buf1 m c)
                ∗ Pipeline.unscopedRest (Ix := Unit) (Name := ℕ) (U := UR sig nD τ) (Lvl := ℕ) spec0 c (buf1 m c))
          from Pipeline.unscopedBufs_split₀ cfgs 0 winFacts₀0.arr_unscoped c (buf1 m c),
        unscopedRest0_eq c (buf1 m c), unscopedRest0_eq c (buf0 m c),
        show buf1 m c main_arg0 = buf0 m c main_arg0 from val1_of_ne m c main_arg0 (by decide),
        show buf1 m c main_arg3 = buf0 m c main_arg3 from val1_of_ne m c main_arg3 (by decide),
        show buf1 m c main_v1 = buf0 m c main_v1 from val1_of_ne m c main_v1 (by decide),
        show buf1 m c main_v2 = buf0 m c main_v2 from val1_of_ne m c main_v2 (by decide),
        show buf1 m c main_v3 = buf0 m c main_v3 from val1_of_ne m c main_v3 (by decide)]
      exact sep_mono (join0 (buf0 m) c (buf1 m c) _
        (((dat0 (buf0 m) c).arrAt_in 0 rfl cfg0.N).trans (val1_of_ne m c main_arg1 (by decide)).symm)
        (((dat0 (buf0 m) c).arrAt_in 1 rfl cfg0.N).trans (val1_of_ne m c main_arg1 (by decide)).symm)
        (((dat0 (buf0 m) c).arrAt_in 2 rfl cfg0.N).trans (val1_of_ne m c main_arg2 (by decide)).symm)
        (((dat0 (buf0 m) c).arrAt_in 3 rfl cfg0.N).trans (val1_of_ne m c main_arg2 (by decide)).symm)
        (val1_deg m c).symm) .rfl
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The coupling region: entered from the contents the degree region left, left at the contents with the coupled array
    written. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (buf1 m) c).loose
  hwaits := Pipeline.hwaits_of_owed_zero _ _ _ _ L lv 1 fun _ _ => rfl
  pre c := iprop(StableHlo.held (c : Thread nD τ) (Pipeline.ucRefs τ sig) (val1 m c) ∗ R c)
  post c := iprop(StableHlo.held (c : Thread nD τ) (Pipeline.ucRefs τ sig) (val2 m c) ∗ R c)
  X c := iprop(emp)
  Y c := iprop(emp)
  Z c := iprop(Pipeline.unscopedRest (Ix := Unit) (Name := ℕ) (U := UR sig nD τ) (Lvl := ℕ) spec1 c (buf1 m c) ∗ ∃ r, prngReg c r)
  hentry c := by
    rw [Pipeline.ownSems0_none]
    have hsplit : (unscopedBufs (Ix := Unit) (Name := ℕ) (U := UR sig nD τ) (Lvl := ℕ) c (buf1 m c) : sProp 𝕄)
        ⊢ iprop((pdats m 1 c).arrays ((pdats m 1 c).arrAt · 0) ∗ Pipeline.unscopedRest (Ix := Unit) (Name := ℕ) (U := UR sig nD τ) (Lvl := ℕ) spec1 c (buf1 m c)) := by
      rw [show (unscopedBufs (Ix := Unit) (Name := ℕ) (U := UR sig nD τ) (Lvl := ℕ) c (buf1 m c) : sProp 𝕄)
            = iprop(Pipeline.arrBufs (Ix := Unit) (Name := ℕ) (U := UR sig nD τ) (Lvl := ℕ) spec1 c (buf1 m c)
                ∗ Pipeline.unscopedRest (Ix := Unit) (Name := ℕ) (U := UR sig nD τ) (Lvl := ℕ) spec1 c (buf1 m c))
          from Pipeline.unscopedBufs_split₀ cfgs 1 winFacts₀1.arr_unscoped c (buf1 m c)]
      exact sep_mono (deal1 (buf1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := (show _ ⊢ (Pipeline.scopedRest (Ix := Unit) (Name := ℕ) (U := UR sig nD τ) (Lvl := ℕ) (Val := Elt F) spec1 c : sProp 𝕄) from by
      iintro ⟨-, -, Hr⟩; iexact Hr).trans (Φ1_in (buf1 m) c)
  hout c := (Φ1_out (buf1 m) c).trans (by
    rw [Pipeline.ownSems0_none]
    iintro HR
    isplitr; · iempintro
    isplitr; · iempintro
    iexact HR)
  hexit c := by
    have hjoin : iprop((pdats m 1 c).arrays ((pdats m 1 c).arrAt · cfg1.N) ∗ Pipeline.unscopedRest (Ix := Unit) (Name := ℕ) (U := UR sig nD τ) (Lvl := ℕ) spec1 c (buf1 m c))
        ⊢ (unscopedBufs (Ix := Unit) (Name := ℕ) (U := UR sig nD τ) (Lvl := ℕ) c (buf2 m c) : sProp 𝕄) := by
      rw [show (unscopedBufs (Ix := Unit) (Name := ℕ) (U := UR sig nD τ) (Lvl := ℕ) c (buf2 m c) : sProp 𝕄)
            = iprop(Pipeline.arrBufs (Ix := Unit) (Name := ℕ) (U := UR sig nD τ) (Lvl := ℕ) spec1 c (buf2 m c)
                ∗ Pipeline.unscopedRest (Ix := Unit) (Name := ℕ) (U := UR sig nD τ) (Lvl := ℕ) spec1 c (buf2 m c))
          from Pipeline.unscopedBufs_split₀ cfgs 1 winFacts₀1.arr_unscoped c (buf2 m c),
        unscopedRest1_eq c (buf2 m c), unscopedRest1_eq c (buf1 m c),
        show buf2 m c main_arg3 = buf1 m c main_arg3 from val2_of_ne m c main_arg3 (by decide),
        show buf2 m c main_v2 = buf1 m c main_v2 from val2_of_ne m c main_v2 (by decide),
        show buf2 m c main_v3 = buf1 m c main_v3 from val2_of_ne m c main_v3 (by decide)]
      exact sep_mono (join1 (buf1 m) c (buf2 m c) _
        (((dat1 (buf1 m) c).arrAt_in 0 rfl cfg1.N).trans (val2_of_ne m c main_arg1 (by decide)).symm)
        (((dat1 (buf1 m) c).arrAt_in 1 rfl cfg1.N).trans (val2_of_ne m c main_arg1 (by decide)).symm)
        (((dat1 (buf1 m) c).arrAt_in 2 rfl cfg1.N).trans (val2_of_ne m c main_arg2 (by decide)).symm)
        (((dat1 (buf1 m) c).arrAt_in 3 rfl cfg1.N).trans (val2_of_ne m c main_arg2 (by decide)).symm)
        (((dat1 (buf1 m) c).arrAt_in 4 rfl cfg1.N).trans (val2_of_ne m c main_arg0 (by decide)).symm)
        (((dat1 (buf1 m) c).arrAt_in 5 rfl cfg1.N).trans (val2_of_ne m c main_v0 (by decide)).symm)
        (((dat1 (buf1 m) c).arrAt_in 6 rfl cfg1.N).trans (val2_of_ne m c main_v0 (by decide)).symm)
        (val2_out m c).symm) .rfl
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (val2 m)) ]

theorem main_run (c : Dev nD) : main (F := F) c = Pipeline.Seg.run (segs m) := (main_chain c).trans (by chain_rfl)

set_option backward.isDefEq.respectTransparency.types false in
/-- From any memory with zero counters every weakly fair execution of the program terminates, nothing faulting; the
    result buffer ends at the coupled array times the broadcast w_scale, and the four arguments end as launched. -/
theorem run : θ_run defs (onTc (τ := τ) (main (F := F))) ⟨m, fun _ => 0, ρ⟩ (fun r => ∀ c : Dev nD,
      r.2.mem ((c.tc : Thread nD τ).loc main_v3)
          = mulf (outArr m c) (broadcastInDim S4x4096x64 ![] bcast_S_S4x4096x64 (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (val0 m c) ∗ R c)) (Tₙ := Tₙ m)
    (hch := ⟨fun _ => .rfl, fun _ => .rfl, fun _ => .rfl, fun c => (show iprop(StableHlo.held (c : Thread nD τ) (Pipeline.ucRefs τ sig) (val3 m c) ∗ R c)
        ⊢ (iprop(Tₙ m c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (val0 m c)
        from Pipeline.unscopedBufs_held c (val0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = val3 m c b)
    (hfin := fun c s' => by
      iintro ⟨⟨Hh, -⟩, HSI⟩
      unfold StableHlo.held
      imodintro
      iapply (pointsTo_read_all (Pipeline.ucRefs τ sig) (fun b => (((c : Thread nD τ)).1, b)) (val3 m c) s')
      isplitl [Hh] <;> iassumption)
    (hQ := fun s h c =>
      ⟨(h c _ (mem_uc main_v3 (by decide))).trans (val3_result m c),
       (h c _ (mem_uc main_arg0 (by decide))).trans (val3_arg m c main_arg0 (by decide) (by decide) (by decide)),
       (h c _ (mem_uc main_arg1 (by decide))).trans (val3_arg m c main_arg1 (by decide) (by decide) (by decide)),
       (h c _ (mem_uc main_arg2 (by decide))).trans (val3_arg m c main_arg2 (by decide) (by decide) (by decide)),
       (h c _ (mem_uc main_arg3 (by decide))).trans (val3_arg m c main_arg3 (by decide) (by decide) (by decide))⟩)

/-- The frame: the program runs and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Hand

end
-- ==== Proof.Ideal.DegreeBody.lean ====
/-
  The degree kernel's body at one grid point, as three triples.

  A grid point is (b, bi, bj). The body reads four blocks — the direct block W[b, bi-rows, bj-columns], the
  transposed-source block W[b, bj-rows, bi-columns], and the row blocks bi and bj of U — and adds to a running
  column (the scratch) half the sum of the two gated row totals. Which of its two conditionals it takes depends
  on bj alone: at bj = 0 it first clears the running column, at bj = 7 it afterwards stores
  rsqrt (max (column, eps)) into the output block, and in between it does neither. Each case is one triple, with
  the running column's new contents named through the printed payload functions.
-/
import proofs.«162411_j3959959847448_1_alg».proof.Proof.Gen.KernelIdeal.Launch
import proofs.«162411_j3959959847448_1_alg».proof.Proof.Gen.KernelIdeal.Skeleton
import proofs.«162411_j3959959847448_1_alg».proof.Proof.Gen.KernelIdeal.Points
import proofs.«162411_j3959959847448_1_alg».proof.Proof.LibWholeStore
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body clears the running column before it adds to it: it is at the first block column. -/
abbrev cond0_0 (i : grid0.Coords) : Prop := (Scalar.cmpi .ne (Scalar.extui (Scalar.cmpi .eq (BitVec.ofNat 32 (i 2).val) 0#32)) 0#32) = 1#1
/-- The body stores the output block: it is at the last block column. -/
abbrev cond0_1 (i : grid0.Coords) : Prop := k0_cond2 i = 1#1

/-- Points are numbered row-major over (4, 8, 8), so the block column is the point's number modulo 8. -/
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

set_option maxHeartbeats 1000000 in
/-- First block column: whatever the running column held, it ends at the contribution added to zeros. -/
theorem degree_first (c : Dev nD) (E : Set ℕ) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x1 .f32) (harg7 : arg7.IsWhole) (arg8 : Memref sig .tc .vmem S512x1 .f32) (harg8 : arg8.IsWhole)
    (hc0 : cond0_0 i) (hc1 : ¬cond0_1 i)
    (x0 x1 : Vec F S1x512x512 .f32) (x2 x3 : Vec F S512x16 .f32) (y : Vec F S1x512x1 .f32) (s : Vec F S512x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare y ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (y) ∗ owns (c : Thread nD τ) arg8 fullShare (k0_pay3 x2 x3 x0 x1 (k0_pay2 (F := F)))) -∗ K ⟨⟩))
      ⊢ wp frame (wpE (defs₀ (F := F)) Variants.none c none) E (cc0__degree_kernel i arg3 harg3 arg4 harg4 arg5 harg5 arg6 harg6 arg7 harg7 arg8 harg8) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  sl_unfold_words
  rw [View.read_writes_eq_canon _ _ _ (WholeStore.cover_cons WholeStore.zero2 _ _ _), View.canon_cons_unit_zero WholeStore.zero2]
  simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]

set_option maxHeartbeats 1000000 in
/-- A middle block column: the running column gains the contribution; the output block is left as found. -/
theorem degree_middle (c : Dev nD) (E : Set ℕ) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x1 .f32) (harg7 : arg7.IsWhole) (arg8 : Memref sig .tc .vmem S512x1 .f32) (harg8 : arg8.IsWhole)
    (hc0 : ¬cond0_0 i) (hc1 : ¬cond0_1 i)
    (x0 x1 : Vec F S1x512x512 .f32) (x2 x3 : Vec F S512x16 .f32) (y : Vec F S1x512x1 .f32) (s : Vec F S512x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare y ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (y) ∗ owns (c : Thread nD τ) arg8 fullShare (k0_pay3 x2 x3 x0 x1 s)) -∗ K ⟨⟩))
      ⊢ wp frame (wpE (defs₀ (F := F)) Variants.none c none) E (cc0__degree_kernel i arg3 harg3 arg4 harg4 arg5 harg5 arg6 harg6 arg7 harg7 arg8 harg8) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  rw [View.read_writes_eq_canon _ _ _ (WholeStore.cover_one WholeStore.zero2 _ _), View.canon_unit_zero WholeStore.zero2]
  simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]

set_option maxHeartbeats 1000000 in
/-- Last block column: the running column gains the contribution, and the output block becomes
    rsqrt (max (column, eps)) of the completed column. -/
theorem degree_last (c : Dev nD) (E : Set ℕ) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x1 .f32) (harg7 : arg7.IsWhole) (arg8 : Memref sig .tc .vmem S512x1 .f32) (harg8 : arg8.IsWhole)
    (hc0 : ¬cond0_0 i) (hc1 : cond0_1 i)
    (x0 x1 : Vec F S1x512x512 .f32) (x2 x3 : Vec F S512x16 .f32) (y : Vec F S1x512x1 .f32) (s : Vec F S512x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare y ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k0_pay1 (k0_pay3 x2 x3 x0 x1 s)) ∗ owns (c : Thread nD τ) arg8 fullShare (k0_pay3 x2 x3 x0 x1 s)) -∗ K ⟨⟩))
      ⊢ wp frame (wpE (defs₀ (F := F)) Variants.none c none) E (cc0__degree_kernel i arg3 harg3 arg4 harg4 arg5 harg5 arg6 harg6 arg7 harg7 arg8 harg8) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_words
    rw [View.read_writes_eq_canon _ _ _ (WholeStore.cover_one WholeStore.zero3 _ _), View.canon_unit_zero WholeStore.zero3]
    simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]
  iexists _; isplitr
  swap; · iexact H5
  ipureintro
  sl_unfold_words
  rw [View.read_writes_eq_canon _ _ _ (WholeStore.cover_one WholeStore.zero2 _ _), View.canon_unit_zero WholeStore.zero2]
  simp only [View.readAt_eq_ld, harg3.read_unread, harg4.read_unread, harg5.read_unread, harg6.read_unread, harg8.read_unread,
    View.readCov_unit_zero (S := S512x1) _ WholeStore.zero2,
    View.ld_unit_zero (S := S512x16) WholeStore.zero2, View.ld_unit_zero (S := S512x1) WholeStore.zero2,
    View.ld_unit_zero (S := S1x512x512) WholeStore.zero3]

end Cert.KernelIdeal.Hand

end
-- ==== Proof.Ideal.DegreeData.lean ====
/-
  The degree kernel over its whole grid: what every buffer holds between grid points.

  The grid (4, 8, 8) is walked row-major, so point number n has block column n mod 8, and the eight points of one
  (b, bi) are consecutive. The running column after point n is the contribution of point n added to the running
  column after point n - 1, or to zeros when n opens a new (b, bi). The input windows' staging buffers hold their
  blocks of the arrays as the region finds them; the output window's buffer, at the last block column, holds
  rsqrt (max (column, eps)) of the completed column. Two windows read W and two read U: each pair holds its array
  by the two halves of the full share.
-/
import proofs.«162411_j3959959847448_1_alg».proof.Proof.Ideal.DegreeBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The direct block of W, the transposed-source block of W, and the row blocks bi and bj of U at point `t`. -/
abbrev wd0 (c : Dev nD) (t : Fin cfg0.N) : Vec F S1x512x512 .f32 := iblk0 V c 0 t
abbrev wt0 (c : Dev nD) (t : Fin cfg0.N) : Vec F S1x512x512 .f32 := iblk0 V c 1 t
abbrev ui0 (c : Dev nD) (t : Fin cfg0.N) : Vec F S512x16 .f32 := iblk0 V c 2 t
abbrev uj0 (c : Dev nD) (t : Fin cfg0.N) : Vec F S512x16 .f32 := iblk0 V c 3 t

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The running column -/

/-- The grid point with number `n` (numbers wrap; only `n < 256` is used). -/
def pt0 (n : ℕ) : Fin cfg0.N := ⟨n % cfg0.N, Nat.mod_lt _ (by rw [show cfg0.N = 256 from N_0]; decide)⟩

theorem pt0_val (t : Fin cfg0.N) : pt0 t.val = t := Fin.ext (Nat.mod_eq_of_lt t.isLt)

/-- The running column after point `n`: point `n`'s contribution added to what the point before left, or to
    zeros where `n` opens a new row of blocks. -/
def col0 (c : Dev nD) : ℕ → Vec F S512x1 .f32
  | 0 => k0_pay3 (ui0 V c (pt0 0)) (uj0 V c (pt0 0)) (wd0 V c (pt0 0)) (wt0 V c (pt0 0)) (k0_pay2 (F := F))
  | n + 1 => k0_pay3 (ui0 V c (pt0 (n + 1))) (uj0 V c (pt0 (n + 1))) (wd0 V c (pt0 (n + 1))) (wt0 V c (pt0 (n + 1)))
      (if (n + 1) % 8 = 0 then k0_pay2 (F := F) else col0 c n)

theorem col0_first (c : Dev nD) (t : Fin cfg0.N) (h : t.val % 8 = 0) :
    col0 V c t.val = k0_pay3 (ui0 V c t) (uj0 V c t) (wd0 V c t) (wt0 V c t) (k0_pay2 (F := F)) := by
  obtain ⟨n, hn⟩ := t
  cases n with
  | zero => show col0 V c 0 = _; unfold col0; rw [show pt0 0 = ⟨0, hn⟩ from pt0_val ⟨0, hn⟩]
  | succ n =>
    show col0 V c (n + 1) = _
    unfold col0; rw [show pt0 (n + 1) = ⟨n + 1, hn⟩ from pt0_val ⟨n + 1, hn⟩, if_pos h]

theorem col0_next (c : Dev nD) (t : Fin cfg0.N) (h : ¬ t.val % 8 = 0) :
    col0 V c t.val = k0_pay3 (ui0 V c t) (uj0 V c t) (wd0 V c t) (wt0 V c t) (col0 V c (t.val - 1)) := by
  obtain ⟨n, hn⟩ := t
  cases n with
  | zero => exact absurd (Nat.zero_mod _) h
  | succ n =>
    show col0 V c (n + 1) = _
    conv_lhs => unfold col0
    rw [show pt0 (n + 1) = ⟨n + 1, hn⟩ from pt0_val ⟨n + 1, hn⟩, if_neg h]; rfl

/-! ## Between grid points -/

/-- The scoped buffers the degree kernel never touches, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The scratch before point `t`: the running column after point `t - 1`, unless `t` opens a new row of blocks
    (then the body clears it before reading it, and its contents do not matter). -/
def colInv0 (c : Dev nD) (t : Fin (cfg0.N + 1)) : sProp 𝕄 :=
  iprop(∃ s : Vec F S512x1 .f32, ⌜t.val % 8 ≠ 0 → s = col0 V c (t.val - 1)⌝ ∗ owns (c : Thread nD τ) (Memref.whole cc0_scratch0) fullShare s)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (col0 V c t.val)
  Φ t := iprop(colInv0 V c t ∗ rest0 c)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (col0 V c t.val) := by dsimp only [dat0]
theorem Φ0_eq (c : Dev nD) (t : Fin (cfg0.N + 1)) : (dat0 V c).Φ t = iprop(colInv0 V c t ∗ rest0 c) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (dat0 V c).leavesExact 4 t)

/-- The output window is idle away from the last block column, and is written back exactly there. -/
theorem idle0_4 (t : Fin cfg0.N) : cfg0.idle 4 (cfg0.grid.coords t) = true ↔ ¬ t.val % 8 = 7 :=
  (by decide +kernel : ∀ t : Fin grid0.N, idle0 4 (grid0.coords t) = true ↔ ¬ t.val % 8 = 7) t

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, Φ0_eq, Φ0_eq]
  unfold colInv0
  by_cases h0 : t.val % 8 = 0
  · -- the point opens a row of blocks
    have h7 : ¬ t.val % 8 = 7 := by omega
    rw [Dat.leavesExact_idle _ 4 t ((idle0_4 t).mpr h7) (Bool.eq_false_iff.mpr fun h => h7 ((flush0_4 t).mp h))]
    iintro ⟨⟨⟨%s, -, Hs⟩, Hrest⟩, Ho, ⟨%d0, H0⟩, ⟨%d1, H1⟩, ⟨%d2, H2⟩, ⟨%d3, H3⟩, ⟨%d4, H4⟩⟩
    iapply (degree_first c Set.univ (grid0.coords t) _ _ _ _ _ _ _ _ _ _ _ _ ((hcond0_0 t).mpr h0) (fun h => h7 ((hcond0_1 t).mp h))
      (wd0 V c t) (wt0 V c t) (ui0 V c t) (uj0 V c t) ((dat0 V c).before 4 t d4) s _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hrest]
    · isplitl [Hs]
      · iexists _; isplitr
        swap; · iexact Hs
        ipureintro; intro _
        show _ = col0 V c (t.val + 1 - 1)
        rw [Nat.add_sub_cancel, col0_first V c t h0]
      iexact Hrest
    isplitl [Ho]; · iexact Ho
    isplitl [H0]; · iexact H0
    isplitl [H1]; · iexact H1
    isplitl [H2]; · iexact H2
    isplitl [H3]; · iexact H3
    iexists _; iexact H4
  · by_cases h7 : t.val % 8 = 7
    · -- the point closes a row of blocks
      have hlive : cfg0.idle 4 (cfg0.grid.coords t) = false := by
        rcases hb : cfg0.idle 4 (cfg0.grid.coords t) with _ | _
        · rfl
        · exact absurd h7 ((idle0_4 t).mp hb)
      rw [show (dat0 V c).leavesExact 4 t = owns (c : Thread nD τ) (st0_4 t) fullShare ((dat0 V c).after 4 t) from by
        unfold Dat.leavesExact; rw [hlive], after0_4]
      iintro ⟨⟨⟨%s, %hs, Hs⟩, Hrest⟩, Ho, ⟨%d0, H0⟩, ⟨%d1, H1⟩, ⟨%d2, H2⟩, ⟨%d3, H3⟩, ⟨%d4, H4⟩⟩
      iapply (degree_last c Set.univ (grid0.coords t) _ _ _ _ _ _ _ _ _ _ _ _ (fun h => h0 ((hcond0_0 t).mp h)) ((hcond0_1 t).mpr h7)
        (wd0 V c t) (wt0 V c t) (ui0 V c t) (uj0 V c t) ((dat0 V c).before 4 t d4) s _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      have hcol : k0_pay3 (ui0 V c t) (uj0 V c t) (wd0 V c t) (wt0 V c t) s = col0 V c t.val := by
        rw [col0_next V c t h0, hs h0]; rfl
      rw [hcol]
      isplitl [Hs Hrest]
      · isplitl [Hs]
        · iexists _; isplitr
          swap; · iexact Hs
          ipureintro; intro _
          show _ = col0 V c (t.val + 1 - 1)
          rw [Nat.add_sub_cancel]
        iexact Hrest
      isplitl [Ho]; · iexact Ho
      isplitl [H0]; · iexact H0
      isplitl [H1]; · iexact H1
      isplitl [H2]; · iexact H2
      isplitl [H3]; · iexact H3
      iexact H4
    · -- a point inside a row of blocks
      rw [Dat.leavesExact_idle _ 4 t ((idle0_4 t).mpr h7) (Bool.eq_false_iff.mpr fun h => h7 ((flush0_4 t).mp h))]
      iintro ⟨⟨⟨%s, %hs, Hs⟩, Hrest⟩, Ho, ⟨%d0, H0⟩, ⟨%d1, H1⟩, ⟨%d2, H2⟩, ⟨%d3, H3⟩, ⟨%d4, H4⟩⟩
      iapply (degree_middle c Set.univ (grid0.coords t) _ _ _ _ _ _ _ _ _ _ _ _ (fun h => h0 ((hcond0_0 t).mp h)) (fun h => h7 ((hcond0_1 t).mp h))
        (wd0 V c t) (wt0 V c t) (ui0 V c t) (uj0 V c t) ((dat0 V c).before 4 t d4) s _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Hs Hrest]
      · isplitl [Hs]
        · iexists _; isplitr
          swap; · iexact Hs
          ipureintro; intro _
          show _ = col0 V c (t.val + 1 - 1)
          rw [Nat.add_sub_cancel, col0_next V c t h0, hs h0]; rfl
        iexact Hrest
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the invariant -/

/-- At entry the scoped buffers that are no staging buffer, each at some contents, make the invariant at point 0. -/
theorem Φ0_in (c : Dev nD) : (Pipeline.scopedRest (Ix := Unit) (Name := ℕ) (U := UR sig nD τ) (Lvl := ℕ) (Val := Elt F) spec0 c : sProp 𝕄) ⊢ (dat0 V c).Φ 0 := by
  rw [scopedRest0_eq, Φ0_eq]; unfold colInv0 rest0
  simp only [owns_whole]
  iintro ⟨⟨%f, Hs⟩, Hrest⟩
  isplitl [Hs]
  · iexists f; isplitr; · ipureintro; intro h; exact absurd rfl h
    iexact Hs
  iexact Hrest

/-- After the last point the invariant gives them back. -/
theorem Φ0_out (c : Dev nD) : (dat0 V c).Φ (Fin.last cfg0.N) ⊢ (Pipeline.scopedRest (Ix := Unit) (Name := ℕ) (U := UR sig nD τ) (Lvl := ℕ) (Val := Elt F) spec0 c : sProp 𝕄) := by
  rw [scopedRest0_eq, Φ0_eq]; unfold colInv0 rest0
  simp only [owns_whole]
  iintro ⟨⟨%s, -, Hs⟩, Hrest⟩
  isplitl [Hs]
  · iexists s; iexact Hs
  iexact Hrest

end Cert.KernelIdeal.Hand

end
-- ==== Proof.Ideal.CouplingBody.lean ====
/-
  The coupling kernel's body at one grid point, as three triples.

  A grid point is (b, bi, bj). The body reads the two blocks of W and the two row blocks of U as the degree kernel
  does, the block bj of x, and the blocks bi and bj of the degree column d. It adds to a running block (the
  scratch, 512 rows by 64 channels) half the sum of the two gated products with d[bj-rows] * x[bj-rows]. At bj = 0
  it first clears the running block; at bj = 7 it afterwards stores d[bi-rows] times the completed block into the
  output block; in between it does neither. Each case is one triple over the printed payload functions.
-/
import proofs.«162411_j3959959847448_1_alg».proof.Proof.Gen.KernelIdeal.Launch
import proofs.«162411_j3959959847448_1_alg».proof.Proof.Gen.KernelIdeal.Skeleton
import proofs.«162411_j3959959847448_1_alg».proof.Proof.Gen.KernelIdeal.Points
import proofs.«162411_j3959959847448_1_alg».proof.Proof.LibWholeStore
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body clears the running block first: it is at the first block column. -/
abbrev cond1_0 (i : grid1.Coords) : Prop := (Scalar.cmpi .ne (Scalar.extui (Scalar.cmpi .eq (BitVec.ofNat 32 (i 2).val) 0#32)) 0#32) = 1#1
/-- The body stores the output block: it is at the last block column. -/
abbrev cond1_1 (i : grid1.Coords) : Prop := k1_cond2 i = 1#1

/-- Points are numbered row-major over (4, 8, 8), so the block column is the point's number modulo 8. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

set_option maxHeartbeats 2000000 in
/-- First block column: whatever the running block held, it ends at the contribution added to zeros. -/
theorem coupling_first (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : cond1_0 i) (hc1 : ¬cond1_1 i)
    (x0 x1 : Vec F S1x512x512 .f32) (x2 x3 : Vec F S512x16 .f32) (x4 : Vec F S1x512x64 .f32) (x5 x6 : Vec F S1x512x1 .f32)
    (y : Vec F S1x512x64 .f32) (s : Vec F S512x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare y ∗ owns (c : Thread nD τ) arg11 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (y) ∗ owns (c : Thread nD τ) arg11 fullShare (k1_pay1 (k1_pay4 x2 x3 x0 x1 x6 x4) (k1_pay3 (F := F)))) -∗ K ⟨⟩))
      ⊢ wp frame (wpE (defs₀ (F := F)) Variants.none c none) E (cc1__matmul_kernel i arg3 harg3 arg4 harg4 arg5 harg5 arg6 harg6 arg7 harg7 arg8 harg8 arg9 harg9 arg10 harg10 arg11 harg11) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr
  swap; · iexact H8
  ipureintro
  sl_unfold_words
  rw [View.read_writes_eq_canon _ _ _ (WholeStore.cover_cons WholeStore.zero2 _ _ _), View.canon_cons_unit_zero WholeStore.zero2]
  simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]

set_option maxHeartbeats 2000000 in
/-- A middle block column: the running block gains the contribution; the output block is left as found. -/
theorem coupling_middle (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond1_0 i) (hc1 : ¬cond1_1 i)
    (x0 x1 : Vec F S1x512x512 .f32) (x2 x3 : Vec F S512x16 .f32) (x4 : Vec F S1x512x64 .f32) (x5 x6 : Vec F S1x512x1 .f32)
    (y : Vec F S1x512x64 .f32) (s : Vec F S512x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare y ∗ owns (c : Thread nD τ) arg11 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (y) ∗ owns (c : Thread nD τ) arg11 fullShare (k1_pay1 (k1_pay4 x2 x3 x0 x1 x6 x4) s)) -∗ K ⟨⟩))
      ⊢ wp frame (wpE (defs₀ (F := F)) Variants.none c none) E (cc1__matmul_kernel i arg3 harg3 arg4 harg4 arg5 harg5 arg6 harg6 arg7 harg7 arg8 harg8 arg9 harg9 arg10 harg10 arg11 harg11) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  iexists _; isplitr
  swap; · iexact H8
  ipureintro
  sl_unfold_words
  rw [View.read_writes_eq_canon _ _ _ (WholeStore.cover_one WholeStore.zero2 _ _), View.canon_unit_zero WholeStore.zero2]
  simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]

set_option maxHeartbeats 2000000 in
/-- Last block column: the running block gains the contribution, and the output block becomes the bi-rows of d
    times the completed block. -/
theorem coupling_last (c : Dev nD) (E : Set ℕ) (i : grid1.Coords)
    (arg3 : Memref sig .tc .vmem S1x512x512 .f32) (harg3 : arg3.IsWhole) (arg4 : Memref sig .tc .vmem S1x512x512 .f32) (harg4 : arg4.IsWhole)
    (arg5 : Memref sig .tc .vmem S512x16 .f32) (harg5 : arg5.IsWhole) (arg6 : Memref sig .tc .vmem S512x16 .f32) (harg6 : arg6.IsWhole)
    (arg7 : Memref sig .tc .vmem S1x512x64 .f32) (harg7 : arg7.IsWhole) (arg8 : Memref sig .tc .vmem S1x512x1 .f32) (harg8 : arg8.IsWhole)
    (arg9 : Memref sig .tc .vmem S1x512x1 .f32) (harg9 : arg9.IsWhole) (arg10 : Memref sig .tc .vmem S1x512x64 .f32) (harg10 : arg10.IsWhole)
    (arg11 : Memref sig .tc .vmem S512x64 .f32) (harg11 : arg11.IsWhole)
    (hc0 : ¬cond1_0 i) (hc1 : cond1_1 i)
    (x0 x1 : Vec F S1x512x512 .f32) (x2 x3 : Vec F S512x16 .f32) (x4 : Vec F S1x512x64 .f32) (x5 x6 : Vec F S1x512x1 .f32)
    (y : Vec F S1x512x64 .f32) (s : Vec F S512x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ owns (c : Thread nD τ) arg8 fullShare x5
        ∗ owns (c : Thread nD τ) arg9 fullShare x6
        ∗ owns (c : Thread nD τ) arg10 fullShare y ∗ owns (c : Thread nD τ) arg11 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare (k1_pay2 x5 (k1_pay1 (k1_pay4 x2 x3 x0 x1 x6 x4) s)) ∗ owns (c : Thread nD τ) arg11 fullShare (k1_pay1 (k1_pay4 x2 x3 x0 x1 x6 x4) s)) -∗ K ⟨⟩))
      ⊢ wp frame (wpE (defs₀ (F := F)) Variants.none c none) E (cc1__matmul_kernel i arg3 harg3 arg4 harg4 arg5 harg5 arg6 harg6 arg7 harg7 arg8 harg8 arg9 harg9 arg10 harg10 arg11 harg11) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    sl_unfold_words
    rw [View.read_writes_eq_canon _ _ _ (WholeStore.cover_one WholeStore.zero3 _ _), View.canon_unit_zero WholeStore.zero3]
    simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]
  iexists _; isplitr
  swap; · iexact H8
  ipureintro
  sl_unfold_words
  rw [View.read_writes_eq_canon _ _ _ (WholeStore.cover_one WholeStore.zero2 _ _), View.canon_unit_zero WholeStore.zero2]
  simp only [View.readAt_eq_ld, harg3.read_unread, harg4.read_unread, harg5.read_unread, harg6.read_unread, harg7.read_unread,
    harg8.read_unread, harg9.read_unread, harg11.read_unread,
    View.readCov_unit_zero (S := S512x64) _ WholeStore.zero2,
    View.ld_unit_zero (S := S512x16) WholeStore.zero2, View.ld_unit_zero (S := S512x64) WholeStore.zero2,
    View.ld_unit_zero (S := S1x512x512) WholeStore.zero3, View.ld_unit_zero (S := S1x512x64) WholeStore.zero3,
    View.ld_unit_zero (S := S1x512x1) WholeStore.zero3]

end Cert.KernelIdeal.Hand

end
-- ==== Proof.Ideal.CouplingData.lean ====
/-
  The coupling kernel over its whole grid: what every buffer holds between grid points.

  The grid (4, 8, 8) is walked row-major, so point number n has block column n mod 8 and the eight points of one
  (b, bi) are consecutive. The running block after point n is point n's contribution added to the running block
  after point n - 1, or to zeros when n opens a new (b, bi). The input windows' staging buffers hold their blocks of
  the arrays as the region finds them; the output window's buffer, at the last block column, holds the bi-rows of
  the degree column times the completed block. W, U and the degree column are each read through two windows, which
  hold the array by the two halves of the full share.
-/
import proofs.«162411_j3959959847448_1_alg».proof.Proof.Ideal.CouplingBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The direct and the transposed-source block of W, the row blocks bi and bj of U, the block bj of x, and the
    blocks bi and bj of the degree column, at point `t`. -/
abbrev wd1 (c : Dev nD) (t : Fin cfg1.N) : Vec F S1x512x512 .f32 := iblk1 V c 0 t
abbrev wt1 (c : Dev nD) (t : Fin cfg1.N) : Vec F S1x512x512 .f32 := iblk1 V c 1 t
abbrev ui1 (c : Dev nD) (t : Fin cfg1.N) : Vec F S512x16 .f32 := iblk1 V c 2 t
abbrev uj1 (c : Dev nD) (t : Fin cfg1.N) : Vec F S512x16 .f32 := iblk1 V c 3 t
abbrev xj1 (c : Dev nD) (t : Fin cfg1.N) : Vec F S1x512x64 .f32 := iblk1 V c 4 t
abbrev di1 (c : Dev nD) (t : Fin cfg1.N) : Vec F S1x512x1 .f32 := iblk1 V c 5 t
abbrev dj1 (c : Dev nD) (t : Fin cfg1.N) : Vec F S1x512x1 .f32 := iblk1 V c 6 t

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The running block -/

/-- The grid point with number `n` (numbers wrap; only `n < 256` is used). -/
def pt1 (n : ℕ) : Fin cfg1.N := ⟨n % cfg1.N, Nat.mod_lt _ (by rw [show cfg1.N = 256 from N_1]; decide)⟩

theorem pt1_val (t : Fin cfg1.N) : pt1 t.val = t := Fin.ext (Nat.mod_eq_of_lt t.isLt)

/-- The running block after point `n`: point `n`'s contribution added to what the point before left, or to zeros
    where `n` opens a new row of blocks. -/
def acc1 (c : Dev nD) : ℕ → Vec F S512x64 .f32
  | 0 => k1_pay1 (k1_pay4 (ui1 V c (pt1 0)) (uj1 V c (pt1 0)) (wd1 V c (pt1 0)) (wt1 V c (pt1 0)) (dj1 V c (pt1 0)) (xj1 V c (pt1 0))) (k1_pay3 (F := F))
  | n + 1 => k1_pay1 (k1_pay4 (ui1 V c (pt1 (n + 1))) (uj1 V c (pt1 (n + 1))) (wd1 V c (pt1 (n + 1))) (wt1 V c (pt1 (n + 1))) (dj1 V c (pt1 (n + 1))) (xj1 V c (pt1 (n + 1))))
      (if (n + 1) % 8 = 0 then k1_pay3 (F := F) else acc1 c n)

theorem acc1_first (c : Dev nD) (t : Fin cfg1.N) (h : t.val % 8 = 0) :
    acc1 V c t.val = k1_pay1 (k1_pay4 (ui1 V c t) (uj1 V c t) (wd1 V c t) (wt1 V c t) (dj1 V c t) (xj1 V c t)) (k1_pay3 (F := F)) := by
  obtain ⟨n, hn⟩ := t
  cases n with
  | zero => show acc1 V c 0 = _; unfold acc1; rw [show pt1 0 = ⟨0, hn⟩ from pt1_val ⟨0, hn⟩]
  | succ n =>
    show acc1 V c (n + 1) = _
    unfold acc1; rw [show pt1 (n + 1) = ⟨n + 1, hn⟩ from pt1_val ⟨n + 1, hn⟩, if_pos h]

theorem acc1_next (c : Dev nD) (t : Fin cfg1.N) (h : ¬ t.val % 8 = 0) :
    acc1 V c t.val = k1_pay1 (k1_pay4 (ui1 V c t) (uj1 V c t) (wd1 V c t) (wt1 V c t) (dj1 V c t) (xj1 V c t)) (acc1 V c (t.val - 1)) := by
  obtain ⟨n, hn⟩ := t
  cases n with
  | zero => exact absurd (Nat.zero_mod _) h
  | succ n =>
    show acc1 V c (n + 1) = _
    conv_lhs => unfold acc1
    rw [show pt1 (n + 1) = ⟨n + 1, hn⟩ from pt1_val ⟨n + 1, hn⟩, if_neg h]; rfl

/-! ## Between grid points -/

/-- The scoped buffers the coupling kernel never touches, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The scratch before point `t`: the running block after point `t - 1`, unless `t` opens a new row of blocks
    (then the body clears it before reading it, and its contents do not matter). -/
def accInv1 (c : Dev nD) (t : Fin (cfg1.N + 1)) : sProp 𝕄 :=
  iprop(∃ s : Vec F S512x64 .f32, ⌜t.val % 8 ≠ 0 → s = acc1 V c (t.val - 1)⌝ ∗ owns (c : Thread nD τ) (Memref.whole cc1_scratch0) fullShare s)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay2 (di1 V c t) (acc1 V c t.val)
  Φ t := iprop(rest1 c ∗ accInv1 V c t)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare.left
    | ⟨6, _⟩ => fullShare.right
    | ⟨7, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay2 (di1 V c t) (acc1 V c t.val) := by dsimp only [dat1]
theorem Φ1_eq (c : Dev nD) (t : Fin (cfg1.N + 1)) : (dat1 V c).Φ t = iprop(rest1 c ∗ accInv1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (dat1 V c).leavesExact 7 t)

/-- The output window is idle away from the last block column, and is written back exactly there. -/
theorem idle1_7 (t : Fin cfg1.N) : cfg1.idle 7 (cfg1.grid.coords t) = true ↔ ¬ t.val % 8 = 7 :=
  (by decide +kernel : ∀ t : Fin grid1.N, idle1 7 (grid1.coords t) = true ↔ ¬ t.val % 8 = 7) t

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, Φ1_eq, Φ1_eq]
  unfold accInv1
  by_cases h0 : t.val % 8 = 0
  · -- the point opens a row of blocks
    have h7 : ¬ t.val % 8 = 7 := by omega
    rw [Dat.leavesExact_idle _ 7 t ((idle1_7 t).mpr h7) (Bool.eq_false_iff.mpr fun h => h7 ((flush1_7 t).mp h))]
    iintro ⟨⟨Hrest, ⟨%s, -, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (coupling_first c Set.univ (grid1.coords t) _ _ _ _ _ _ _ _ _ _ _ _ _ _ _ _ _ _ ((hcond1_0 t).mpr h0) (fun h => h7 ((hcond1_1 t).mp h))
      (wd1 V c t) (wt1 V c t) (ui1 V c t) (uj1 V c t) (xj1 V c t) (di1 V c t) (dj1 V c t) ((dat1 V c).before 7 t d7) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    iintro ⟨H0, H1, H2, H3, H4, H5, H6, H7, Hs⟩
    rw [show k1_pay1 (k1_pay4 (ui1 V c t) (uj1 V c t) (wd1 V c t) (wt1 V c t) (dj1 V c t) (xj1 V c t)) (k1_pay3 (F := F)) = acc1 V c t.val from (acc1_first V c t h0).symm]
    isplitl [Hs Hrest]
    · isplitl [Hrest]; · iexact Hrest
      iexists _; isplitr
      swap; · iexact Hs
      ipureintro; intro _
      show _ = acc1 V c (t.val + 1 - 1)
      rw [Nat.add_sub_cancel]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h7 : t.val % 8 = 7
    · -- the point closes a row of blocks
      have hlive : cfg1.idle 7 (cfg1.grid.coords t) = false := by
        rcases hb : cfg1.idle 7 (cfg1.grid.coords t) with _ | _
        · rfl
        · exact absurd h7 ((idle1_7 t).mp hb)
      rw [show (dat1 V c).leavesExact 7 t = owns (c : Thread nD τ) (st1_7 t) fullShare ((dat1 V c).after 7 t) from by
          unfold Dat.leavesExact; rw [hlive], after1_7]
      iintro ⟨⟨Hrest, ⟨%s, %hs, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (coupling_last c Set.univ (grid1.coords t) _ _ _ _ _ _ _ _ _ _ _ _ _ _ _ _ _ _ (fun h => h0 ((hcond1_0 t).mp h)) ((hcond1_1 t).mpr h7)
        (wd1 V c t) (wt1 V c t) (ui1 V c t) (uj1 V c t) (xj1 V c t) (di1 V c t) (dj1 V c t) ((dat1 V c).before 7 t d7) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      iintro ⟨H0, H1, H2, H3, H4, H5, H6, H7, Hs⟩
      rw [show k1_pay1 (k1_pay4 (ui1 V c t) (uj1 V c t) (wd1 V c t) (wt1 V c t) (dj1 V c t) (xj1 V c t)) s = acc1 V c t.val from by rw [acc1_next V c t h0, hs h0]; rfl]
      isplitl [Hs Hrest]
      · isplitl [Hrest]; · iexact Hrest
        iexists _; isplitr
        swap; · iexact Hs
        ipureintro; intro _
        show _ = acc1 V c (t.val + 1 - 1)
        rw [Nat.add_sub_cancel]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point inside a row of blocks
      rw [Dat.leavesExact_idle _ 7 t ((idle1_7 t).mpr h7) (Bool.eq_false_iff.mpr fun h => h7 ((flush1_7 t).mp h))]
      iintro ⟨⟨Hrest, ⟨%s, %hs, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (coupling_middle c Set.univ (grid1.coords t) _ _ _ _ _ _ _ _ _ _ _ _ _ _ _ _ _ _ (fun h => h0 ((hcond1_0 t).mp h)) (fun h => h7 ((hcond1_1 t).mp h))
        (wd1 V c t) (wt1 V c t) (ui1 V c t) (uj1 V c t) (xj1 V c t) (di1 V c t) (dj1 V c t) ((dat1 V c).before 7 t d7) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]; · iexact Hs
      iintro ⟨H0, H1, H2, H3, H4, H5, H6, H7, Hs⟩
      rw [show k1_pay1 (k1_pay4 (ui1 V c t) (uj1 V c t) (wd1 V c t) (wt1 V c t) (dj1 V c t) (xj1 V c t)) s = acc1 V c t.val from by rw [acc1_next V c t h0, hs h0]; rfl]
      isplitl [Hs Hrest]
      · isplitl [Hrest]; · iexact Hrest
        iexists _; isplitr
        swap; · iexact Hs
        ipureintro; intro _
        show _ = acc1 V c (t.val + 1 - 1)
        rw [Nat.add_sub_cancel]
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the invariant -/

/-- At entry the scoped buffers that are no staging buffer, each at some contents, make the invariant at point 0. -/
theorem Φ1_in (c : Dev nD) : (Pipeline.scopedRest (Ix := Unit) (Name := ℕ) (U := UR sig nD τ) (Lvl := ℕ) (Val := Elt F) spec1 c : sProp 𝕄) ⊢ (dat1 V c).Φ 0 := by
  rw [scopedRest1_eq, Φ1_eq]; unfold accInv1 rest1
  simp only [owns_whole]
  iintro ⟨R0, R1, R2, R3, R4, R5, R6, R7, R8, R9, R10, ⟨%f, Hs⟩⟩
  isplitr [Hs]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexists f; isplitr; · ipureintro; intro h; exact absurd rfl h
  iexact Hs

/-- After the last point the invariant gives them back. -/
theorem Φ1_out (c : Dev nD) : (dat1 V c).Φ (Fin.last cfg1.N) ⊢ (Pipeline.scopedRest (Ix := Unit) (Name := ℕ) (U := UR sig nD τ) (Lvl := ℕ) (Val := Elt F) spec1 c : sProp 𝕄) := by
  rw [scopedRest1_eq, Φ1_eq]; unfold accInv1 rest1
  simp only [owns_whole]
  iintro ⟨⟨R0, R1, R2, R3, R4, R5, R6, R7, R8, R9, R10⟩, ⟨%s, -, Hs⟩⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexists s; iexact Hs

end Cert.KernelIdeal.Hand

end
-- ==== Proof.Ideal.TwoRegionRun.lean ====
/-
  The whole program as a run: the degree region, the coupling region, then the host's scaling by w_scale.

  Between two items a core's unscoped buffers hold: at launch the memory it was launched with; after the degree
  region the same but for the degree column, which holds what that region's write-backs leave; after the coupling
  region the same but for the coupled array; after the host stretch what its two operations compute from those.
  A region borrows the buffers behind its windows' arrays and gives them back. W, U and (in the coupling region)
  the degree column are each read through two windows, so a region deals such a buffer to its two windows by the
  two halves of the full share and joins the halves again when it ends; an input array is never written, so it
  comes back at the contents it was lent at.
-/
import proofs.«162411_j3959959847448_1_alg».proof.Proof.Ideal.DegreeData
import proofs.«162411_j3959959847448_1_alg».proof.Proof.Ideal.CouplingData
import proofs.«162411_j3959959847448_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSepL bigSepL_cons_cons bigSepL_singleton bigSep_eq_bigSepL_of_eq)
open Idealize.ShloMosaic.Pipeline (Seg HostSeg RegionSeg)

/-! ## Dealing a shared array's full share to the windows on it, and joining it again -/

section Deal

variable (V : (c : Dev nD) → (b : Ref sig .tc) → Buf (Elt F) ((c : Thread nD τ).loc b))

/-- The buffers behind the degree region's windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1 : sProp 𝕄) ∗ (((c : Thread nD τ).loc main_arg2) ↦{fullShare} V' main_arg2 : sProp 𝕄) ∗ (((c : Thread nD τ).loc main_v0) ↦{fullShare} V' main_v0 : sProp 𝕄)) := by
  unfold Pipeline.arrBufs
  exact bigSep_eq_bigSepL_of_eq [main_arg1, main_arg2, main_v0] (by decide) (by decide) _

/-- The buffers behind the coupling region's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1 : sProp 𝕄) ∗ (((c : Thread nD τ).loc main_arg2) ↦{fullShare} V' main_arg2 : sProp 𝕄) ∗ (((c : Thread nD τ).loc main_arg0) ↦{fullShare} V' main_arg0 : sProp 𝕄)
          ∗ (((c : Thread nD τ).loc main_v0) ↦{fullShare} V' main_v0 : sProp 𝕄) ∗ (((c : Thread nD τ).loc main_v1) ↦{fullShare} V' main_v1 : sProp 𝕄)) := by
  unfold Pipeline.arrBufs
  exact bigSep_eq_bigSepL_of_eq [main_arg1, main_arg2, main_arg0, main_v0, main_v1] (by decide) (by decide) _

theorem deal0 (c : Dev nD) :
    (Pipeline.arrBufs (Ix := Unit) (Name := ℕ) (U := UR sig nD τ) (Lvl := ℕ) spec0 c (V c) : sProp 𝕄) ⊢ (dat0 V c).arrays ((dat0 V c).arrAt · 0) := by
  rw [arrBufs0_eq]; unfold Dat.arrays
  rw [bigSep_W0]
  simp only [View.set_whole]
  rw [show (dat0 V c).share 0 = fullShare.left from rfl, show (dat0 V c).share 1 = fullShare.right from rfl,
    show (dat0 V c).share 2 = fullShare.left from rfl, show (dat0 V c).share 3 = fullShare.right from rfl,
    show (dat0 V c).share 4 = fullShare from rfl]
  iintro ⟨HW, HU, Hd⟩
  ihave HW2 := (pointsTo_share (PosShare.mem_left_op_right fullShare)).1 $$ HW
  icases HW2 with ⟨HWl, HWr⟩
  ihave HU2 := (pointsTo_share (PosShare.mem_left_op_right fullShare)).1 $$ HU
  icases HU2 with ⟨HUl, HUr⟩
  isplitl [HWl]; · iexact HWl
  isplitl [HWr]; · iexact HWr
  isplitl [HUl]; · iexact HUl
  isplitl [HUr]; · iexact HUr
  iexact Hd

theorem join0 (c : Dev nD) (V' : (b : Ref sig .tc) → Buf (Elt F) ((c : Thread nD τ).loc b))
    (Fn : (w : Fin cfg0.W) → Buf (Elt F) ((cfg0.win w).arr.view.loc (c : Thread nD τ)))
    (e0 : Fn 0 = V' main_arg1) (e1 : Fn 1 = V' main_arg1) (e2 : Fn 2 = V' main_arg2) (e3 : Fn 3 = V' main_arg2) (e4 : Fn 4 = V' main_v0) :
    (dat0 V c).arrays Fn ⊢ (Pipeline.arrBufs (Ix := Unit) (Name := ℕ) (U := UR sig nD τ) (Lvl := ℕ) spec0 c V' : sProp 𝕄) := by
  rw [arrBufs0_eq]; unfold Dat.arrays
  rw [bigSep_W0]
  simp only [View.set_whole]
  rw [show (dat0 V c).share 0 = fullShare.left from rfl, show (dat0 V c).share 1 = fullShare.right from rfl,
    show (dat0 V c).share 2 = fullShare.left from rfl, show (dat0 V c).share 3 = fullShare.right from rfl,
    show (dat0 V c).share 4 = fullShare from rfl, e0, e1, e2, e3, e4]
  iintro ⟨HWl, HWr, HUl, HUr, Hd⟩
  isplitl [HWl HWr]
  · iapply (pointsTo_share (PosShare.mem_left_op_right fullShare)).2
    isplitl [HWl]; · iexact HWl
    iexact HWr
  isplitl [HUl HUr]
  · iapply (pointsTo_share (PosShare.mem_left_op_right fullShare)).2
    isplitl [HUl]; · iexact HUl
    iexact HUr
  iexact Hd

theorem deal1 (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq]; unfold Dat.arrays
  rw [bigSep_W1]
  simp only [View.set_whole]
  rw [show (dat1 V c).share 0 = fullShare.left from rfl, show (dat1 V c).share 1 = fullShare.right from rfl,
    show (dat1 V c).share 2 = fullShare.left from rfl, show (dat1 V c).share 3 = fullShare.right from rfl,
    show (dat1 V c).share 4 = fullShare from rfl,
    show (dat1 V c).share 5 = fullShare.left from rfl, show (dat1 V c).share 6 = fullShare.right from rfl,
    show (dat1 V c).share 7 = fullShare from rfl]
  iintro ⟨HW, HU, Hx, Hd, Ho⟩
  ihave HW2 := (pointsTo_share (PosShare.mem_left_op_right fullShare)).1 $$ HW
  icases HW2 with ⟨HWl, HWr⟩
  ihave HU2 := (pointsTo_share (PosShare.mem_left_op_right fullShare)).1 $$ HU
  icases HU2 with ⟨HUl, HUr⟩
  ihave Hd2 := (pointsTo_share (PosShare.mem_left_op_right fullShare)).1 $$ Hd
  icases Hd2 with ⟨Hdl, Hdr⟩
  isplitl [HWl]; · iexact HWl
  isplitl [HWr]; · iexact HWr
  isplitl [HUl]; · iexact HUl
  isplitl [HUr]; · iexact HUr
  isplitl [Hx]; · iexact Hx
  isplitl [Hdl]; · iexact Hdl
  isplitl [Hdr]; · iexact Hdr
  iexact Ho

theorem join1 (c : Dev nD) (V' : (b : Ref sig .tc) → Buf (Elt F) ((c : Thread nD τ).loc b))
    (Fn : (w : Fin cfg1.W) → Buf (Elt F) ((cfg1.win w).arr.view.loc (c : Thread nD τ)))
    (e0 : Fn 0 = V' main_arg1) (e1 : Fn 1 = V' main_arg1) (e2 : Fn 2 = V' main_arg2) (e3 : Fn 3 = V' main_arg2) (e4 : Fn 4 = V' main_arg0)
    (e5 : Fn 5 = V' main_v0) (e6 : Fn 6 = V' main_v0) (e7 : Fn 7 = V' main_v1) :
    (dat1 V c).arrays Fn ⊢ (Pipeline.arrBufs (Ix := Unit) (Name := ℕ) (U := UR sig nD τ) (Lvl := ℕ) spec1 c V' : sProp 𝕄) := by
  rw [arrBufs1_eq]; unfold Dat.arrays
  rw [bigSep_W1]
  simp only [View.set_whole]
  rw [show (dat1 V c).share 0 = fullShare.left from rfl, show (dat1 V c).share 1 = fullShare.right from rfl,
    show (dat1 V c).share 2 = fullShare.left from rfl, show (dat1 V c).share 3 = fullShare.right from rfl,
    show (dat1 V c).share 4 = fullShare from rfl,
    show (dat1 V c).share 5 = fullShare.left from rfl, show (dat1 V c).share 6 = fullShare.right from rfl,
    show (dat1 V c).share 7 = fullShare from rfl, e0, e1, e2, e3, e4, e5, e6, e7]
  iintro ⟨HWl, HWr, HUl, HUr, Hx, Hdl, Hdr, Ho⟩
  isplitl [HWl HWr]
  · iapply (pointsTo_share (PosShare.mem_left_op_right fullShare)).2
    isplitl [HWl]; · iexact HWl
    iexact HWr
  isplitl [HUl HUr]
  · iapply (pointsTo_share (PosShare.mem_left_op_right fullShare)).2
    isplitl [HUl]; · iexact HUl
    iexact HUr
  isplitl [Hx]; · iexact Hx
  isplitl [Hdl Hdr]
  · iapply (pointsTo_share (PosShare.mem_left_op_right fullShare)).2
    isplitl [Hdl]; · iexact Hdl
    iexact Hdr
  iexact Ho

end Deal

/-! ## The buffers' contents between items -/

variable (m : (ℓ : Loc nD τ sig) → Buf (Elt F) ℓ) (ρ : Dev nD → PrngReg)

/-- Core `c`'s unscoped buffers at launch. -/
abbrev val0 (c : Dev nD) : Valuation τ sig (Elt F) := fun b => m (c, b)
abbrev buf0 (c : Dev nD) (b : Ref sig .tc) : Buf (Elt F) ((c : Thread nD τ).loc b) := val0 m c b
/-- The degree column as the degree region's write-backs leave it. -/
def degArr (c : Dev nD) : Buf (Elt F) ((c : Thread nD τ).loc main_v0) := (dat0 (buf0 m) c).arrAt 4 cfg0.N
/-- After the degree region: the launch contents but for the degree column. -/
def val1 (c : Dev nD) : Valuation τ sig (Elt F) := Function.update (val0 m c) main_v0 (degArr m c)
abbrev buf1 (c : Dev nD) (b : Ref sig .tc) : Buf (Elt F) ((c : Thread nD τ).loc b) := val1 m c b
/-- The coupled array as the coupling region's write-backs leave it. -/
def outArr (c : Dev nD) : Buf (Elt F) ((c : Thread nD τ).loc main_v1) := (dat1 (buf1 m) c).arrAt 7 cfg1.N
/-- After the coupling region: the same but for the coupled array. -/
def val2 (c : Dev nD) : Valuation τ sig (Elt F) := Function.update (val1 m c) main_v1 (outArr m c)
abbrev buf2 (c : Dev nD) (b : Ref sig .tc) : Buf (Elt F) ((c : Thread nD τ).loc b) := val2 m c b
/-- After the host's two operations. -/
abbrev val3 (c : Dev nD) : Valuation τ sig (Elt F) := StableHlo.after hostOps2 (val2 m c)

theorem val1_deg (c : Dev nD) : val1 m c main_v0 = degArr m c := by unfold val1; exact Function.update_self _ _ _
theorem val1_of_ne (c : Dev nD) (r : Ref sig .tc) (h : r ≠ main_v0) : val1 m c r = val0 m c r := by
  unfold val1; exact Function.update_of_ne (StableHlo.devRef_ne_of_ne h) _ _
theorem val2_out (c : Dev nD) : val2 m c main_v1 = outArr m c := by unfold val2; exact Function.update_self _ _ _
theorem val2_of_ne (c : Dev nD) (r : Ref sig .tc) (h : r ≠ main_v1) : val2 m c r = val1 m c r := by
  unfold val2; exact Function.update_of_ne (StableHlo.devRef_ne_of_ne h) _ _
theorem val3_of (c : Dev nD) (r : Ref sig .tc) (h : r ∉ hostOps2_W) : val3 m c r = val2 m c r :=
  StableHlo.after_of_writes_sub hostOps2 _ hostOps2_writes h

/-- No item writes an argument. -/
theorem val3_arg (c : Dev nD) (r : Ref sig .tc) (h3 : r ∉ hostOps2_W) (h2 : r ≠ main_v1) (h1 : r ≠ main_v0) :
    val3 m c r = m ((c : Thread nD τ).loc r) :=
  (val3_of m c r h3).trans ((val2_of_ne m c r h2).trans ((val1_of_ne m c r h1).trans rfl))

/-- The result: the coupled array times w_scale broadcast over it. -/
theorem val3_result (c : Dev nD) :
    val3 m c main_v3 = mulf (outArr m c) (broadcastInDim S4x4096x64 ![] bcast_S_S4x4096x64 (m ((c : Thread nD τ).loc main_arg3))) := by
  show StableHlo.after hostOps2 (val2 m c) (Proc.devRef .tc main_v3) = _
  after_results
  rw [val2_out, val2_of_ne m c main_arg3 (by decide), val1_of_ne m c main_arg3 (by decide)]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (buf0 m) c
  | ⟨1, _⟩ => fun c => dat1 (buf1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (val3 m c) ∗ ∃ r, prngReg c r)

/-! ## The regions as segments -/

set_option backward.isDefEq.respectTransparency.types false in
/-- The degree region: entered from the launch contents, left at the contents with the degree column written. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (buf0 m) c).loose
  hwaits := Pipeline.hwaits_of_owed_zero _ _ _ _ L lv 0 fun _ _ => rfl
  pre c := iprop(StableHlo.held (c : Thread nD τ) (Pipeline.ucRefs τ sig) (val0 m c) ∗ R c)
  post c := iprop(StableHlo.held (c : Thread nD τ) (Pipeline.ucRefs τ sig) (val1 m c) ∗ R c)
  X c := iprop(emp)
  Y c := iprop(emp)
  Z c := iprop(Pipeline.unscopedRest (Ix := Unit) (Name := ℕ) (U := UR sig nD τ) (Lvl := ℕ) spec0 c (buf0 m c) ∗ ∃ r, prngReg c r)
  hentry c := by
    rw [Pipeline.ownSems0_none]
    have hsplit : (unscopedBufs (Ix := Unit) (Name := ℕ) (U := UR sig nD τ) (Lvl := ℕ) c (buf0 m c) : sProp 𝕄)
        ⊢ iprop((pdats m 0 c).arrays ((pdats m 0 c).arrAt · 0) ∗ Pipeline.unscopedRest (Ix := Unit) (Name := ℕ) (U := UR sig nD τ) (Lvl := ℕ) spec0 c (buf0 m c)) := by
      rw [show (unscopedBufs (Ix := Unit) (Name := ℕ) (U := UR sig nD τ) (Lvl := ℕ) c (buf0 m c) : sProp 𝕄)
            = iprop(Pipeline.arrBufs (Ix := Unit) (Name := ℕ) (U := UR sig nD τ) (Lvl := ℕ) spec0 c (buf0 m c)
                ∗ Pipeline.unscopedRest (Ix := Unit) (Name := ℕ) (U := UR sig nD τ) (Lvl := ℕ) spec0 c (buf0 m c))
          from Pipeline.unscopedBufs_split₀ cfgs 0 winFacts₀0.arr_unscoped c (buf0 m c)]
      exact sep_mono (deal0 (buf0 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := (show _ ⊢ (Pipeline.scopedRest (Ix := Unit) (Name := ℕ) (U := UR sig nD τ) (Lvl := ℕ) (Val := Elt F) spec0 c : sProp 𝕄) from by
      iintro ⟨-, -, Hr⟩; iexact Hr).trans (Φ0_in (buf0 m) c)
  hout c := (Φ0_out (buf0 m) c).trans (by
    rw [Pipeline.ownSems0_none]
    iintro HR
    isplitr; · iempintro
    isplitr; · iempintro
    iexact HR)
  hexit c := by
    have hjoin : iprop((pdats m 0 c).arrays ((pdats m 0 c).arrAt · cfg0.N) ∗ Pipeline.unscopedRest (Ix := Unit) (Name := ℕ) (U := UR sig nD τ) (Lvl := ℕ) spec0 c (buf0 m c))
        ⊢ (unscopedBufs (Ix := Unit) (Name := ℕ) (U := UR sig nD τ) (Lvl := ℕ) c (buf1 m c) : sProp 𝕄) := by
      rw [show (unscopedBufs (Ix := Unit) (Name := ℕ) (U := UR sig nD τ) (Lvl := ℕ) c (buf1 m c) : sProp 𝕄)
            = iprop(Pipeline.arrBufs (Ix := Unit) (Name := ℕ) (U := UR sig nD τ) (Lvl := ℕ) spec0 c (buf1 m c)
                ∗ Pipeline.unscopedRest (Ix := Unit) (Name := ℕ) (U := UR sig nD τ) (Lvl := ℕ) spec0 c (buf1 m c))
          from Pipeline.unscopedBufs_split₀ cfgs 0 winFacts₀0.arr_unscoped c (buf1 m c),
        unscopedRest0_eq c (buf1 m c), unscopedRest0_eq c (buf0 m c),
        show buf1 m c main_arg0 = buf0 m c main_arg0 from val1_of_ne m c main_arg0 (by decide),
        show buf1 m c main_arg3 = buf0 m c main_arg3 from val1_of_ne m c main_arg3 (by decide),
        show buf1 m c main_v1 = buf0 m c main_v1 from val1_of_ne m c main_v1 (by decide),
        show buf1 m c main_v2 = buf0 m c main_v2 from val1_of_ne m c main_v2 (by decide),
        show buf1 m c main_v3 = buf0 m c main_v3 from val1_of_ne m c main_v3 (by decide)]
      exact sep_mono (join0 (buf0 m) c (buf1 m c) _
        (((dat0 (buf0 m) c).arrAt_in 0 rfl cfg0.N).trans (val1_of_ne m c main_arg1 (by decide)).symm)
        (((dat0 (buf0 m) c).arrAt_in 1 rfl cfg0.N).trans (val1_of_ne m c main_arg1 (by decide)).symm)
        (((dat0 (buf0 m) c).arrAt_in 2 rfl cfg0.N).trans (val1_of_ne m c main_arg2 (by decide)).symm)
        (((dat0 (buf0 m) c).arrAt_in 3 rfl cfg0.N).trans (val1_of_ne m c main_arg2 (by decide)).symm)
        (val1_deg m c).symm) .rfl
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The coupling region: entered from the contents the degree region left, left at the contents with the coupled array
    written. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (buf1 m) c).loose
  hwaits := Pipeline.hwaits_of_owed_zero _ _ _ _ L lv 1 fun _ _ => rfl
  pre c := iprop(StableHlo.held (c : Thread nD τ) (Pipeline.ucRefs τ sig) (val1 m c) ∗ R c)
  post c := iprop(StableHlo.held (c : Thread nD τ) (Pipeline.ucRefs τ sig) (val2 m c) ∗ R c)
  X c := iprop(emp)
  Y c := iprop(emp)
  Z c := iprop(Pipeline.unscopedRest (Ix := Unit) (Name := ℕ) (U := UR sig nD τ) (Lvl := ℕ) spec1 c (buf1 m c) ∗ ∃ r, prngReg c r)
  hentry c := by
    rw [Pipeline.ownSems0_none]
    have hsplit : (unscopedBufs (Ix := Unit) (Name := ℕ) (U := UR sig nD τ) (Lvl := ℕ) c (buf1 m c) : sProp 𝕄)
        ⊢ iprop((pdats m 1 c).arrays ((pdats m 1 c).arrAt · 0) ∗ Pipeline.unscopedRest (Ix := Unit) (Name := ℕ) (U := UR sig nD τ) (Lvl := ℕ) spec1 c (buf1 m c)) := by
      rw [show (unscopedBufs (Ix := Unit) (Name := ℕ) (U := UR sig nD τ) (Lvl := ℕ) c (buf1 m c) : sProp 𝕄)
            = iprop(Pipeline.arrBufs (Ix := Unit) (Name := ℕ) (U := UR sig nD τ) (Lvl := ℕ) spec1 c (buf1 m c)
                ∗ Pipeline.unscopedRest (Ix := Unit) (Name := ℕ) (U := UR sig nD τ) (Lvl := ℕ) spec1 c (buf1 m c))
          from Pipeline.unscopedBufs_split₀ cfgs 1 winFacts₀1.arr_unscoped c (buf1 m c)]
      exact sep_mono (deal1 (buf1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := (show _ ⊢ (Pipeline.scopedRest (Ix := Unit) (Name := ℕ) (U := UR sig nD τ) (Lvl := ℕ) (Val := Elt F) spec1 c : sProp 𝕄) from by
      iintro ⟨-, -, Hr⟩; iexact Hr).trans (Φ1_in (buf1 m) c)
  hout c := (Φ1_out (buf1 m) c).trans (by
    rw [Pipeline.ownSems0_none]
    iintro HR
    isplitr; · iempintro
    isplitr; · iempintro
    iexact HR)
  hexit c := by
    have hjoin : iprop((pdats m 1 c).arrays ((pdats m 1 c).arrAt · cfg1.N) ∗ Pipeline.unscopedRest (Ix := Unit) (Name := ℕ) (U := UR sig nD τ) (Lvl := ℕ) spec1 c (buf1 m c))
        ⊢ (unscopedBufs (Ix := Unit) (Name := ℕ) (U := UR sig nD τ) (Lvl := ℕ) c (buf2 m c) : sProp 𝕄) := by
      rw [show (unscopedBufs (Ix := Unit) (Name := ℕ) (U := UR sig nD τ) (Lvl := ℕ) c (buf2 m c) : sProp 𝕄)
            = iprop(Pipeline.arrBufs (Ix := Unit) (Name := ℕ) (U := UR sig nD τ) (Lvl := ℕ) spec1 c (buf2 m c)
                ∗ Pipeline.unscopedRest (Ix := Unit) (Name := ℕ) (U := UR sig nD τ) (Lvl := ℕ) spec1 c (buf2 m c))
          from Pipeline.unscopedBufs_split₀ cfgs 1 winFacts₀1.arr_unscoped c (buf2 m c),
        unscopedRest1_eq c (buf2 m c), unscopedRest1_eq c (buf1 m c),
        show buf2 m c main_arg3 = buf1 m c main_arg3 from val2_of_ne m c main_arg3 (by decide),
        show buf2 m c main_v2 = buf1 m c main_v2 from val2_of_ne m c main_v2 (by decide),
        show buf2 m c main_v3 = buf1 m c main_v3 from val2_of_ne m c main_v3 (by decide)]
      exact sep_mono (join1 (buf1 m) c (buf2 m c) _
        (((dat1 (buf1 m) c).arrAt_in 0 rfl cfg1.N).trans (val2_of_ne m c main_arg1 (by decide)).symm)
        (((dat1 (buf1 m) c).arrAt_in 1 rfl cfg1.N).trans (val2_of_ne m c main_arg1 (by decide)).symm)
        (((dat1 (buf1 m) c).arrAt_in 2 rfl cfg1.N).trans (val2_of_ne m c main_arg2 (by decide)).symm)
        (((dat1 (buf1 m) c).arrAt_in 3 rfl cfg1.N).trans (val2_of_ne m c main_arg2 (by decide)).symm)
        (((dat1 (buf1 m) c).arrAt_in 4 rfl cfg1.N).trans (val2_of_ne m c main_arg0 (by decide)).symm)
        (((dat1 (buf1 m) c).arrAt_in 5 rfl cfg1.N).trans (val2_of_ne m c main_v0 (by decide)).symm)
        (((dat1 (buf1 m) c).arrAt_in 6 rfl cfg1.N).trans (val2_of_ne m c main_v0 (by decide)).symm)
        (val2_out m c).symm) .rfl
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (val2 m)) ]

theorem main_run (c : Dev nD) : main (F := F) c = Pipeline.Seg.run (segs m) := (main_chain c).trans (by chain_rfl)

set_option backward.isDefEq.respectTransparency.types false in
/-- From any memory with zero counters every weakly fair execution of the program terminates, nothing faulting; the
    result buffer ends at the coupled array times the broadcast w_scale, and the four arguments end as launched. -/
theorem run : θ_run defs (onTc (τ := τ) (main (F := F))) ⟨m, fun _ => 0, ρ⟩ (fun r => ∀ c : Dev nD,
      r.2.mem ((c.tc : Thread nD τ).loc main_v3)
          = mulf (outArr m c) (broadcastInDim S4x4096x64 ![] bcast_S_S4x4096x64 (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (val0 m c) ∗ R c)) (Tₙ := Tₙ m)
    (hch := ⟨fun _ => .rfl, fun _ => .rfl, fun _ => .rfl, fun c => (show iprop(StableHlo.held (c : Thread nD τ) (Pipeline.ucRefs τ sig) (val3 m c) ∗ R c)
        ⊢ (iprop(Tₙ m c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (val0 m c)
        from Pipeline.unscopedBufs_held c (val0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = val3 m c b)
    (hfin := fun c s' => by
      iintro ⟨⟨Hh, -⟩, HSI⟩
      unfold StableHlo.held
      imodintro
      iapply (pointsTo_read_all (Pipeline.ucRefs τ sig) (fun b => (((c : Thread nD τ)).1, b)) (val3 m c) s')
      isplitl [Hh] <;> iassumption)
    (hQ := fun s h c =>
      ⟨(h c _ (mem_uc main_v3 (by decide))).trans (val3_result m c),
       (h c _ (mem_uc main_arg0 (by decide))).trans (val3_arg m c main_arg0 (by decide) (by decide) (by decide)),
       (h c _ (mem_uc main_arg1 (by decide))).trans (val3_arg m c main_arg1 (by decide) (by decide) (by decide)),
       (h c _ (mem_uc main_arg2 (by decide))).trans (val3_arg m c main_arg2 (by decide) (by decide) (by decide)),
       (h c _ (mem_uc main_arg3 (by decide))).trans (val3_arg m c main_arg3 (by decide) (by decide) (by decide))⟩)

/-- The frame: the program runs and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Hand

end
-- ==== Proof.LibMatmul.lean ====
/-
  A product of two matrices, read at an entry (a general lemma: nothing here depends on a program).

  Two layouts of a contraction over one axis, without batch axes. In the first the left factor is [A, K] and is
  contracted on its axis 1, the right factor is [K, B] and is contracted on its axis 0: entry (i, j) of the product
  is the sum over k of l[i, k] * r[k, j]. In the second the left factor is [K, A] and is contracted on its axis 0
  (the product with the transpose of the left factor), the right factor is again [K, B] contracted on its axis 0:
  entry (i, j) is the sum over k of l[k, i] * r[k, j]. Over the extended reals the host's product is exactly that
  sum, and the matrix unit's is the accumulator's entry plus that sum.
-/
import Idealize.ShloMosaic.Lib.ValueIdx
import Idealize.ShloMosaic.PureOps.Ideal.Laws

noncomputable section

namespace Cert.Lib.MatMul

open Idealize.ShloMosaic Idealize.ShloMosaic.ValueIdx

/-! ## Left factor [A, K] on its axis 1, right factor [K, B] on its axis 0 -/

section Plain

/-- The dimension numbers of [A, K] times [K, B]: the left factor contracted on axis 1, the right on axis 0, no
    batch axes. -/
abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

/-- The left factor's row is the result's row. -/
theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

/-- The left factor's column is the contraction position. -/
theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

/-- The right factor's row is the contraction position. -/
theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

/-- The right factor's column is the result's column. -/
theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

/-- The contraction's sum, re-indexed by the one coordinate k: the sum over k of l[i, k] * r[k, j]. -/
theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

/-- The host's product at entry (i, j): the sum over k of l[i, k] * r[k, j]. -/
theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

/-- The matrix unit's product at entry (i, j): the accumulator there plus the sum over k of l[i, k] * r[k, j]. -/
theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

/-! ## Left factor [K, A] on its axis 0, right factor [K, B] on its axis 0 -/

section LeftTransposed

/-- The dimension numbers of the transpose of [K, A] times [K, B]: both factors contracted on axis 0, no batch
    axes. -/
abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

/-- The left factor's row is the contraction position. -/
theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

/-- The left factor's column is the result's row. -/
theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

/-- The right factor's row is the contraction position. -/
theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

/-- The right factor's column is the result's column. -/
theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

/-- The contraction's sum, re-indexed by the one coordinate k: the sum over k of l[k, i] * r[k, j]. -/
theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

/-- The host's product at entry (i, j): the sum over k of l[k, i] * r[k, j]. -/
theorem dotT_apply {φ₁ φ₂ : FTy} (prec : Option ContractPrecision) (l : FVec Ideal ⟨2, ![K, A]⟩ φ₁)
    (r : FVec Ideal ⟨2, ![K, B]⟩ φ₂) (i : Fin A) (j : Fin B) :
    Host.dotGeneral (F := Ideal) (mmTD K A B wf) prec l r (ix2 i j) = ∑ k : Fin K, l (ix2 k i) * r (ix2 k j) := by
  simp only [Host.dotGeneral]
  rw [Ideal.dotGeneral_apply]
  exact mmT_sum wf l r i j

/-- The matrix unit's product at entry (i, j): the accumulator there plus the sum over k of l[k, i] * r[k, j]. -/
theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.Ideal.PointValue.lean ====
/-
  The payloads of the two kernel bodies read at one entry, on the extended reals.

  A point's contribution to the running degree column at row p is one half of the two gated row totals: the direct block's
  row p against the gate of (p, j), and the transposed-source block's column p against the gate of (j, p), each times the
  ones vector. The coupling kernel's contribution at (p, q) is the same with the ones vector replaced by d[j] * x[j, q].
-/
import proofs.«162411_j3959959847448_1_alg».proof.Proof.Gen.KernelIdeal.Skeleton
import proofs.«162411_j3959959847448_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

/-! ## The gate product: both factors [512, 16], each contracted on its axis 1 -/

/-- The left factor's row is the result's row. -/
theorem gate_lhs0 (j : S512x512.Idx) (q : dot_S512x16_S512x16_S512x512_1_1_0_0_n_n.contr.Idx) :
    (dot_S512x16_S512x16_S512x512_1_1_0_0_n_n.lhsIdx j q 0).val = (j 0).val := by
  unfold DotDims.lhsIdx
  rw [dif_neg (show ¬(0 : Fin S512x16.rank) ∈ dot_S512x16_S512x16_S512x512_1_1_0_0_n_n.lhsBatch by decide),
    dif_pos (show (0 : Fin S512x16.rank) ∈ dot_S512x16_S512x16_S512x512_1_1_0_0_n_n.lhsNonContracting by decide)]
  rfl

/-- The left factor's column is the contraction position. -/
theorem gate_lhs1 (j : S512x512.Idx) (q : dot_S512x16_S512x16_S512x512_1_1_0_0_n_n.contr.Idx) :
    (dot_S512x16_S512x16_S512x512_1_1_0_0_n_n.lhsIdx j q 1).val = (q ⟨0, by decide⟩).val :=
  dot_S512x16_S512x16_S512x512_1_1_0_0_n_n.lhsIdx_val_of_single rfl j q

/-- The right factor's row is the result's column. -/
theorem gate_rhs0 (j : S512x512.Idx) (q : dot_S512x16_S512x16_S512x512_1_1_0_0_n_n.contr.Idx) :
    (dot_S512x16_S512x16_S512x512_1_1_0_0_n_n.rhsIdx j q 0).val = (j 1).val := by
  unfold DotDims.rhsIdx
  rw [dif_neg (show ¬(0 : Fin S512x16.rank) ∈ dot_S512x16_S512x16_S512x512_1_1_0_0_n_n.rhsBatch by decide),
    dif_pos (show (0 : Fin S512x16.rank) ∈ dot_S512x16_S512x16_S512x512_1_1_0_0_n_n.rhsNonContracting by decide)]
  rfl

/-- The right factor's column is the contraction position. -/
theorem gate_rhs1 (j : S512x512.Idx) (q : dot_S512x16_S512x16_S512x512_1_1_0_0_n_n.contr.Idx) :
    (dot_S512x16_S512x16_S512x512_1_1_0_0_n_n.rhsIdx j q 1).val = (q ⟨0, by decide⟩).val :=
  dot_S512x16_S512x16_S512x512_1_1_0_0_n_n.rhsIdx_val_of_single rfl j q

/-- The gate product into the cleared block at (p, j): the sum over r of a[p, r] * b[j, r]. -/
theorem gate_apply {φ₁ φ₂ : FTy} (a : FVec Ideal S512x16 φ₁) (b : FVec Ideal S512x16 φ₂) (p j : Fin 512) :
    matmul (F := Ideal) dot_S512x16_S512x16_S512x512_1_1_0_0_n_n none a b (constant S512x512 .f32 0x00000000#32) (ix2 p j)
      = ∑ r : Fin 16, a (ix2 p r) * b (ix2 j r) := by
  simp only [matmul]
  rw [Ideal.matmul_constant_zero_apply,
    ← Equiv.sum_comp (contrEquiv1 dot_S512x16_S512x16_S512x512_1_1_0_0_n_n 16 rfl rfl).symm]
  refine Finset.sum_congr rfl fun k _ => ?_
  have hk := contrEquiv1_symm_val dot_S512x16_S512x16_S512x512_1_1_0_0_n_n 16 rfl rfl k
  have el : dot_S512x16_S512x16_S512x512_1_1_0_0_n_n.lhsIdx (ix2 p j)
      ((contrEquiv1 dot_S512x16_S512x16_S512x512_1_1_0_0_n_n 16 rfl rfl).symm k) = ix2 p k :=
    funext fun c => Fin.ext (by
      match c with
      | ⟨0, _⟩ => exact gate_lhs0 _ _
      | ⟨1, _⟩ => exact (gate_lhs1 _ _).trans hk)
  have er : dot_S512x16_S512x16_S512x512_1_1_0_0_n_n.rhsIdx (ix2 p j)
      ((contrEquiv1 dot_S512x16_S512x16_S512x512_1_1_0_0_n_n 16 rfl rfl).symm k) = ix2 j k :=
    funext fun c => Fin.ext (by
      match c with
      | ⟨0, _⟩ => exact gate_rhs0 _ _
      | ⟨1, _⟩ => exact (gate_rhs1 _ _).trans hk)
  rw [el, er]

/-! ## The four row-and-column totals, into the cleared block -/

/-- Rows of a [512, 512] block against a column: entry (p, 0) is the sum over j of m[p, j] * v[j, 0]. -/
theorem rows1_apply {φ₁ φ₂ : FTy} (m : FVec Ideal S512x512 φ₁) (v : FVec Ideal S512x1 φ₂) (p : Fin 512) :
    matmul (F := Ideal) dot_S512x512_S512x1_S512x1_1_0_0_1_n_n none m v (constant S512x1 .f32 0x00000000#32) (ix2 p 0)
      = ∑ j : Fin 512, m (ix2 p j) * v (ix2 j 0) := by
  refine (Cert.Lib.MatMul.matmul_apply (A := 512) (K := 512) (B := 1)
    dot_S512x512_S512x1_S512x1_1_0_0_1_n_n_wf none m v (constant S512x1 .f32 0x00000000#32) p 0).trans ?_
  show Ideal.ofBits .f32 0x00000000#32 + _ = _
  rw [Ideal.ofBits_zero_f32, zero_add]

/-- Columns of a [512, 512] block against a column: entry (p, 0) is the sum over j of m[j, p] * v[j, 0]. -/
theorem cols1_apply {φ₁ φ₂ : FTy} (m : FVec Ideal S512x512 φ₁) (v : FVec Ideal S512x1 φ₂) (p : Fin 512) :
    matmul (F := Ideal) dot_S512x512_S512x1_S512x1_0_0_1_1_n_n none m v (constant S512x1 .f32 0x00000000#32) (ix2 p 0)
      = ∑ j : Fin 512, m (ix2 j p) * v (ix2 j 0) := by
  refine (Cert.Lib.MatMul.matmulT_apply (K := 512) (A := 512) (B := 1)
    dot_S512x512_S512x1_S512x1_0_0_1_1_n_n_wf none m v (constant S512x1 .f32 0x00000000#32) p 0).trans ?_
  show Ideal.ofBits .f32 0x00000000#32 + _ = _
  rw [Ideal.ofBits_zero_f32, zero_add]

/-- Rows of a [512, 512] block against a [512, 64] block: entry (p, q) is the sum over j of m[p, j] * v[j, q]. -/
theorem rows64_apply {φ₁ φ₂ : FTy} (m : FVec Ideal S512x512 φ₁) (v : FVec Ideal S512x64 φ₂) (p : Fin 512) (q : Fin 64) :
    matmul (F := Ideal) dot_S512x512_S512x64_S512x64_1_0_0_1_n_n none m v (constant S512x64 .f32 0x00000000#32) (ix2 p q)
      = ∑ j : Fin 512, m (ix2 p j) * v (ix2 j q) := by
  refine (Cert.Lib.MatMul.matmul_apply (A := 512) (K := 512) (B := 64)
    dot_S512x512_S512x64_S512x64_1_0_0_1_n_n_wf none m v (constant S512x64 .f32 0x00000000#32) p q).trans ?_
  show Ideal.ofBits .f32 0x00000000#32 + _ = _
  rw [Ideal.ofBits_zero_f32, zero_add]

/-- Columns of a [512, 512] block against a [512, 64] block: entry (p, q) is the sum over j of m[j, p] * v[j, q]. -/
theorem cols64_apply {φ₁ φ₂ : FTy} (m : FVec Ideal S512x512 φ₁) (v : FVec Ideal S512x64 φ₂) (p : Fin 512) (q : Fin 64) :
    matmul (F := Ideal) dot_S512x512_S512x64_S512x64_0_0_1_1_n_n none m v (constant S512x64 .f32 0x00000000#32) (ix2 p q)
      = ∑ j : Fin 512, m (ix2 j p) * v (ix2 j q) := by
  refine (Cert.Lib.MatMul.matmulT_apply (K := 512) (A := 512) (B := 64)
    dot_S512x512_S512x64_S512x64_0_0_1_1_n_n_wf none m v (constant S512x64 .f32 0x00000000#32) p q).trans ?_
  show Ideal.ofBits .f32 0x00000000#32 + _ = _
  rw [Ideal.ofBits_zero_f32, zero_add]

/-- The logistic of a block reads the logistic of the entry. -/
theorem logistic_apply {s : Shape} {φ : FTy} (a : FVec Ideal s φ) (i : s.Idx) : logistic a i = Ideal.logistic (a i) := rfl

/-- The reciprocal square root of a block reads that of the entry. -/
theorem rsqrt_apply {s : Shape} {φ : FTy} (a : FVec Ideal s φ) (i : s.Idx) : rsqrt a i = Ideal.rsqrt (a i) := rfl

/-- A column broadcast along 64 columns reads, at (p, q), the column at p. -/
theorem bcast64_apply {α : Type} (v : S512x1.Idx → α) (p : Fin 512) (q : Fin 64) :
    broadcastTo S512x64 v broadcasts_S512x1_S512x64 (ix2 p q) = v (ix2 p 0) := by
  refine broadcastTo_apply v broadcasts_S512x1_S512x64 (ix2 p q) (ix2 p 0) fun ax => ?_
  match ax with
  | ⟨0, _⟩ => rfl
  | ⟨1, _⟩ => rfl

/-! ## The payloads -/

/-- The cleared running column. -/
theorem degree_zero (i : S512x1.Idx) : k0_pay2 (F := Ideal) i = 0 := by
  unfold k0_pay2
  rw [shapeCast_self]
  exact Ideal.ofBits_zero_f32

/-- The cleared running block. -/
theorem coupling_zero (i : S512x64.Idx) : k1_pay3 (F := Ideal) i = 0 := by
  unfold k1_pay3
  rw [shapeCast_self]
  exact Ideal.ofBits_zero_f32

/-- The running column after a point, at row `p`. -/
theorem degree_step (ui uj : Vec Ideal S512x16 .f32) (wd wt : Vec Ideal S1x512x512 .f32) (s : Vec Ideal S512x1 .f32) (p : Fin 512) :
    k0_pay3 (F := Ideal) ui uj wd wt s (ix2 p 0)
      = s (ix2 p 0) + Ideal.ofBits .f32 0x3F000000#32
          * ((∑ j : Fin 512, (wd (ix3 0 p j) * Ideal.logistic (∑ r : Fin 16, ui (ix2 p r) * uj (ix2 j r))) * Ideal.ofBits .f32 0x3F800000#32)
            + ∑ j : Fin 512, (wt (ix3 0 j p) * Ideal.logistic (∑ r : Fin 16, uj (ix2 j r) * ui (ix2 p r))) * Ideal.ofBits .f32 0x3F800000#32) := by
  unfold k0_pay3
  rw [shapeCast_self]
  simp only [addf_apply, mulf_apply, broadcast_apply, rows1_apply, cols1_apply, truncf_apply, logistic_apply, gate_apply,
    shapeCast_1ab_ab_apply, Ideal.ofBits_def]

/-- The output block from the completed column, at row `p`. -/
theorem degree_final (s : Vec Ideal S512x1 .f32) (p : Fin 512) :
    k0_pay1 (F := Ideal) s (ix3 0 p 0) = Ideal.rsqrt (max (s (ix2 p 0)) (Ideal.ofBits .f32 0x2B8CBCCC#32)) := by
  unfold k0_pay1
  refine (shapeCast_ab_1ab_apply _ shapeCasts_S512x1_S1x512x1 0 p 0).trans ?_
  rfl

/-- A point's contribution to the running block, at (p, q). -/
theorem coupling_step (ui uj : Vec Ideal S512x16 .f32) (wd wt : Vec Ideal S1x512x512 .f32)
    (dj : Vec Ideal S1x512x1 .f32) (xj : Vec Ideal S1x512x64 .f32) (p : Fin 512) (q : Fin 64) :
    k1_pay4 (F := Ideal) ui uj wd wt dj xj (ix2 p q)
      = Ideal.ofBits .f32 0x3F000000#32
          * ((∑ j : Fin 512, (wd (ix3 0 p j) * Ideal.logistic (∑ r : Fin 16, ui (ix2 p r) * uj (ix2 j r))) * (dj (ix3 0 j 0) * xj (ix3 0 j q)))
            + ∑ j : Fin 512, (wt (ix3 0 j p) * Ideal.logistic (∑ r : Fin 16, uj (ix2 j r) * ui (ix2 p r))) * (dj (ix3 0 j 0) * xj (ix3 0 j q))) := by
  unfold k1_pay4
  simp only [addf_apply, mulf_apply, broadcast_apply, rows64_apply, cols64_apply, truncf_apply, logistic_apply, gate_apply,
    shapeCast_1ab_ab_apply, bcast64_apply, Ideal.ofBits_def]

/-- The running block after a point: what it held plus the contribution. -/
theorem coupling_add (v30 : FVec Ideal S512x64 .f32) (v31 : Vec Ideal S512x64 .f32) (i : S512x64.Idx) :
    k1_pay1 (F := Ideal) v30 v31 i = v31 i + v30 i := by
  unfold k1_pay1
  rw [shapeCast_self]
  rfl

/-- The output block from the completed running block, at (p, q). -/
theorem coupling_final (di : Vec Ideal S1x512x1 .f32) (acc : Vec Ideal S512x64 .f32) (p : Fin 512) (q : Fin 64) :
    k1_pay2 (F := Ideal) di acc (ix3 0 p q) = di (ix3 0 p 0) * acc (ix2 p q) := by
  unfold k1_pay2
  refine (shapeCast_ab_1ab_apply _ shapeCasts_S512x64_S1x512x64 0 p q).trans ?_
  rw [mulf_apply, bcast64_apply, shapeCast_1ab_ab_apply]

end Cert.KernelIdeal.Hand

end
-- ==== Proof.Model.lean ====
/-
  The program's value over the reals, written once for both sides to meet.

  W is a stack of four square matrices, U a tall matrix of rank-16 factors, x a stack of four matrices of 64 channels.
  The gate between rows I and J is the logistic function of the inner product of U's rows I and J. An entry of the
  gated symmetrised matrix is `h (W I J + W J I)` times the gate, `h` the literal one half; a row's degree is the sum of
  its entries; the normaliser is the reciprocal square root of the degree clamped from below by the positive literal
  `e`; the coupling of row I with channel c sums, over J, the entry times both normalisers times x at (J, c); and the
  result scales the coupling by w_scale.
-/
import Idealize.ShloMosaic.PureOps.Ideal
import Idealize.ShloMosaic.Lib.ValueIdx

noncomputable section

namespace Cert.Model

open Idealize.ShloMosaic Idealize.ShloMosaic.ValueIdx

abbrev SW : Shape := ⟨3, ![4, 4096, 4096]⟩
abbrev SU : Shape := ⟨2, ![4096, 16]⟩
abbrev SX : Shape := ⟨3, ![4, 4096, 64]⟩
abbrev SD : Shape := ⟨3, ![4, 4096, 1]⟩

variable (W : SW.Idx → ℝ) (U : SU.Idx → ℝ) (x : SX.Idx → ℝ) (ws h e : ℝ)

/-- The gate between rows `I` and `J`: the logistic function of the inner product of `U`'s rows. -/
def gate (I J : Fin 4096) : ℝ := (1 + Real.exp (-(∑ r : Fin 16, U (ix2 I r) * U (ix2 J r))))⁻¹

/-- The gate is symmetric. -/
theorem gate_comm (I J : Fin 4096) : gate U I J = gate U J I := by
  have hs : ∑ r : Fin 16, U (ix2 I r) * U (ix2 J r) = ∑ r : Fin 16, U (ix2 J r) * U (ix2 I r) :=
    Finset.sum_congr rfl fun r _ => mul_comm (U (ix2 I r)) (U (ix2 J r))
  unfold gate; rw [hs]

/-- An entry of the gated, symmetrised matrix of batch `b`. -/
def kern (b : Fin 4) (I J : Fin 4096) : ℝ := (h * (W (ix3 b I J) + W (ix3 b J I))) * gate U I J

/-- A row's degree. -/
def deg (b : Fin 4) (I : Fin 4096) : ℝ := ∑ J : Fin 4096, kern W U h b I J

/-- The normaliser of a row: the reciprocal square root of its degree clamped from below by `e`. -/
def dinv (b : Fin 4) (I : Fin 4096) : ℝ := (Real.sqrt (max (deg W U h b I) e))⁻¹

/-- The coupling of row `I` with channel `c`, over any column `d` of normalisers. -/
def coupleWith (d : SD.Idx → ℝ) (b : Fin 4) (I : Fin 4096) (c : Fin 64) : ℝ :=
  ∑ J : Fin 4096, ((kern W U h b I J * d (ix3 b I 0)) * d (ix3 b J 0)) * x (ix3 b J c)

/-- The column of normalisers. -/
def dcol : SD.Idx → ℝ := fun i => dinv W U h e (i 0) (i 1)

/-- The coupling of row `I` with channel `c`. -/
def couple (b : Fin 4) (I : Fin 4096) (c : Fin 64) : ℝ := coupleWith W U x h (dcol W U h e) b I c

/-- The result. -/
def result (b : Fin 4) (I : Fin 4096) (c : Fin 64) : ℝ := ws * couple W U x h e b I c

end Cert.Model

end
-- ==== Proof.Literals.lean ====
/-
  The float literals the two programs spell, as the extended reals their words denote: zero, one, one half, and the
  clamp 9223372 / 2^63, a positive real a little under 1e-12.
-/
import Idealize.ShloMosaic.PureOps.Ideal

noncomputable section

namespace Cert.Literals

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- One half. -/
def half : ℝ := 1 / 2
theorem ofBits_half : Ideal.ofBits .f32 0x3F000000#32 = ((half : ℝ) : EReal) := by
  unfold half; simp [Ideal.ofBits, Ideal.ieee, -EReal.coe_mul]; norm_num

/-- The clamp. -/
def clamp : ℝ := 9223372 * (2 : ℝ) ^ (-63 : ℤ)
theorem clamp_pos : 0 < clamp := by unfold clamp; positivity
theorem ofBits_clamp : Ideal.ofBits .f32 0x2B8CBCCC#32 = ((clamp : ℝ) : EReal) := by
  unfold clamp; simp [Ideal.ofBits, Ideal.ieee, -EReal.coe_mul]

end Cert.Literals

end
-- ==== Proof.RealCoe.lean ====
/-
  The coercion of the reals into the extended reals commutes with finite sums.
-/
import Mathlib.Data.EReal.Basic
import Mathlib.Algebra.BigOperators.Group.Finset.Basic

namespace Cert.RealCoe

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

end Cert.RealCoe
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.Ideal.DegreeValue.lean ====
/-
  The degree column the degree region leaves, over the reals.

  Entry (b, I) of the column is written back once, by the last of the eight points of (b, bi), bi the block row of I.
  The running column those eight points build is the sum of their contributions; over the reals the eight half row totals
  regroup into the row total of the gated symmetrised matrix, because the gate is symmetric and the blocks tile the row.
-/
import proofs.«162411_j3959959847448_1_alg».proof.Proof.Ideal.DegreeData
import proofs.«162411_j3959959847448_1_alg».proof.Proof.Ideal.PointValue
import proofs.«162411_j3959959847448_1_alg».proof.Proof.Model
import proofs.«162411_j3959959847448_1_alg».proof.Proof.Literals
import proofs.«162411_j3959959847448_1_alg».proof.Proof.RealCoe
import proofs.«162411_j3959959847448_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! ## Where each window's block sits -/

/-- The block index of each window at point `t`, axis by axis: the point's batch, block row and block column. -/
theorem block_index : ∀ t : Fin cfg0.N,
    win0_0.index t (0 : Fin 3) = t.val / 64 ∧ win0_0.index t (1 : Fin 3) = t.val / 8 % 8 ∧ win0_0.index t (2 : Fin 3) = t.val % 8
    ∧ win0_1.index t (0 : Fin 3) = t.val / 64 ∧ win0_1.index t (1 : Fin 3) = t.val % 8 ∧ win0_1.index t (2 : Fin 3) = t.val / 8 % 8
    ∧ win0_2.index t (0 : Fin 2) = t.val / 8 % 8 ∧ win0_2.index t (1 : Fin 2) = 0
    ∧ win0_3.index t (0 : Fin 2) = t.val % 8 ∧ win0_3.index t (1 : Fin 2) = 0
    ∧ win0_4.index t (0 : Fin 3) = t.val / 64 ∧ win0_4.index t (1 : Fin 3) = t.val / 8 % 8 ∧ win0_4.index t (2 : Fin 3) = 0 :=
  (by decide +kernel : ∀ t : Fin grid0.N, _)

section Blocks

variable {F : FTy → Type} [FloatOps F]
variable (V : (c : Dev nD) → (b : Ref sig .tc) → Buf (Elt F) ((c : Thread nD τ).loc b))

/-- The direct block of W at point `t`, entry (p, j): W at the point's batch, row p of block row bi, column j of block column bj. -/
theorem wd0_apply (c : Dev nD) (t : Fin cfg0.N) (p j : Fin 512) (k : S4x4096x4096.Idx)
    (h0 : (k 0).val = t.val / 64) (h1 : (k 1).val = 512 * (t.val / 8 % 8) + p.val) (h2 : (k 2).val = 512 * (t.val % 8) + j.val) :
    wd0 V c t (ix3 0 p j) = V c main_arg1 k := by
  obtain ⟨e0, e1, e2, -⟩ := block_index t
  show V c main_arg1 (((cfg0.win 0).blk t).view.emb (ix3 0 p j)) = V c main_arg1 k
  congr 1
  funext a; apply Fin.ext
  match a with
  | ⟨0, _⟩ => show win0_0.index t (0 : Fin 3) * 1 + 1 * ((0 : Fin 1) : ℕ) = (k 0).val; rw [e0, h0]; simp
  | ⟨1, _⟩ => show win0_0.index t (1 : Fin 3) * 512 + 1 * p.val = (k 1).val; rw [e1, h1]; omega
  | ⟨2, _⟩ => show win0_0.index t (2 : Fin 3) * 512 + 1 * j.val = (k 2).val; rw [e2, h2]; omega

/-- The transposed-source block of W at point `t`, entry (j, p): W at the point's batch, row j of block row bj, column p of block column bi. -/
theorem wt0_apply (c : Dev nD) (t : Fin cfg0.N) (j p : Fin 512) (k : S4x4096x4096.Idx)
    (h0 : (k 0).val = t.val / 64) (h1 : (k 1).val = 512 * (t.val % 8) + j.val) (h2 : (k 2).val = 512 * (t.val / 8 % 8) + p.val) :
    wt0 V c t (ix3 0 j p) = V c main_arg1 k := by
  obtain ⟨-, -, -, e0, e1, e2, -⟩ := block_index t
  show V c main_arg1 (((cfg0.win 1).blk t).view.emb (ix3 0 j p)) = V c main_arg1 k
  congr 1
  funext a; apply Fin.ext
  match a with
  | ⟨0, _⟩ => show win0_1.index t (0 : Fin 3) * 1 + 1 * ((0 : Fin 1) : ℕ) = (k 0).val; rw [e0, h0]; simp
  | ⟨1, _⟩ => show win0_1.index t (1 : Fin 3) * 512 + 1 * j.val = (k 1).val; rw [e1, h1]; omega
  | ⟨2, _⟩ => show win0_1.index t (2 : Fin 3) * 512 + 1 * p.val = (k 2).val; rw [e2, h2]; omega

/-- U's rows of block row bi at point `t`. -/
theorem ui0_apply (c : Dev nD) (t : Fin cfg0.N) (p : Fin 512) (r : Fin 16) (k : S4096x16.Idx)
    (h0 : (k 0).val = 512 * (t.val / 8 % 8) + p.val) (h1 : (k 1).val = r.val) :
    ui0 V c t (ix2 p r) = V c main_arg2 k := by
  obtain ⟨-, -, -, -, -, -, e0, e1, -⟩ := block_index t
  show V c main_arg2 (((cfg0.win 2).blk t).view.emb (ix2 p r)) = V c main_arg2 k
  congr 1
  funext a; apply Fin.ext
  match a with
  | ⟨0, _⟩ => show win0_2.index t (0 : Fin 2) * 512 + 1 * p.val = (k 0).val; rw [e0, h0]; omega
  | ⟨1, _⟩ => show win0_2.index t (1 : Fin 2) * 16 + 1 * r.val = (k 1).val; rw [e1, h1]; omega

/-- U's rows of block row bj at point `t`. -/
theorem uj0_apply (c : Dev nD) (t : Fin cfg0.N) (j : Fin 512) (r : Fin 16) (k : S4096x16.Idx)
    (h0 : (k 0).val = 512 * (t.val % 8) + j.val) (h1 : (k 1).val = r.val) :
    uj0 V c t (ix2 j r) = V c main_arg2 k := by
  obtain ⟨-, -, -, -, -, -, -, -, e0, e1, -⟩ := block_index t
  show V c main_arg2 (((cfg0.win 3).blk t).view.emb (ix2 j r)) = V c main_arg2 k
  congr 1
  funext a; apply Fin.ext
  match a with
  | ⟨0, _⟩ => show win0_3.index t (0 : Fin 2) * 512 + 1 * j.val = (k 0).val; rw [e0, h0]; omega
  | ⟨1, _⟩ => show win0_3.index t (1 : Fin 2) * 16 + 1 * r.val = (k 1).val; rw [e1, h1]; omega

end Blocks

/-! ## One point's contribution, over the reals -/

/-- Row `j` of block `s` among the 4096 rows. -/
def row (s : ℕ) (j : Fin 512) : Fin 4096 :=
  ⟨512 * (s % 8) + j.val, by have := j.isLt; have := Nat.mod_lt s (show 8 > 0 by decide); omega⟩

/-- What block column `s` adds to row `I` of batch `b`: one half of the gated direct entries plus the gated transposed entries. -/
def part (W : Model.SW.Idx → ℝ) (U : Model.SU.Idx → ℝ) (b : Fin 4) (I : Fin 4096) (s : ℕ) : ℝ :=
  Literals.half * ((∑ j : Fin 512, W (ix3 b I (row s j)) * Model.gate U I (row s j))
    + ∑ j : Fin 512, W (ix3 b (row s j) I) * Model.gate U (row s j) I)

/-- The eight contributions of a row add up to its degree: the gate is symmetric and the blocks tile the row. -/
theorem sum_part (W : Model.SW.Idx → ℝ) (U : Model.SU.Idx → ℝ) (b : Fin 4) (I : Fin 4096) :
    ∑ s ∈ Finset.range 8, part W U b I s = Model.deg W U Literals.half b I := by
  have hblocks := BlockSum.sum_blocks 512 8 (fun n => if h : n < 4096 then Model.kern W U Literals.half b I ⟨n, h⟩ else 0)
  have hR : (∑ k : Fin (512 * 8), (fun n => if h : n < 4096 then Model.kern W U Literals.half b I ⟨n, h⟩ else 0) k.val)
      = Model.deg W U Literals.half b I := by
    unfold Model.deg
    exact Finset.sum_congr rfl (fun k _ => dif_pos k.isLt)
  rw [← hR, ← hblocks]
  refine Finset.sum_congr rfl (fun s hs => ?_)
  have hs8 : s < 8 := Finset.mem_range.mp hs
  unfold part
  rw [← Finset.sum_add_distrib, Finset.mul_sum]
  refine Finset.sum_congr rfl (fun j _ => ?_)
  have hj := j.isLt
  have hlt : 512 * s + j.val < 4096 := by omega
  have hrow : row s j = ⟨512 * s + j.val, hlt⟩ := Fin.ext (by show 512 * (s % 8) + j.val = _; rw [Nat.mod_eq_of_lt hs8])
  show _ = dite _ _ _
  rw [dif_pos hlt, ← hrow]
  unfold Model.kern
  rw [Model.gate_comm U (row s j) I]
  ring

/-! ## One point, over the reals -/

/-- With real entries behind the four blocks, a point adds its real contribution to the running column. -/
theorem step_real (ui uj : Vec Ideal S512x16 .f32) (wd wt : Vec Ideal S1x512x512 .f32) (s : Vec Ideal S512x1 .f32)
    (W : Model.SW.Idx → ℝ) (U : Model.SU.Idx → ℝ) (b : Fin 4) (I : Fin 4096) (n : ℕ) (p : Fin 512)
    (hui : ∀ r, ui (ix2 p r) = ((U (ix2 I r) : ℝ) : EReal))
    (huj : ∀ j r, uj (ix2 j r) = ((U (ix2 (row n j) r) : ℝ) : EReal))
    (hwd : ∀ j, wd (ix3 0 p j) = ((W (ix3 b I (row n j)) : ℝ) : EReal))
    (hwt : ∀ j, wt (ix3 0 j p) = ((W (ix3 b (row n j) I) : ℝ) : EReal)) :
    k0_pay3 (F := Ideal) ui uj wd wt s (ix2 p 0) = s (ix2 p 0) + ((part W U b I n : ℝ) : EReal) := by
  rw [degree_step]
  congr 1
  unfold part Model.gate
  simp only [hui, huj, hwd, hwt, Literals.ofBits_half, Literals.ofBits_one, mul_one]
  simp only [← EReal.coe_mul, ← RealCoe.coe_sum, Ideal.logistic_coe, ← EReal.coe_add]

/-! ## The running column over the reals -/

section Fold

variable (V : (c : Dev nD) → (b : Ref sig .tc) → Buf (Elt Ideal) ((c : Thread nD τ).loc b)) (c : Dev nD)
variable (W : Model.SW.Idx → ℝ) (U : Model.SU.Idx → ℝ)
variable (hW : V c main_arg1 = fun i : S4x4096x4096.Idx => ((W i : ℝ) : EReal))
variable (hU : V c main_arg2 = fun i : S4096x16.Idx => ((U i : ℝ) : EReal))

include hW hU in
/-- Point `t` adds to row `p` of the running column the contribution of its block column to row `I` of its batch. -/
theorem point_real (t : Fin cfg0.N) (s : Vec Ideal S512x1 .f32) (p : Fin 512) (b : Fin 4) (I : Fin 4096)
    (hb : b.val = t.val / 64) (hI : I.val = 512 * (t.val / 8 % 8) + p.val) :
    k0_pay3 (F := Ideal) (ui0 V c t) (uj0 V c t) (wd0 V c t) (wt0 V c t) s (ix2 p 0)
      = s (ix2 p 0) + ((part W U b I (t.val % 8) : ℝ) : EReal) := by
  refine step_real (ui0 V c t) (uj0 V c t) (wd0 V c t) (wt0 V c t) s W U b I (t.val % 8) p ?_ ?_ ?_ ?_
  · intro r
    rw [ui0_apply V c t p r (ix2 I r) hI rfl, hU]
  · intro j r
    rw [uj0_apply V c t j r (ix2 (row (t.val % 8) j) r) (by show 512 * (t.val % 8 % 8) + j.val = _; omega) rfl, hU]
  · intro j
    rw [wd0_apply V c t p j (ix3 b I (row (t.val % 8) j)) hb hI (by show 512 * (t.val % 8 % 8) + j.val = _; omega), hW]
  · intro j
    rw [wt0_apply V c t j p (ix3 b (row (t.val % 8) j) I) hb (by show 512 * (t.val % 8 % 8) + j.val = _; omega) hI, hW]

include hW hU in
/-- The running column after point `n`, at row `p`: the contributions of the block columns walked so far in this row of blocks. -/
theorem col0_real (p : Fin 512) : ∀ (n : ℕ) (hn : n < cfg0.N) (b : Fin 4) (I : Fin 4096),
    b.val = n / 64 → I.val = 512 * (n / 8 % 8) + p.val →
    col0 V c n (ix2 p 0) = ((∑ s ∈ Finset.range (n % 8 + 1), part W U b I s : ℝ) : EReal) := by
  have hN : cfg0.N = 256 := N_0
  intro n
  induction n with
  | zero =>
    intro hn b I hb hI
    have e : col0 V c 0 = _ := col0_first V c ⟨0, hn⟩ rfl
    rw [e, point_real V c W U hW hU ⟨0, hn⟩ _ p b I hb hI, degree_zero, zero_add]
    simp
  | succ n ih =>
    intro hn b I hb hI
    by_cases h0 : (n + 1) % 8 = 0
    · have e : col0 V c (n + 1) = _ := col0_first V c ⟨n + 1, hn⟩ h0
      rw [e, point_real V c W U hW hU ⟨n + 1, hn⟩ _ p b I hb hI, degree_zero, zero_add]
      show ((part W U b I ((n + 1) % 8) : ℝ) : EReal) = _
      rw [h0]; simp
    · have e : col0 V c (n + 1) = _ := col0_next V c ⟨n + 1, hn⟩ h0
      rw [e, point_real V c W U hW hU ⟨n + 1, hn⟩ _ p b I hb hI]
      show col0 V c n (ix2 p 0) + ((part W U b I ((n + 1) % 8) : ℝ) : EReal) = _
      rw [ih (by omega) b I (by omega) (by omega), ← EReal.coe_add,
        show (n + 1) % 8 + 1 = (n % 8 + 1) + 1 from by omega, Finset.sum_range_succ (n := n % 8 + 1),
        show (n + 1) % 8 = n % 8 + 1 from by omega]

end Fold

/-! ## From the blocks to the column -/

section Column

variable (V : (c : Dev nD) → (b : Ref sig .tc) → Buf (Elt Ideal) ((c : Thread nD τ).loc b)) (c : Dev nD)
variable (W : Model.SW.Idx → ℝ) (U : Model.SU.Idx → ℝ)
variable (hW : V c main_arg1 = fun i : S4x4096x4096.Idx => ((W i : ℝ) : EReal))
variable (hU : V c main_arg2 = fun i : S4096x16.Idx => ((U i : ℝ) : EReal))

/-- The reciprocal square root of a real clamped from below by the positive literal. -/
theorem rsqrt_clamp (d : ℝ) :
    Ideal.rsqrt (max ((d : ℝ) : EReal) (Ideal.ofBits .f32 0x2B8CBCCC#32)) = (((Real.sqrt (max d Literals.clamp))⁻¹ : ℝ) : EReal) := by
  have hpos : 0 < max d Literals.clamp := lt_of_lt_of_le Literals.clamp_pos (le_max_right _ _)
  rw [Literals.ofBits_clamp, RealCoe.coe_max, Ideal.rsqrt_coe, if_neg (not_lt.mpr hpos.le), if_neg hpos.ne']

include hW hU in
/-- The output block a closing point computes, at row `p`: the normaliser of row `I` of its batch. -/
theorem closing_entry (t : Fin cfg0.N) (h7 : t.val % 8 = 7) (p : Fin 512) (b : Fin 4) (I : Fin 4096)
    (hb : b.val = t.val / 64) (hI : I.val = 512 * (t.val / 8 % 8) + p.val) :
    k0_pay1 (F := Ideal) (col0 V c t.val) (ix3 0 p 0) = ((Model.dinv W U Literals.half Literals.clamp b I : ℝ) : EReal) := by
  rw [degree_final, col0_real V c W U hW hU p t.val t.isLt b I hb hI, h7, show (7 + 1 : ℕ) = 8 from rfl, sum_part, rsqrt_clamp]
  rfl

include hW hU in
/-- What a closing point writes back is its block of the model's column. -/
theorem flushed_column (t : Fin cfg0.N) (hf : (cfg0.win 4).flush t = true) :
    (dat0 (F := Ideal) V c).flushed 4 t
      = ((cfg0.win 4).blk t).view.read (Elt Ideal) (fun i : S4x4096x1.Idx => ((Model.dcol W U Literals.half Literals.clamp i : ℝ) : EReal)) := by
  have h7 : t.val % 8 = 7 := (flush0_4 t).mp hf
  obtain ⟨-, -, -, -, -, -, -, -, -, -, e0, e1, e2⟩ := block_index t
  show (cfg0.win 4).cut (grid0.coords t) ((dat0 V c).after 4 t) = _
  rw [after0_4]
  funext j
  have hj0 : (j 0).val < 1 := (j 0).isLt
  have hj1 : (j 1).val < 512 := (j 1).isLt
  have hj2 : (j 2).val < 1 := (j 2).isLt
  have hL : (cfg0.win 4).cut (grid0.coords t) (k0_pay1 (F := Ideal) (col0 V c t.val)) j
      = k0_pay1 (F := Ideal) (col0 V c t.val) (ix3 0 ⟨(j 1).val, hj1⟩ 0) := by
    show k0_pay1 (F := Ideal) (col0 V c t.val) ((cfg0.win 4).xinj (grid0.coords t) j) = _
    congr 1
    funext a; apply Fin.ext
    match a with
    | ⟨0, _⟩ => show (j 0).val = 0; omega
    | ⟨1, _⟩ => rfl
    | ⟨2, _⟩ => show (j 2).val = 0; omega
  rw [hL]
  have hb : ((((cfg0.win 4).blk t).view.emb j) 0).val = t.val / 64 := by
    show win0_4.index t (0 : Fin 3) * 1 + 1 * (j 0).val = _; rw [e0]; omega
  have hI : ((((cfg0.win 4).blk t).view.emb j) 1).val = 512 * (t.val / 8 % 8) + (j 1).val := by
    show win0_4.index t (1 : Fin 3) * 512 + 1 * (j 1).val = _; rw [e1]; omega
  exact closing_entry V c W U hW hU t h7 ⟨(j 1).val, hj1⟩ ((((cfg0.win 4).blk t).view.emb j) 0) ((((cfg0.win 4).blk t).view.emb j) 1) hb hI

/-- An index of the column is in point `t`'s block iff each coordinate is in the block's range on its axis. -/
theorem mem_block (t : Fin cfg0.N) (i : S4x4096x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v0).slice (win0_4.rect t)).set ↔ _
  rw [View.set_slice_whole, Rect.mem_set_unit]
  exact Iff.rfl

/-- Every entry of the column is in the block of the closing point of its batch and block row. -/
theorem column_covered (i : S4x4096x1.Idx) :
    ∃ t : Fin cfg0.N, (cfg0.win 4).flush t = true ∧ i ∈ ((cfg0.win 4).blk t).view.set := by
  have hN : cfg0.N = 256 := N_0
  have hi0 : (i 0).val < 4 := (i 0).isLt
  have hi1 : (i 1).val < 4096 := (i 1).isLt
  have hi2 : (i 2).val < 1 := (i 2).isLt
  refine ⟨⟨64 * (i 0).val + 8 * ((i 1).val / 512) + 7, by omega⟩, (flush0_4 _).mpr (by show (64 * (i 0).val + 8 * ((i 1).val / 512) + 7) % 8 = 7; omega), ?_⟩
  obtain ⟨-, -, -, -, -, -, -, -, -, -, e0, e1, e2⟩ := block_index ⟨64 * (i 0).val + 8 * ((i 1).val / 512) + 7, by omega⟩
  rw [mem_block]
  intro a
  match a with
  | ⟨0, _⟩ =>
    show win0_4.index _ (0 : Fin 3) * 1 ≤ (i 0).val ∧ (i 0).val < win0_4.index _ (0 : Fin 3) * 1 + 1
    rw [e0]; show (64 * (i 0).val + 8 * ((i 1).val / 512) + 7) / 64 * 1 ≤ _ ∧ _ < (64 * (i 0).val + 8 * ((i 1).val / 512) + 7) / 64 * 1 + 1; omega
  | ⟨1, _⟩ =>
    show win0_4.index _ (1 : Fin 3) * 512 ≤ (i 1).val ∧ (i 1).val < win0_4.index _ (1 : Fin 3) * 512 + 512
    rw [e1]; show (64 * (i 0).val + 8 * ((i 1).val / 512) + 7) / 8 % 8 * 512 ≤ _ ∧ _ < (64 * (i 0).val + 8 * ((i 1).val / 512) + 7) / 8 % 8 * 512 + 512; omega
  | ⟨2, _⟩ =>
    show win0_4.index _ (2 : Fin 3) * 1 ≤ (i 2).val ∧ (i 2).val < win0_4.index _ (2 : Fin 3) * 1 + 1
    rw [e2]; omega

end Column

/-- With real W and U behind the region's arrays, the degree column it leaves is the model's column of normalisers. -/
theorem degree_column (V : (c : Dev nD) → (b : Ref sig .tc) → Buf (Elt Ideal) ((c : Thread nD τ).loc b)) (c : Dev nD)
    (W : Model.SW.Idx → ℝ) (U : Model.SU.Idx → ℝ)
    (hW : V c main_arg1 = fun i : S4x4096x4096.Idx => ((W i : ℝ) : EReal))
    (hU : V c main_arg2 = fun i : S4096x16.Idx => ((U i : ℝ) : EReal)) :
    (dat0 (F := Ideal) V c).arrAt 4 cfg0.N
      = fun i : S4x4096x1.Idx => ((Model.dcol W U Literals.half Literals.clamp i : ℝ) : EReal) :=
  (dat0 (F := Ideal) V c).arrAt_eq_of_cover 4 _ (fun t hf => flushed_column V c W U hW hU t hf) column_covered

end Cert.KernelIdeal.Hand

end
-- ==== Proof.Ideal.CouplingValue.lean ====
/-
  The coupled array the coupling region leaves, over the reals.

  Entry (b, I, c) is written back once, by the last of the eight points of (b, bi), bi the block row of I. The running
  block those points build is the sum of their contributions; over the reals the half sums regroup into one sum over all
  J of the gated symmetrised entry times both normalisers times x, because the gate is symmetric and the blocks tile the row.
-/
import proofs.«162411_j3959959847448_1_alg».proof.Proof.Ideal.CouplingData
import proofs.«162411_j3959959847448_1_alg».proof.Proof.Ideal.PointValue
import proofs.«162411_j3959959847448_1_alg».proof.Proof.Model
import proofs.«162411_j3959959847448_1_alg».proof.Proof.Literals
import proofs.«162411_j3959959847448_1_alg».proof.Proof.RealCoe
import proofs.«162411_j3959959847448_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

namespace CouplingValue

/-- The block indices of the eight windows at point t, in closed form. -/
theorem idx1_0 : ∀ t : Fin cfg1.N, win1_0.index t (0 : Fin 3) = t.val / 64 ∧ win1_0.index t (1 : Fin 3) = t.val / 8 % 8 ∧ win1_0.index t (2 : Fin 3) = t.val % 8 :=
  (by decide +kernel : ∀ t : Fin grid1.N, _)
theorem idx1_1 : ∀ t : Fin cfg1.N, win1_1.index t (0 : Fin 3) = t.val / 64 ∧ win1_1.index t (1 : Fin 3) = t.val % 8 ∧ win1_1.index t (2 : Fin 3) = t.val / 8 % 8 :=
  (by decide +kernel : ∀ t : Fin grid1.N, _)
theorem idx1_2 : ∀ t : Fin cfg1.N, win1_2.index t (0 : Fin 2) = t.val / 8 % 8 ∧ win1_2.index t (1 : Fin 2) = 0 :=
  (by decide +kernel : ∀ t : Fin grid1.N, _)
theorem idx1_3 : ∀ t : Fin cfg1.N, win1_3.index t (0 : Fin 2) = t.val % 8 ∧ win1_3.index t (1 : Fin 2) = 0 :=
  (by decide +kernel : ∀ t : Fin grid1.N, _)
theorem idx1_4 : ∀ t : Fin cfg1.N, win1_4.index t (0 : Fin 3) = t.val / 64 ∧ win1_4.index t (1 : Fin 3) = t.val % 8 ∧ win1_4.index t (2 : Fin 3) = 0 :=
  (by decide +kernel : ∀ t : Fin grid1.N, _)
theorem idx1_5 : ∀ t : Fin cfg1.N, win1_5.index t (0 : Fin 3) = t.val / 64 ∧ win1_5.index t (1 : Fin 3) = t.val / 8 % 8 ∧ win1_5.index t (2 : Fin 3) = 0 :=
  (by decide +kernel : ∀ t : Fin grid1.N, _)
theorem idx1_6 : ∀ t : Fin cfg1.N, win1_6.index t (0 : Fin 3) = t.val / 64 ∧ win1_6.index t (1 : Fin 3) = t.val % 8 ∧ win1_6.index t (2 : Fin 3) = 0 :=
  (by decide +kernel : ∀ t : Fin grid1.N, _)
theorem idx1_7 : ∀ t : Fin cfg1.N, win1_7.index t (0 : Fin 3) = t.val / 64 ∧ win1_7.index t (1 : Fin 3) = t.val / 8 % 8 ∧ win1_7.index t (2 : Fin 3) = 0 :=
  (by decide +kernel : ∀ t : Fin grid1.N, _)

/-- The column with number n (numbers wrap; only n < 4096 is used). -/
def colN (n : ℕ) : Fin 4096 := ⟨n % 4096, Nat.mod_lt _ (by decide)⟩

theorem colN_val (k : Fin 4096) : colN k.val = k := Fin.ext (Nat.mod_eq_of_lt k.isLt)

/-- Over the reals: the row normaliser times the eight half sums over the column blocks is the coupling. The two half
    sums of a block join by the gate's symmetry, and the eight blocks tile the 4096 columns. -/
theorem regroup (W : Model.SW.Idx → ℝ) (U : Model.SU.Idx → ℝ) (x : Model.SX.Idx → ℝ) (d : Model.SD.Idx → ℝ) (h : ℝ)
    (b : Fin 4) (I : Fin 4096) (q : Fin 64) :
    d (ix3 b I 0) * ∑ s ∈ Finset.range 8, h *
        ((∑ j : Fin 512, (W (ix3 b I (colN (512 * s + j.val))) * Model.gate U I (colN (512 * s + j.val)))
            * (d (ix3 b (colN (512 * s + j.val)) 0) * x (ix3 b (colN (512 * s + j.val)) q)))
          + ∑ j : Fin 512, (W (ix3 b (colN (512 * s + j.val)) I) * Model.gate U (colN (512 * s + j.val)) I)
            * (d (ix3 b (colN (512 * s + j.val)) 0) * x (ix3 b (colN (512 * s + j.val)) q)))
      = Model.coupleWith W U x h d b I q := by
  let f : ℕ → ℝ := fun n => ((Model.kern W U h b I (colN n) * d (ix3 b I 0)) * d (ix3 b (colN n) 0)) * x (ix3 b (colN n) q)
  have hs : ∀ s : ℕ, d (ix3 b I 0) * (h *
        ((∑ j : Fin 512, (W (ix3 b I (colN (512 * s + j.val))) * Model.gate U I (colN (512 * s + j.val)))
            * (d (ix3 b (colN (512 * s + j.val)) 0) * x (ix3 b (colN (512 * s + j.val)) q)))
          + ∑ j : Fin 512, (W (ix3 b (colN (512 * s + j.val)) I) * Model.gate U (colN (512 * s + j.val)) I)
            * (d (ix3 b (colN (512 * s + j.val)) 0) * x (ix3 b (colN (512 * s + j.val)) q))))
      = ∑ j : Fin 512, f (512 * s + j.val) := by
    intro s
    rw [← Finset.sum_add_distrib, Finset.mul_sum, Finset.mul_sum]
    refine Finset.sum_congr rfl fun j _ => ?_
    show _ = ((Model.kern W U h b I (colN (512 * s + j.val)) * d (ix3 b I 0)) * d (ix3 b (colN (512 * s + j.val)) 0)) * x (ix3 b (colN (512 * s + j.val)) q)
    unfold Model.kern
    rw [Model.gate_comm U (colN (512 * s + j.val)) I]
    ring
  rw [Finset.mul_sum, Finset.sum_congr rfl fun s _ => hs s, BlockSum.sum_blocks 512 8 f]
  show ∑ k : Fin 4096, f k.val = _
  unfold Model.coupleWith
  refine Finset.sum_congr rfl fun k _ => ?_
  show ((Model.kern W U h b I (colN k.val) * d (ix3 b I 0)) * d (ix3 b (colN k.val) 0)) * x (ix3 b (colN k.val) q) = _
  rw [colN_val]

variable (V : (c : Dev nD) → (b : Ref sig .tc) → Buf (Elt Ideal) ((c : Thread nD τ).loc b))

/-! ## Each window's block read at an index -/

/-- W's direct block. -/
theorem wd_read (c : Dev nD) (t : Fin cfg1.N) (p j : Fin 512) (k : S4x4096x4096.Idx)
    (h0 : (k 0).val = t.val / 64) (h1 : (k 1).val = 512 * (t.val / 8 % 8) + p.val) (h2 : (k 2).val = 512 * (t.val % 8) + j.val) :
    wd1 V c t (ix3 0 p j) = V c main_arg1 k := by
  obtain ⟨e0, e1, e2⟩ := idx1_0 t
  unfold wd1 iblk1
  rw [View.read_apply]
  show V c main_arg1 _ = V c main_arg1 _
  congr 1
  funext a
  apply Fin.ext
  match a with
  | ⟨0, _⟩ => show win1_0.index t (0 : Fin 3) * 1 + 1 * (0 : Fin 1).val = (k 0).val; rw [e0, h0]; simp
  | ⟨1, _⟩ => show win1_0.index t (1 : Fin 3) * 512 + 1 * p.val = (k 1).val; rw [e1, h1]; omega
  | ⟨2, _⟩ => show win1_0.index t (2 : Fin 3) * 512 + 1 * j.val = (k 2).val; rw [e2, h2]; omega

/-- W's transposed-source block. -/
theorem wt_read (c : Dev nD) (t : Fin cfg1.N) (p j : Fin 512) (k : S4x4096x4096.Idx)
    (h0 : (k 0).val = t.val / 64) (h1 : (k 1).val = 512 * (t.val % 8) + j.val) (h2 : (k 2).val = 512 * (t.val / 8 % 8) + p.val) :
    wt1 V c t (ix3 0 j p) = V c main_arg1 k := by
  obtain ⟨e0, e1, e2⟩ := idx1_1 t
  unfold wt1 iblk1
  rw [View.read_apply]
  show V c main_arg1 _ = V c main_arg1 _
  congr 1
  funext a
  apply Fin.ext
  match a with
  | ⟨0, _⟩ => show win1_1.index t (0 : Fin 3) * 1 + 1 * (0 : Fin 1).val = (k 0).val; rw [e0, h0]; simp
  | ⟨1, _⟩ => show win1_1.index t (1 : Fin 3) * 512 + 1 * j.val = (k 1).val; rw [e1, h1]; omega
  | ⟨2, _⟩ => show win1_1.index t (2 : Fin 3) * 512 + 1 * p.val = (k 2).val; rw [e2, h2]; omega

/-- U's rows of block bi. -/
theorem ui_read (c : Dev nD) (t : Fin cfg1.N) (p : Fin 512) (r : Fin 16) (k : S4096x16.Idx)
    (h0 : (k 0).val = 512 * (t.val / 8 % 8) + p.val) (h1 : (k 1).val = r.val) :
    ui1 V c t (ix2 p r) = V c main_arg2 k := by
  obtain ⟨e0, e1⟩ := idx1_2 t
  unfold ui1 iblk1
  rw [View.read_apply]
  show V c main_arg2 _ = V c main_arg2 _
  congr 1
  funext a
  apply Fin.ext
  match a with
  | ⟨0, _⟩ => show win1_2.index t (0 : Fin 2) * 512 + 1 * p.val = (k 0).val; rw [e0, h0]; omega
  | ⟨1, _⟩ => show win1_2.index t (1 : Fin 2) * 16 + 1 * r.val = (k 1).val; rw [e1, h1]; omega

/-- U's rows of block bj. -/
theorem uj_read (c : Dev nD) (t : Fin cfg1.N) (j : Fin 512) (r : Fin 16) (k : S4096x16.Idx)
    (h0 : (k 0).val = 512 * (t.val % 8) + j.val) (h1 : (k 1).val = r.val) :
    uj1 V c t (ix2 j r) = V c main_arg2 k := by
  obtain ⟨e0, e1⟩ := idx1_3 t
  unfold uj1 iblk1
  rw [View.read_apply]
  show V c main_arg2 _ = V c main_arg2 _
  congr 1
  funext a
  apply Fin.ext
  match a with
  | ⟨0, _⟩ => show win1_3.index t (0 : Fin 2) * 512 + 1 * j.val = (k 0).val; rw [e0, h0]; omega
  | ⟨1, _⟩ => show win1_3.index t (1 : Fin 2) * 16 + 1 * r.val = (k 1).val; rw [e1, h1]; omega

/-- x's block bj. -/
theorem xj_read (c : Dev nD) (t : Fin cfg1.N) (j : Fin 512) (q : Fin 64) (k : S4x4096x64.Idx)
    (h0 : (k 0).val = t.val / 64) (h1 : (k 1).val = 512 * (t.val % 8) + j.val) (h2 : (k 2).val = q.val) :
    xj1 V c t (ix3 0 j q) = V c main_arg0 k := by
  obtain ⟨e0, e1, e2⟩ := idx1_4 t
  unfold xj1 iblk1
  rw [View.read_apply]
  show V c main_arg0 _ = V c main_arg0 _
  congr 1
  funext a
  apply Fin.ext
  match a with
  | ⟨0, _⟩ => show win1_4.index t (0 : Fin 3) * 1 + 1 * (0 : Fin 1).val = (k 0).val; rw [e0, h0]; simp
  | ⟨1, _⟩ => show win1_4.index t (1 : Fin 3) * 512 + 1 * j.val = (k 1).val; rw [e1, h1]; omega
  | ⟨2, _⟩ => show win1_4.index t (2 : Fin 3) * 64 + 1 * q.val = (k 2).val; rw [e2, h2]; omega

/-- The column's block bi. -/
theorem di_read (c : Dev nD) (t : Fin cfg1.N) (p : Fin 512) (k : S4x4096x1.Idx)
    (h0 : (k 0).val = t.val / 64) (h1 : (k 1).val = 512 * (t.val / 8 % 8) + p.val) :
    di1 V c t (ix3 0 p 0) = V c main_v0 k := by
  obtain ⟨e0, e1, e2⟩ := idx1_5 t
  unfold di1 iblk1
  rw [View.read_apply]
  show V c main_v0 _ = V c main_v0 _
  congr 1
  funext a
  apply Fin.ext
  match a with
  | ⟨0, _⟩ => show win1_5.index t (0 : Fin 3) * 1 + 1 * (0 : Fin 1).val = (k 0).val; rw [e0, h0]; simp
  | ⟨1, _⟩ => show win1_5.index t (1 : Fin 3) * 512 + 1 * p.val = (k 1).val; rw [e1, h1]; omega
  | ⟨2, _⟩ => show win1_5.index t (2 : Fin 3) * 1 + 1 * (0 : Fin 1).val = (k 2).val; rw [e2]; have h : (k 2).val < 1 := (k 2).isLt; simp; omega

/-- The column's block bj. -/
theorem dj_read (c : Dev nD) (t : Fin cfg1.N) (j : Fin 512) (k : S4x4096x1.Idx)
    (h0 : (k 0).val = t.val / 64) (h1 : (k 1).val = 512 * (t.val % 8) + j.val) :
    dj1 V c t (ix3 0 j 0) = V c main_v0 k := by
  obtain ⟨e0, e1, e2⟩ := idx1_6 t
  unfold dj1 iblk1
  rw [View.read_apply]
  show V c main_v0 _ = V c main_v0 _
  congr 1
  funext a
  apply Fin.ext
  match a with
  | ⟨0, _⟩ => show win1_6.index t (0 : Fin 3) * 1 + 1 * (0 : Fin 1).val = (k 0).val; rw [e0, h0]; simp
  | ⟨1, _⟩ => show win1_6.index t (1 : Fin 3) * 512 + 1 * j.val = (k 1).val; rw [e1, h1]; omega
  | ⟨2, _⟩ => show win1_6.index t (2 : Fin 3) * 1 + 1 * (0 : Fin 1).val = (k 2).val; rw [e2]; have h : (k 2).val < 1 := (k 2).isLt; simp; omega

/-! ## The running block as a sum -/

/-- Point n's contribution to the running block. -/
def contrib (c : Dev nD) (n : ℕ) : FVec Ideal S512x64 .f32 :=
  k1_pay4 (F := Ideal) (ui1 V c (pt1 n)) (uj1 V c (pt1 n)) (wd1 V c (pt1 n)) (wt1 V c (pt1 n)) (dj1 V c (pt1 n)) (xj1 V c (pt1 n))

theorem acc1_zero (c : Dev nD) : acc1 V c 0 = k1_pay1 (contrib V c 0) (k1_pay3 (F := Ideal)) := by
  unfold contrib; conv_lhs => unfold acc1

theorem acc1_succ (c : Dev nD) (n : ℕ) :
    acc1 V c (n + 1) = k1_pay1 (contrib V c (n + 1)) (if (n + 1) % 8 = 0 then k1_pay3 (F := Ideal) else acc1 V c n) := by
  unfold contrib; conv_lhs => unfold acc1

/-- The running block after the point with block column k of a row of blocks is the sum of the contributions so far. -/
theorem acc1_sum (c : Dev nD) (m : ℕ) (i : S512x64.Idx) : ∀ k : ℕ, k < 8 →
    acc1 V c (8 * m + k) i = ∑ s ∈ Finset.range (k + 1), contrib V c (8 * m + s) i := by
  intro k
  induction k with
  | zero =>
    intro _
    rw [Finset.sum_range_one]
    cases m with
    | zero =>
      show acc1 V c 0 i = contrib V c 0 i
      rw [acc1_zero, coupling_add, coupling_zero, zero_add]
    | succ m =>
      have e : 8 * (m + 1) + 0 = (8 * m + 7) + 1 := by omega
      rw [e, acc1_succ, if_pos (by omega), coupling_add, coupling_zero, zero_add]
  | succ k ih =>
    intro hk
    have e : 8 * m + (k + 1) = (8 * m + k) + 1 := by omega
    rw [Finset.sum_range_succ, ← ih (by omega), e, acc1_succ, if_neg (by omega), coupling_add]

/-- What a point with block column 7 writes back, at (p, q). -/
theorem flush_value (c : Dev nD) (t : Fin cfg1.N) (ht : t.val % 8 = 7) (p : Fin 512) (q : Fin 64) :
    k1_pay2 (F := Ideal) (di1 V c t) (acc1 V c t.val) (ix3 0 p q)
      = di1 V c t (ix3 0 p 0) * ∑ s ∈ Finset.range 8, contrib V c (8 * (t.val / 8) + s) (ix2 p q) := by
  have e : t.val = 8 * (t.val / 8) + 7 := by omega
  rw [coupling_final, show acc1 V c t.val = acc1 V c (8 * (t.val / 8) + 7) from congrArg _ e,
    acc1_sum V c (t.val / 8) (ix2 p q) 7 (by omega)]

theorem pt1_val_of_lt (n : ℕ) (h : n < 256) : (pt1 n).val = n := by
  show n % cfg1.N = n
  rw [show cfg1.N = 256 from N_1]; exact Nat.mod_eq_of_lt h

/-! ## Over the reals -/

/-- A point's contribution over the reals: point 8 m + s of row I = 512 (m mod 8) + p of batch m / 8 against the columns of block s. -/
theorem contrib_real (c : Dev nD)
    (W : Model.SW.Idx → ℝ) (U : Model.SU.Idx → ℝ) (x : Model.SX.Idx → ℝ) (d : Model.SD.Idx → ℝ)
    (hW : V c main_arg1 = fun i : S4x4096x4096.Idx => ((W i : ℝ) : EReal))
    (hU : V c main_arg2 = fun i : S4096x16.Idx => ((U i : ℝ) : EReal))
    (hx : V c main_arg0 = fun i : S4x4096x64.Idx => ((x i : ℝ) : EReal))
    (hd : V c main_v0 = fun i : S4x4096x1.Idx => ((d i : ℝ) : EReal))
    (m s : ℕ) (hm : m < 32) (hs : s < 8) (p : Fin 512) (q : Fin 64) (b : Fin 4) (I : Fin 4096)
    (hb : b.val = m / 8) (hI : I.val = 512 * (m % 8) + p.val) :
    contrib V c (8 * m + s) (ix2 p q)
      = ((Literals.half *
        ((∑ j : Fin 512, (W (ix3 b I (colN (512 * s + j.val))) * Model.gate U I (colN (512 * s + j.val)))
            * (d (ix3 b (colN (512 * s + j.val)) 0) * x (ix3 b (colN (512 * s + j.val)) q)))
          + ∑ j : Fin 512, (W (ix3 b (colN (512 * s + j.val)) I) * Model.gate U (colN (512 * s + j.val)) I)
            * (d (ix3 b (colN (512 * s + j.val)) 0) * x (ix3 b (colN (512 * s + j.val)) q))) : ℝ) : EReal) := by
  have hv : (pt1 (8 * m + s)).val = 8 * m + s := pt1_val_of_lt _ (by omega)
  unfold contrib
  generalize pt1 (8 * m + s) = t at hv
  have hcol : ∀ j : Fin 512, (colN (512 * s + j.val)).val = 512 * s + j.val := fun j => by
    show (512 * s + j.val) % 4096 = _; omega
  have hwd : ∀ j : Fin 512, wd1 V c t (ix3 0 p j) = ((W (ix3 b I (colN (512 * s + j.val))) : ℝ) : EReal) := fun j =>
    (wd_read V c t p j (ix3 b I (colN (512 * s + j.val))) (by show b.val = _; omega) (by show I.val = _; omega)
      (by show (colN (512 * s + j.val)).val = _; rw [hcol]; omega)).trans (congrFun hW _)
  have hwt : ∀ j : Fin 512, wt1 V c t (ix3 0 j p) = ((W (ix3 b (colN (512 * s + j.val)) I) : ℝ) : EReal) := fun j =>
    (wt_read V c t p j (ix3 b (colN (512 * s + j.val)) I) (by show b.val = _; omega)
      (by show (colN (512 * s + j.val)).val = _; rw [hcol]; omega) (by show I.val = _; omega)).trans (congrFun hW _)
  have hui : ∀ r : Fin 16, ui1 V c t (ix2 p r) = ((U (ix2 I r) : ℝ) : EReal) := fun r =>
    (ui_read V c t p r (ix2 I r) (by show I.val = _; omega) rfl).trans (congrFun hU _)
  have huj : ∀ (j : Fin 512) (r : Fin 16), uj1 V c t (ix2 j r) = ((U (ix2 (colN (512 * s + j.val)) r) : ℝ) : EReal) := fun j r =>
    (uj_read V c t j r (ix2 (colN (512 * s + j.val)) r) (by show (colN (512 * s + j.val)).val = _; rw [hcol]; omega) rfl).trans (congrFun hU _)
  have hxj : ∀ j : Fin 512, xj1 V c t (ix3 0 j q) = ((x (ix3 b (colN (512 * s + j.val)) q) : ℝ) : EReal) := fun j =>
    (xj_read V c t j q (ix3 b (colN (512 * s + j.val)) q) (by show b.val = _; omega)
      (by show (colN (512 * s + j.val)).val = _; rw [hcol]; omega) rfl).trans (congrFun hx _)
  have hdj : ∀ j : Fin 512, dj1 V c t (ix3 0 j 0) = ((d (ix3 b (colN (512 * s + j.val)) 0) : ℝ) : EReal) := fun j =>
    (dj_read V c t j (ix3 b (colN (512 * s + j.val)) 0) (by show b.val = _; omega)
      (by show (colN (512 * s + j.val)).val = _; rw [hcol]; omega)).trans (congrFun hd _)
  refine (coupling_step (ui1 V c t) (uj1 V c t) (wd1 V c t) (wt1 V c t) (dj1 V c t) (xj1 V c t) p q).trans ?_
  simp only [hwd, hwt, hui, huj, hxj, hdj]
  simp only [← EReal.coe_mul, ← RealCoe.coe_sum, Ideal.logistic_coe, ← EReal.coe_add, Literals.ofBits_half]
  rfl

/-! ## From blocks to the array -/

/-- An index of the coupled array is in point t's block iff each coordinate is in the block's range on its axis. -/
theorem mem_blk7 (t : Fin cfg1.N) (i : S4x4096x64.Idx) :
    i ∈ ((cfg1.win 7).blk t).view.set ↔ ∀ a : Fin 3, win1_7.index t a * S1x512x64.size a ≤ (i a).val ∧ (i a).val < win1_7.index t a * S1x512x64.size a + S1x512x64.size a := by
  show i ∈ ((View.whole main_v1).slice (win1_7.rect t)).set ↔ _
  rw [View.set_slice_whole, Rect.mem_set_unit]
  exact Iff.rfl

/-- Row I of batch b is written back by the last point of its row of blocks. -/
theorem cover7 (i : S4x4096x64.Idx) : ∃ t : Fin cfg1.N, (cfg1.win 7).flush t = true ∧ i ∈ ((cfg1.win 7).blk t).view.set := by
  have h0 : (i 0).val < 4 := (i 0).isLt
  have h1 : (i 1).val < 4096 := (i 1).isLt
  have h2 : (i 2).val < 64 := (i 2).isLt
  have hN : cfg1.N = 256 := N_1
  have hlt : 64 * (i 0).val + 8 * ((i 1).val / 512) + 7 < cfg1.N := by rw [hN]; omega
  refine ⟨⟨64 * (i 0).val + 8 * ((i 1).val / 512) + 7, hlt⟩, (flush1_7 _).mpr (by show (64 * (i 0).val + 8 * ((i 1).val / 512) + 7) % 8 = 7; omega), ?_⟩
  obtain ⟨e0, e1, e2⟩ := idx1_7 ⟨64 * (i 0).val + 8 * ((i 1).val / 512) + 7, hlt⟩
  have tv : (⟨64 * (i 0).val + 8 * ((i 1).val / 512) + 7, hlt⟩ : Fin cfg1.N).val = 64 * (i 0).val + 8 * ((i 1).val / 512) + 7 := rfl
  rw [tv] at e0 e1
  rw [mem_blk7]
  intro a
  match a with
  | ⟨0, _⟩ => show win1_7.index _ (0 : Fin 3) * 1 ≤ (i 0).val ∧ (i 0).val < win1_7.index _ (0 : Fin 3) * 1 + 1; rw [e0]; omega
  | ⟨1, _⟩ => show win1_7.index _ (1 : Fin 3) * 512 ≤ (i 1).val ∧ (i 1).val < win1_7.index _ (1 : Fin 3) * 512 + 512; rw [e1]; omega
  | ⟨2, _⟩ => show win1_7.index _ (2 : Fin 3) * 64 ≤ (i 2).val ∧ (i 2).val < win1_7.index _ (2 : Fin 3) * 64 + 64; rw [e2]; omega

/-- What a point writes back is its block of the model's coupling. -/
theorem flushed7_eq (c : Dev nD)
    (W : Model.SW.Idx → ℝ) (U : Model.SU.Idx → ℝ) (x : Model.SX.Idx → ℝ) (d : Model.SD.Idx → ℝ)
    (hW : V c main_arg1 = fun i : S4x4096x4096.Idx => ((W i : ℝ) : EReal))
    (hU : V c main_arg2 = fun i : S4096x16.Idx => ((U i : ℝ) : EReal))
    (hx : V c main_arg0 = fun i : S4x4096x64.Idx => ((x i : ℝ) : EReal))
    (hd : V c main_v0 = fun i : S4x4096x1.Idx => ((d i : ℝ) : EReal))
    (t : Fin cfg1.N) (hf : (cfg1.win 7).flush t = true) :
    (dat1 (F := Ideal) V c).flushed 7 t = ((cfg1.win 7).blk t).view.read (Elt Ideal)
      (fun i : S4x4096x64.Idx => ((Model.coupleWith W U x Literals.half d (i 0) (i 1) (i 2) : ℝ) : EReal)) := by
  have ht : t.val % 8 = 7 := (flush1_7 t).mp hf
  have htl : t.val < 256 := lt_of_lt_of_eq t.isLt N_1
  show (cfg1.win 7).cut (grid1.coords t) ((dat1 (F := Ideal) V c).after 7 t) = _
  rw [after1_7]
  funext j
  rw [View.read_apply]
  obtain ⟨e0, e1, e2⟩ := idx1_7 t
  have hj0 : (j 0).val < 1 := (j 0).isLt
  have hj1 : (j 1).val < 512 := (j 1).isLt
  have hj2 : (j 2).val < 64 := (j 2).isLt
  have hxi : (cfg1.win 7).xinj (grid1.coords t) j = ix3 (0 : Fin 1) (⟨(j 1).val, hj1⟩ : Fin 512) (⟨(j 2).val, hj2⟩ : Fin 64) := by
    funext a
    apply Fin.ext
    match a with
    | ⟨0, _⟩ => show (j 0).val = 0; omega
    | ⟨1, _⟩ => rfl
    | ⟨2, _⟩ => rfl
  have hemb : ∃ (b : Fin 4) (I : Fin 4096), ((cfg1.win 7).blk t).view.emb j = ix3 b I (⟨(j 2).val, hj2⟩ : Fin 64)
      ∧ b.val = t.val / 8 / 8 ∧ I.val = 512 * (t.val / 8 % 8) + (j 1).val := by
    refine ⟨⟨t.val / 8 / 8, by omega⟩, ⟨512 * (t.val / 8 % 8) + (j 1).val, by omega⟩, ?_, rfl, rfl⟩
    funext a
    apply Fin.ext
    match a with
    | ⟨0, _⟩ => show win1_7.index t (0 : Fin 3) * 1 + 1 * (j 0).val = t.val / 8 / 8; rw [e0]; omega
    | ⟨1, _⟩ => show win1_7.index t (1 : Fin 3) * 512 + 1 * (j 1).val = 512 * (t.val / 8 % 8) + (j 1).val; rw [e1]; omega
    | ⟨2, _⟩ => show win1_7.index t (2 : Fin 3) * 64 + 1 * (j 2).val = (j 2).val; rw [e2]; omega
  obtain ⟨b, I, hk, hb, hI⟩ := hemb
  rw [hk]
  show k1_pay2 (F := Ideal) (di1 V c t) (acc1 V c t.val) ((cfg1.win 7).xinj (grid1.coords t) j)
    = ((Model.coupleWith W U x Literals.half d b I ⟨(j 2).val, hj2⟩ : ℝ) : EReal)
  rw [hxi]
  have hI' : I.val = 512 * (t.val / 8 % 8) + (⟨(j 1).val, hj1⟩ : Fin 512).val := hI
  generalize (⟨(j 1).val, hj1⟩ : Fin 512) = p at hI'
  generalize (⟨(j 2).val, hj2⟩ : Fin 64) = q
  rw [flush_value V c t ht p q,
    (di_read V c t p (ix3 b I 0) (by show b.val = _; omega) hI').trans (congrFun hd _),
    Finset.sum_congr rfl fun s hs => contrib_real V c W U x d hW hU hx hd (t.val / 8) s (by omega) (Finset.mem_range.mp hs)
      p q b I hb hI',
    ← RealCoe.coe_sum, ← EReal.coe_mul, regroup]

end CouplingValue

/-- With real W, U, x and a real column d behind the region's arrays, the array it leaves is the model's coupling over d. -/
theorem coupled_array (V : (c : Dev nD) → (b : Ref sig .tc) → Buf (Elt Ideal) ((c : Thread nD τ).loc b)) (c : Dev nD)
    (W : Model.SW.Idx → ℝ) (U : Model.SU.Idx → ℝ) (x : Model.SX.Idx → ℝ) (d : Model.SD.Idx → ℝ)
    (hW : V c main_arg1 = fun i : S4x4096x4096.Idx => ((W i : ℝ) : EReal))
    (hU : V c main_arg2 = fun i : S4096x16.Idx => ((U i : ℝ) : EReal))
    (hx : V c main_arg0 = fun i : S4x4096x64.Idx => ((x i : ℝ) : EReal))
    (hd : V c main_v0 = fun i : S4x4096x1.Idx => ((d i : ℝ) : EReal)) :
    (dat1 (F := Ideal) V c).arrAt 7 cfg1.N
      = fun i : S4x4096x64.Idx => ((Model.coupleWith W U x Literals.half d (i 0) (i 1) (i 2) : ℝ) : EReal) := by
  exact (dat1 (F := Ideal) V c).arrAt_eq_of_cover 7 _
    (fun t hf => CouplingValue.flushed7_eq V c W U x d hW hU hx hd t hf) CouplingValue.cover7

end Cert.KernelIdeal.Hand

end
-- ==== Proof.RefValue.lean ====
/-
  The reference's result, entry by entry, over the reals.

  The reference symmetrises W, gates it by the logistic function of U's row products, sums each row into a degree, clamps
  and takes the reciprocal square root, scales the gated matrix by the normalisers of its row and its column, multiplies by
  x along the column index, and scales by w_scale: with real inputs that is the model's result, operation by operation.
-/
import proofs.«162411_j3959959847448_1_alg».proof.Proof.Gen.ReferenceIdeal.Read
import proofs.«162411_j3959959847448_1_alg».proof.Proof.Model
import proofs.«162411_j3959959847448_1_alg».proof.Proof.Literals
import proofs.«162411_j3959959847448_1_alg».proof.Proof.RealCoe
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- The inner product of two rows of U. -/
theorem v5_at (U : Model.SU.Idx → ℝ) (I J : Fin 4096) :
    val_main_v5 (F := Ideal) (fun i : S4096x16.Idx => ((U i : ℝ) : EReal)) (ix2 I J)
      = ((∑ r : Fin 16, U (ix2 I r) * U (ix2 J r) : ℝ) : EReal) := by
  rw [val_main_v5_apply, RealCoe.coe_sum]
  refine Finset.sum_congr rfl fun k _ => ?_
  have e1 : lidx_main_v5 (ix2 I J) k = ix2 I k :=
    funext fun a => Fin.ext (by match a with | ⟨0, _⟩ => rfl | ⟨1, _⟩ => rfl)
  have e2 : idx_main_v4 (ridx_main_v5 (ix2 I J) k) = ix2 J k :=
    funext fun a => Fin.ext (by match a with | ⟨0, _⟩ => rfl | ⟨1, _⟩ => rfl)
  rw [val_main_v4_apply, e1, e2, EReal.coe_mul]

/-- The gate: one over one plus the exponential of the negated inner product is the logistic function of it. -/
theorem v11_at (U : Model.SU.Idx → ℝ) (I J : Fin 4096) :
    val_main_v11 (F := Ideal) (fun i : S4096x16.Idx => ((U i : ℝ) : EReal)) (ix2 I J)
      = ((Model.gate U I J : ℝ) : EReal) := by
  rw [val_main_v11_apply, val_main_v10_apply, val_main_cst_1_apply, val_main_v9_apply, val_main_v8_apply,
    val_main_cst_0_apply, val_main_v7_apply, val_main_v6_apply, v5_at]
  simp only [Ideal.hostDivf_def, Ideal.addf_def, Ideal.hostUnary_exp_def, Ideal.hostNegf_def, Ideal.negf_def,
    Ideal.ofBits_def, Literals.ofBits_one]
  exact Ideal.logistic_coe _

/-- An entry of the gated, symmetrised matrix. -/
theorem v14_at (W : Model.SW.Idx → ℝ) (U : Model.SU.Idx → ℝ) (b : Fin 4) (I J : Fin 4096) :
    val_main_v14 (F := Ideal) (fun i : S4x4096x4096.Idx => ((W i : ℝ) : EReal))
        (fun i : S4096x16.Idx => ((U i : ℝ) : EReal)) (ix3 b I J)
      = ((Model.kern W U Literals.half b I J : ℝ) : EReal) := by
  have e0 : idx_main_v0 (ix3 b I J) = ix3 b J I :=
    funext fun a => Fin.ext (by match a with | ⟨0, _⟩ => rfl | ⟨1, _⟩ => rfl | ⟨2, _⟩ => rfl)
  have e1 : idx_main_v12 (idx_main_v13 (ix3 b I J)) = ix2 I J :=
    funext fun a => Fin.ext (by match a with | ⟨0, _⟩ => rfl | ⟨1, _⟩ => rfl)
  rw [val_main_v14_apply, val_main_v3_apply, val_main_v2_apply, val_main_cst_apply, val_main_v1_apply,
    val_main_v0_apply, val_main_v13_apply, val_main_v12_apply, e0, e1, v11_at]
  simp only [Ideal.mulf_def, Ideal.addf_def, Ideal.ofBits_def, Literals.ofBits_half]
  unfold Model.kern
  rw [EReal.coe_mul, EReal.coe_mul, EReal.coe_add]

/-- A row's degree. -/
theorem v15_at (W : Model.SW.Idx → ℝ) (U : Model.SU.Idx → ℝ) (b : Fin 4) (I : Fin 4096) :
    val_main_v15 (F := Ideal) (fun i : S4x4096x4096.Idx => ((W i : ℝ) : EReal))
        (fun i : S4096x16.Idx => ((U i : ℝ) : EReal)) (ix2 b I)
      = ((Model.deg W U Literals.half b I : ℝ) : EReal) := by
  rw [val_main_v15_apply, val_main_cst_2_apply]
  simp only [Ideal.ofBits_def, Literals.ofBits_zero]
  unfold Model.deg
  rw [zero_add, RealCoe.coe_sum]
  refine Finset.sum_congr rfl fun k _ => ?_
  have e : idx_main_v15 (ix2 b I) k = ix3 b I k :=
    funext fun a => Fin.ext (by match a with | ⟨0, _⟩ => rfl | ⟨1, _⟩ => rfl | ⟨2, _⟩ => rfl)
  rw [e, v14_at]

/-- A row's normaliser: the clamped degree is positive, so its reciprocal square root is the real one. -/
theorem v18_at (W : Model.SW.Idx → ℝ) (U : Model.SU.Idx → ℝ) (b : Fin 4) (I : Fin 4096) :
    val_main_v18 (F := Ideal) (fun i : S4x4096x4096.Idx => ((W i : ℝ) : EReal))
        (fun i : S4096x16.Idx => ((U i : ℝ) : EReal)) (ix2 b I)
      = ((Model.dinv W U Literals.half Literals.clamp b I : ℝ) : EReal) := by
  rw [val_main_v18_apply, val_main_v17_apply, val_main_v16_apply, val_main_cst_3_apply, v15_at]
  simp only [Ideal.hostUnary_rsqrt_def, Ideal.maximumf_def, Ideal.ofBits_def, Literals.ofBits_clamp]
  have hpos : 0 < max (Model.deg W U Literals.half b I) Literals.clamp :=
    lt_of_lt_of_le Literals.clamp_pos (le_max_right _ _)
  rw [← (EReal.coe_strictMono.monotone.map_max (a := Model.deg W U Literals.half b I) (b := Literals.clamp)), Ideal.rsqrt_coe, if_neg (not_lt.mpr hpos.le), if_neg hpos.ne']
  rfl

/-- An entry of the matrix scaled by the normalisers of its row and of its column. -/
theorem v24_at (W : Model.SW.Idx → ℝ) (U : Model.SU.Idx → ℝ) (b : Fin 4) (I J : Fin 4096) :
    val_main_v24 (F := Ideal) (fun i : S4x4096x4096.Idx => ((W i : ℝ) : EReal))
        (fun i : S4096x16.Idx => ((U i : ℝ) : EReal)) (ix3 b I J)
      = (((Model.kern W U Literals.half b I J * Model.dinv W U Literals.half Literals.clamp b I)
          * Model.dinv W U Literals.half Literals.clamp b J : ℝ) : EReal) := by
  have e1 : idx_main_v19 (idx_main_v20 (ix3 b I J)) = ix2 b I :=
    funext fun a => Fin.ext (by match a with | ⟨0, _⟩ => rfl | ⟨1, _⟩ => rfl)
  have e2 : idx_main_v22 (idx_main_v23 (ix3 b I J)) = ix2 b J :=
    funext fun a => Fin.ext (by match a with | ⟨0, _⟩ => rfl | ⟨1, _⟩ => rfl)
  rw [val_main_v24_apply, val_main_v21_apply, val_main_v20_apply, val_main_v19_apply, val_main_v23_apply,
    val_main_v22_apply, e1, e2, v14_at, v18_at, v18_at]
  simp only [Ideal.mulf_def]
  rw [EReal.coe_mul, EReal.coe_mul]

/-- The coupling of a row with a channel. -/
theorem v25_at (W : Model.SW.Idx → ℝ) (U : Model.SU.Idx → ℝ) (x : Model.SX.Idx → ℝ) (b : Fin 4) (I : Fin 4096)
    (c : Fin 64) :
    val_main_v25 (F := Ideal) (fun i : S4x4096x64.Idx => ((x i : ℝ) : EReal))
        (fun i : S4x4096x4096.Idx => ((W i : ℝ) : EReal)) (fun i : S4096x16.Idx => ((U i : ℝ) : EReal)) (ix3 b I c)
      = ((Model.couple W U x Literals.half Literals.clamp b I c : ℝ) : EReal) := by
  rw [val_main_v25_apply]
  unfold Model.couple Model.coupleWith
  rw [RealCoe.coe_sum]
  refine Finset.sum_congr rfl fun k _ => ?_
  have e1 : lidx_main_v25 (ix3 b I c) k = ix3 b I k :=
    funext fun a => Fin.ext (by match a with | ⟨0, _⟩ => rfl | ⟨1, _⟩ => rfl | ⟨2, _⟩ => rfl)
  have e2 : ridx_main_v25 (ix3 b I c) k = ix3 b k c :=
    funext fun a => Fin.ext (by match a with | ⟨0, _⟩ => rfl | ⟨1, _⟩ => rfl | ⟨2, _⟩ => rfl)
  rw [e1, e2, v24_at, EReal.coe_mul]
  rfl

/-- With real inputs the reference's last stage is the model's result, entry by entry. -/
theorem result_eq (W : Model.SW.Idx → ℝ) (U : Model.SU.Idx → ℝ) (x : Model.SX.Idx → ℝ) (ws : ℝ) :
    val_main_v27 (F := Ideal) (fun i : S4x4096x64.Idx => ((x i : ℝ) : EReal)) (fun i : S4x4096x4096.Idx => ((W i : ℝ) : EReal))
        (fun i : S4096x16.Idx => ((U i : ℝ) : EReal)) (fun _ : S_.Idx => ((ws : ℝ) : EReal))
      = fun i : S4x4096x64.Idx => ((Model.result W U x ws Literals.half Literals.clamp (i 0) (i 1) (i 2) : ℝ) : EReal) := by
  funext i
  obtain ⟨b, I, c, rfl⟩ : ∃ (b : Fin 4) (I : Fin 4096) (c : Fin 64), i = ix3 b I c := ⟨i 0, i 1, i 2, eq_ix3 i⟩
  rw [val_main_v27_apply, val_main_v26_apply, v25_at]
  simp only [Ideal.mulf_def]
  show ((ws : ℝ) : EReal) * _ = ((ws * Model.couple W U x Literals.half Literals.clamp b I c : ℝ) : EReal)
  rw [EReal.coe_mul]

end Cert.ReferenceIdeal.RefValue

end
-- ==== Proof.Finite.lean ====
/-
  From the precondition to real inputs.

  The precondition says of each of the four inputs that the absolute value of every entry lies strictly below plus
  infinity. An extended real with that property is neither infinity, so it is a real number; choosing those reals
  entry by entry writes each input as the coercion of a real array.
-/
import proofs.«162411_j3959959847448_1_alg».proof.Pre_finite_inputs
import proofs.«162411_j3959959847448_1_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen

instance : Subsingleton S_.Idx := ⟨fun a b => funext fun d => d.elim0⟩

/-- The literal the precondition compares against is plus infinity. -/
theorem ofBits_inf : Ideal.ofBits .f32 0x7F800000#32 = ⊤ := by
  simp [Ideal.ofBits, Ideal.ieee]

/-- An extended real whose absolute value is strictly below plus infinity is a real. -/
theorem real_of_abs_lt (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- The same, as the precondition spells the test on one entry. -/
theorem real_of_test {s : Shape} (a b : FVec Ideal s .f32) (hb : ∀ i, b i = Ideal.ofBits .f32 0x7F800000#32) (i : s.Idx)
    (h : cmpf (F := Ideal) .olt (Host.absf a) b i = 1#1) : ∃ r : ℝ, a i = (r : EReal) := by
  refine real_of_abs_lt (a i) ?_
  rw [← ofBits_inf, ← hb i]; exact h

/-- Under the precondition each input is the coercion of a real array. -/
theorem reals_of_pre (a0 : FVec Ideal S4x4096x64 .f32) (a1 : FVec Ideal S4x4096x4096 .f32) (a2 : FVec Ideal S4096x16 .f32)
    (a3 : FVec Ideal S_ .f32) (h : fn (F := Ideal) a0 a1 a2 a3 = fun _ => 1#1) :
    (∃ x : S4x4096x64.Idx → ℝ, a0 = fun i => ((x i : ℝ) : EReal))
    ∧ (∃ W : S4x4096x4096.Idx → ℝ, a1 = fun i => ((W i : ℝ) : EReal))
    ∧ (∃ U : S4096x16.Idx → ℝ, a2 = fun i => ((U i : ℝ) : EReal))
    ∧ (∃ ws : ℝ, a3 = fun _ => ((ws : ℝ) : EReal)) := by
  have h0 := congrFun h ValueIdx.ix0
  dsimp only [fn, fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨hx, hw⟩ := IntOp.andi_eq_one.1 (show IntOp.andi _ _ = 1#1 from h01)
  have e0 : ∀ i, ∃ r : ℝ, a0 i = (r : EReal) := fun i =>
    real_of_test a0 _ (fun _ => rfl) i (Host.reduce_andi_all _ _ _ _ ValueIdx.ix0 hx i)
  have e1 : ∀ i, ∃ r : ℝ, a1 i = (r : EReal) := fun i =>
    real_of_test a1 _ (fun _ => rfl) i (Host.reduce_andi_all _ _ _ _ ValueIdx.ix0 hw i)
  have e2 : ∀ i, ∃ r : ℝ, a2 i = (r : EReal) := fun i =>
    real_of_test a2 _ (fun _ => rfl) i (Host.reduce_andi_all _ _ _ _ ValueIdx.ix0 h2 i)
  have e3 : ∀ i, ∃ r : ℝ, a3 i = (r : EReal) := fun i =>
    real_of_test a3 _ (fun _ => rfl) i (Host.reduce_andi_all _ _ _ _ ValueIdx.ix0 h3 i)
  choose x hx' using e0
  choose W hW' using e1
  choose U hU' using e2
  obtain ⟨ws, hws⟩ := e3 ValueIdx.ix0
  exact ⟨⟨x, funext hx'⟩, ⟨W, funext hW'⟩, ⟨U, funext hU'⟩, ⟨ws, funext fun i => by rw [Subsingleton.elim i ValueIdx.ix0]; exact hws⟩⟩

end Cert.Finite

end
-- ==== Proof.lean ====
/-
  Two pallas_calls against a jnp reference: a gated, symmetrised, degree-normalised coupling.

  With gate(I, J) the logistic function of the inner product of rows I and J of U, the reference forms
  K(b, I, J) = (W(b, I, J) + W(b, J, I)) / 2 * gate(I, J), the row degrees deg(b, I) = sum over J of K(b, I, J), the
  normalisers d = rsqrt (max (deg, eps)), and returns w_scale * sum over J of K(b, I, J) d(b, I) d(b, J) x(b, J, c).
  The kernel never forms K. Its first region walks the blocks of W twice over — a block and its transposed-source
  block — and accumulates, block column by block column, half the gated row totals into a running column from which it
  writes d; its second region does the same with the ones vector replaced by d x, and scales the completed block by d.

  The three frames: the two kernel programs run through both regions and the host's scaling with every argument buffer
  lent to the regions and returned (one run, generic in the float instance, read at the word level and at the extended
  reals); the reference's run is its list of host operations. The equivalence: under the precondition every input entry
  is a real number, so both sides compute inside the reals, where halving distributes over the two block sums, the gate
  is symmetric, a row's eight block sums make the row's sum, and the normaliser of row I moves across the sum over J.
  Both results are the coercion of one real array.
-/
import proofs.«162411_j3959959847448_1_alg».proof.Defs
import proofs.«162411_j3959959847448_1_alg».proof.Proof.Gen.Kernel
import proofs.«162411_j3959959847448_1_alg».proof.Proof.Gen.KernelIdeal
import proofs.«162411_j3959959847448_1_alg».proof.Proof.Gen.ReferenceIdeal
import proofs.«162411_j3959959847448_1_alg».proof.Proof.Gen.Pre_finite_inputs
import proofs.«162411_j3959959847448_1_alg».proof.Proof.Gen.ReferenceIdeal.Run
import proofs.«162411_j3959959847448_1_alg».proof.Proof.Bits.TwoRegionRun
import proofs.«162411_j3959959847448_1_alg».proof.Proof.Ideal.TwoRegionRun
import proofs.«162411_j3959959847448_1_alg».proof.Proof.Ideal.DegreeValue
import proofs.«162411_j3959959847448_1_alg».proof.Proof.Ideal.CouplingValue
import proofs.«162411_j3959959847448_1_alg».proof.Proof.RefValue
import proofs.«162411_j3959959847448_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen Cert.KernelIdeal.Hand in
/-- With real inputs the kernel's result buffer ends at the model's result. -/
theorem kernel_result (m : (ℓ : Loc nD τ sig) → Buf (Elt Ideal) ℓ) (c : Dev nD)
    (x : Model.SX.Idx → ℝ) (W : Model.SW.Idx → ℝ) (U : Model.SU.Idx → ℝ) (ws : ℝ)
    (hx : m ((c.tc : Thread nD τ).loc main_arg0) = fun i : S4x4096x64.Idx => ((x i : ℝ) : EReal))
    (hW : m ((c.tc : Thread nD τ).loc main_arg1) = fun i : S4x4096x4096.Idx => ((W i : ℝ) : EReal))
    (hU : m ((c.tc : Thread nD τ).loc main_arg2) = fun i : S4096x16.Idx => ((U i : ℝ) : EReal))
    (hws : m ((c.tc : Thread nD τ).loc main_arg3) = fun _ : S_.Idx => ((ws : ℝ) : EReal)) :
    (mulf (outArr (F := Ideal) m c) (broadcastInDim S4x4096x64 ![] bcast_S_S4x4096x64 (m ((c : Thread nD τ).loc main_arg3)))
        : FVec Ideal S4x4096x64 .f32)
      = fun i : S4x4096x64.Idx => ((Model.result W U x ws Literals.half Literals.clamp (i 0) (i 1) (i 2) : ℝ) : EReal) := by
  have hd : buf1 (F := Ideal) m c main_v0 = fun i : S4x4096x1.Idx => ((Model.dcol W U Literals.half Literals.clamp i : ℝ) : EReal) :=
    (val1_deg m c).trans (degree_column (buf0 m) c W U hW hU)
  have hout := coupled_array (buf1 m) c W U x (Model.dcol W U Literals.half Literals.clamp)
    ((val1_of_ne m c main_arg1 (by decide)).trans hW) ((val1_of_ne m c main_arg2 (by decide)).trans hU)
    ((val1_of_ne m c main_arg0 (by decide)).trans hx) hd
  unfold outArr
  rw [hout, hws]
  funext i
  show ((Model.coupleWith W U x Literals.half (Model.dcol W U Literals.half Literals.clamp) (i 0) (i 1) (i 2) : ℝ) : EReal) * ((ws : ℝ) : EReal) = _
  rw [← EReal.coe_mul, mul_comm]
  rfl

open Cert.KernelIdeal in
/-- Under the precondition each input of a core is the coercion of a real array. -/
theorem real_inputs (m : (ℓ : Loc nD τ sig) → Buf (Elt Ideal) ℓ)
    (hpre : Cert.Pre_KernelIdeal (hPre_finite_inputs := Cert.Pre_finite_inputs.Gen.facts) m) (c : Dev nD) :
    ∃ (x : Model.SX.Idx → ℝ) (W : Model.SW.Idx → ℝ) (U : Model.SU.Idx → ℝ) (ws : ℝ),
      m ((c.tc : Thread nD τ).loc main_arg0) = (fun i : S4x4096x64.Idx => ((x i : ℝ) : EReal))
      ∧ m ((c.tc : Thread nD τ).loc main_arg1) = (fun i : S4x4096x4096.Idx => ((W i : ℝ) : EReal))
      ∧ m ((c.tc : Thread nD τ).loc main_arg2) = (fun i : S4096x16.Idx => ((U i : ℝ) : EReal))
      ∧ m ((c.tc : Thread nD τ).loc main_arg3) = (fun _ : S_.Idx => ((ws : ℝ) : EReal)) := by
  obtain ⟨⟨x, hx⟩, ⟨W, hW⟩, ⟨U, hU⟩, ⟨ws, hws⟩⟩ := Cert.Finite.reals_of_pre _ _ _ _ (hpre c)
  exact ⟨x, W, U, ws, hx, hW, hU, hws⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose x W U ws hx hW hU hws using real_inputs m hpre
  refine ⟨fun c => fun i : Cert.KernelIdeal.S4x4096x64.Idx =>
    ((Model.result (W c) (U c) (x c) (ws c) Literals.half Literals.clamp (i 0) (i 1) (i 2) : ℝ) : EReal), ?_, ?_⟩
  · exact (θ_run Cert.KernelIdeal.defs _ _).mono
      (fun _ h c => ⟨(h c).1.trans (kernel_result m c (x c) (W c) (U c) (ws c) (hx c) (hW c) (hU c) (hws c)), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v27_eq _ _ _ _).trans ?_
    rw [(hagree c).1, (hagree c).2.1, (hagree c).2.2.1, (hagree c).2.2.2, hx c, hW c, hU c, hws c]
    exact Cert.ReferenceIdeal.RefValue.result_eq (W c) (U c) (x c) (ws c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
